-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S66x128x128 : Shape := ⟨3, ![66, 128, 128]⟩
abbrev S66x128 : Shape := ⟨2, ![66, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S66x128x128 : S_.BroadcastsInDim S66x128x128 (![] : Fin 0 → Fin S66x128x128.rank)
  reducesTo_S66x128x128_S_d0_1_2 : S66x128x128.ReducesTo [0, 1, 2] S_
  bcast_S_S66x128 : S_.BroadcastsInDim S66x128 (![] : Fin 0 → Fin S66x128.rank)
  reducesTo_S66x128_S_d0_1 : S66x128.ReducesTo [0, 1] S_

variable [Facts]

def fn {F : FTy → Type} [FloatOps F] (main_arg0 : FVec F S16384x128 .f32) (main_arg1 : FVec F S66x128x128 .f32) (main_arg2 : FVec F S66x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S66x128x128 .f32 := Host.absf main_arg1
  let main_cst_0 : FVec F S_ .f32 := constant S_ .f32 0x7F800000#32
  let main_v5 : FVec F S66x128x128 .f32 := broadcastInDim S66x128x128 ![] bcast_S_S66x128x128 main_cst_0
  let main_v6 : IVec S66x128x128 1 := cmpf .olt main_v4 main_v5
  let main_c_1 : IVec S_ 1 := constantI S_ 1 1#1
  let main_v7 : IVec S_ 1 := (fun x v => Host.reduce IntOp.andi x v reducesTo_S66x128x128_S_d0_1_2 h_S_) main_v6 main_c_1
  let main_v8 : IVec S_ 1 := andi main_v3 main_v7
  let main_v9 : FVec F S66x128 .f32 := Host.absf main_arg2
  let main_cst_2 : FVec F S_ .f32 := constant S_ .f32 0x7F800000#32
  let main_v10 : FVec F S66x128 .f32 := broadcastInDim S66x128 ![] bcast_S_S66x128 main_cst_2
  let main_v11 : IVec S66x128 1 := cmpf .olt main_v9 main_v10
  let main_c_3 : IVec S_ 1 := constantI S_ 1 1#1
  let main_v12 : IVec S_ 1 := (fun x v => Host.reduce IntOp.andi x v reducesTo_S66x128_S_d0_1 h_S_) main_v11 main_c_3
  let main_v13 : IVec S_ 1 := andi main_v8 main_v12
  main_v13
-- ==== Kernel.lean ====
abbrev S16384x128 : Shape := ⟨2, ![16384, 128]⟩
abbrev S66x128x128 : Shape := ⟨3, ![66, 128, 128]⟩
abbrev S66x128 : Shape := ⟨2, ![66, 128]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 4
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S66x128x128, .f32⟩
  | .hbm, ⟨2, _⟩ => ⟨S66x128, .f32⟩
  | .hbm, ⟨3, _⟩ => ⟨S16384x128, .f32⟩
  | .local _ .vmem, ⟨0, _⟩ => ⟨S2048x128, .f32⟩
  | .local _ .vmem, ⟨1, _⟩ => ⟨S2048x128, .f32⟩
  | .local _ .vmem, ⟨2, _⟩ => ⟨S66x128x128, .f32⟩
  | .local _ .vmem, ⟨3, _⟩ => ⟨S66x128, .f32⟩
  | .local _ .vmem, ⟨4, _⟩ => ⟨S2048x128, .f32⟩
  | .local _ .vmem, ⟨5, _⟩ => ⟨S2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S66x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S66x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2048x128_S2048x128_0_0 : ∀ a, (![0, 0] : Fin 2 → Nat) a + S2048x128.size a ≤ S2048x128.size a
  h_S2048x128 : 0 < S2048x128.numel
  inb_S66x128x128_S1x128x128_0_0_0 : ∀ a, (![0, 0, 0] : Fin 3 → Nat) a + S1x128x128.size a ≤ S66x128x128.size a
  h_S1x128x128 : 0 < S1x128x128.numel
  shapeCasts_S1x128x128_S128x128 : S1x128x128.ShapeCasts S128x128
  bitsLt_bf16_f32 : FTy.bits .bf16 < FTy.bits .f32
  inb_S66x128_S1x128_0_0 : ∀ a, (![0, 0] : Fin 2 → Nat) a + S1x128.size a ≤ S66x128.size a
  h_S1x128 : 0 < S1x128.numel
  shapeCasts_S1x128_S128 : S1x128.ShapeCasts S128
  shapeCasts_S128_S1x128 : S128.ShapeCasts S1x128
  broadcasts_S1x128_S2048x128 : S1x128.Broadcasts S2048x128
  inb_S66x128x128_S1x128x128_1_0_0 : ∀ a, (![1, 0, 0] : Fin 3 → Nat) a + S1x128x128.size a ≤ S66x128x128.size a
  inb_S66x128_S1x128_1_0 : ∀ a, (![1, 0] : Fin 2 → Nat) a + S1x128.size a ≤ S66x128.size a
  inb_S66x128x128_S1x128x128_2_0_0 : ∀ a, (![2, 0, 0] : Fin 3 → Nat) a + S1x128x128.size a ≤ S66x128x128.size a
  inb_S66x128_S1x128_2_0 : ∀ a, (![2, 0] : Fin 2 → Nat) a + S1x128.size a ≤ S66x128.size a
  inb_S66x128x128_S1x128x128_3_0_0 : ∀ a, (![3, 0, 0] : Fin 3 → Nat) a + S1x128x128.size a ≤ S66x128x128.size a
  inb_S66x128_S1x128_3_0 : ∀ a, (![3, 0] : Fin 2 → Nat) a + S1x128.size a ≤ S66x128.size a
  inb_S66x128x128_S1x128x128_4_0_0 : ∀ a, (![4, 0, 0] : Fin 3 → Nat) a + S1x128x128.size a ≤ S66x128x128.size a
  inb_S66x128_S1x128_4_0 : ∀ a, (![4, 0] : Fin 2 → Nat) a + S1x128.size a ≤ S66x128.size a
  inb_S66x128x128_S1x128x128_5_0_0 : ∀ a, (![5, 0, 0] : Fin 3 → Nat) a + S1x128x128.size a ≤ S66x128x128.size a
  inb_S66x128_S1x128_5_0 : ∀ a, (![5, 0] : Fin 2 → Nat) a + S1x128.size a ≤ S66x128.size a
  inb_S66x128x128_S1x128x128_6_0_0 : ∀ a, (![6, 0, 0] : Fin 3 → Nat) a + S1x128x128.size a ≤ S66x128x128.size a
  inb_S66x128_S1x128_6_0 : ∀ a, (![6, 0] : Fin 2 → Nat) a + S1x128.size a ≤ S66x128.size a
  inb_S66x128x128_S1x128x128_7_0_0 : ∀ a, (![7, 0, 0] : Fin 3 → Nat) a + S1x128x128.size a ≤ S66x128x128.size a
  inb_S66x128_S1x128_7_0 : ∀ a, (![7, 0] : Fin 2 → Nat) a + S1x128.size a ≤ S66x128.size a
  inb_S66x128x128_S1x128x128_8_0_0 : ∀ a, (![8, 0, 0] : Fin 3 → Nat) a + S1x128x128.size a ≤ S66x128x128.size a
  inb_S66x128_S1x128_8_0 : ∀ a, (![8, 0] : Fin 2 → Nat) a + S1x128.size a ≤ S66x128.size a
  inb_S66x128x128_S1x128x128_9_0_0 : ∀ a, (![9, 0, 0] : Fin 3 → Nat) a + S1x128x128.size a ≤ S66x128x128.size a
  inb_S66x128_S1x128_9_0 : ∀ a, (![9, 0] : Fin 2 → Nat) a + S1x128.size a ≤ S66x128.size a
  inb_S66x128x128_S1x128x128_10_0_0 : ∀ a, (![10, 0, 0] : Fin 3 → Nat) a + S1x128x128.size a ≤ S66x128x128.size a
  inb_S66x128_S1x128_10_0 : ∀ a, (![10, 0] : Fin 2 → Nat) a + S1x128.size a ≤ S66x128.size a
  inb_S66x128x128_S1x128x128_11_0_0 : ∀ a, (![11, 0, 0] : Fin 3 → Nat) a + S1x128x128.size a ≤ S66x128x128.size a
  inb_S66x128_S1x128_11_0 : ∀ a, (![11, 0] : Fin 2 → Nat) a + S1x128.size a ≤ S66x128.size a
  inb_S66x128x128_S1x128x128_12_0_0 : ∀ a, (![12, 0, 0] : Fin 3 → Nat) a + S1x128x128.size a ≤ S66x128x128.size a
  inb_S66x128_S1x128_12_0 : ∀ a, (![12, 0] : Fin 2 → Nat) a + S1x128.size a ≤ S66x128.size a
  inb_S66x128x128_S1x128x128_13_0_0 : ∀ a, (![13, 0, 0] : Fin 3 → Nat) a + S1x128x128.size a ≤ S66x128x128.size a
  inb_S66x128_S1x128_13_0 : ∀ a, (![13, 0] : Fin 2 → Nat) a + S1x128.size a ≤ S66x128.size a
  inb_S66x128x128_S1x128x128_14_0_0 : ∀ a, (![14, 0, 0] : Fin 3 → Nat) a + S1x128x128.size a ≤ S66x128x128.size a
  inb_S66x128_S1x128_14_0 : ∀ a, (![14, 0] : Fin 2 → Nat) a + S1x128.size a ≤ S66x128.size a
  inb_S66x128x128_S1x128x128_15_0_0 : ∀ a, (![15, 0, 0] : Fin 3 → Nat) a + S1x128x128.size a ≤ S66x128x128.size a
  inb_S66x128_S1x128_15_0 : ∀ a, (![15, 0] : Fin 2 → Nat) a + S1x128.size a ≤ S66x128.size a
  inb_S66x128x128_S1x128x128_16_0_0 : ∀ a, (![16, 0, 0] : Fin 3 → Nat) a + S1x128x128.size a ≤ S66x128x128.size a
  inb_S66x128_S1x128_16_0 : ∀ a, (![16, 0] : Fin 2 → Nat) a + S1x128.size a ≤ S66x128.size a
  inb_S66x128x128_S1x128x128_17_0_0 : ∀ a, (![17, 0, 0] : Fin 3 → Nat) a + S1x128x128.size a ≤ S66x128x128.size a
  inb_S66x128_S1x128_17_0 : ∀ a, (![17, 0] : Fin 2 → Nat) a + S1x128.size a ≤ S66x128.size a
  inb_S66x128x128_S1x128x128_18_0_0 : ∀ a, (![18, 0, 0] : Fin 3 → Nat) a + S1x128x128.size a ≤ S66x128x128.size a
  inb_S66x128_S1x128_18_0 : ∀ a, (![18, 0] : Fin 2 → Nat) a + S1x128.size a ≤ S66x128.size a
  inb_S66x128x128_S1x128x128_19_0_0 : ∀ a, (![19, 0, 0] : Fin 3 → Nat) a + S1x128x128.size a ≤ S66x128x128.size a
  inb_S66x128_S1x128_19_0 : ∀ a, (![19, 0] : Fin 2 → Nat) a + S1x128.size a ≤ S66x128.size a
  inb_S66x128x128_S1x128x128_20_0_0 : ∀ a, (![20, 0, 0] : Fin 3 → Nat) a + S1x128x128.size a ≤ S66x128x128.size a
  inb_S66x128_S1x128_20_0 : ∀ a, (![20, 0] : Fin 2 → Nat) a + S1x128.size a ≤ S66x128.size a
  inb_S66x128x128_S1x128x128_21_0_0 : ∀ a, (![21, 0, 0] : Fin 3 → Nat) a + S1x128x128.size a ≤ S66x128x128.size a
  inb_S66x128_S1x128_21_0 : ∀ a, (![21, 0] : Fin 2 → Nat) a + S1x128.size a ≤ S66x128.size a
  inb_S66x128x128_S1x128x128_22_0_0 : ∀ a, (![22, 0, 0] : Fin 3 → Nat) a + S1x128x128.size a ≤ S66x128x128.size a
  inb_S66x128_S1x128_22_0 : ∀ a, (![22, 0] : Fin 2 → Nat) a + S1x128.size a ≤ S66x128.size a
  inb_S66x128x128_S1x128x128_23_0_0 : ∀ a, (![23, 0, 0] : Fin 3 → Nat) a + S1x128x128.size a ≤ S66x128x128.size a
  inb_S66x128_S1x128_23_0 : ∀ a, (![23, 0] : Fin 2 → Nat) a + S1x128.size a ≤ S66x128.size a
  inb_S66x128x128_S1x128x128_24_0_0 : ∀ a, (![24, 0, 0] : Fin 3 → Nat) a + S1x128x128.size a ≤ S66x128x128.size a
  inb_S66x128_S1x128_24_0 : ∀ a, (![24, 0] : Fin 2 → Nat) a + S1x128.size a ≤ S66x128.size a
  inb_S66x128x128_S1x128x128_25_0_0 : ∀ a, (![25, 0, 0] : Fin 3 → Nat) a + S1x128x128.size a ≤ S66x128x128.size a
  inb_S66x128_S1x128_25_0 : ∀ a, (![25, 0] : Fin 2 → Nat) a + S1x128.size a ≤ S66x128.size a
  inb_S66x128x128_S1x128x128_26_0_0 : ∀ a, (![26, 0, 0] : Fin 3 → Nat) a + S1x128x128.size a ≤ S66x128x128.size a
  inb_S66x128_S1x128_26_0 : ∀ a, (![26, 0] : Fin 2 → Nat) a + S1x128.size a ≤ S66x128.size a
  inb_S66x128x128_S1x128x128_27_0_0 : ∀ a, (![27, 0, 0] : Fin 3 → Nat) a + S1x128x128.size a ≤ S66x128x128.size a
  inb_S66x128_S1x128_27_0 : ∀ a, (![27, 0] : Fin 2 → Nat) a + S1x128.size a ≤ S66x128.size a
  inb_S66x128x128_S1x128x128_28_0_0 : ∀ a, (![28, 0, 0] : Fin 3 → Nat) a + S1x128x128.size a ≤ S66x128x128.size a
  inb_S66x128_S1x128_28_0 : ∀ a, (![28, 0] : Fin 2 → Nat) a + S1x128.size a ≤ S66x128.size a
  inb_S66x128x128_S1x128x128_29_0_0 : ∀ a, (![29, 0, 0] : Fin 3 → Nat) a + S1x128x128.size a ≤ S66x128x128.size a
  inb_S66x128_S1x128_29_0 : ∀ a, (![29, 0] : Fin 2 → Nat) a + S1x128.size a ≤ S66x128.size a
  inb_S66x128x128_S1x128x128_30_0_0 : ∀ a, (![30, 0, 0] : Fin 3 → Nat) a + S1x128x128.size a ≤ S66x128x128.size a
  inb_S66x128_S1x128_30_0 : ∀ a, (![30, 0] : Fin 2 → Nat) a + S1x128.size a ≤ S66x128.size a
  inb_S66x128x128_S1x128x128_31_0_0 : ∀ a, (![31, 0, 0] : Fin 3 → Nat) a + S1x128x128.size a ≤ S66x128x128.size a
  inb_S66x128_S1x128_31_0 : ∀ a, (![31, 0] : Fin 2 → Nat) a + S1x128.size a ≤ S66x128.size a
  inb_S66x128x128_S1x128x128_32_0_0 : ∀ a, (![32, 0, 0] : Fin 3 → Nat) a + S1x128x128.size a ≤ S66x128x128.size a
  inb_S66x128_S1x128_32_0 : ∀ a, (![32, 0] : Fin 2 → Nat) a + S1x128.size a ≤ S66x128.size a
  inb_S66x128x128_S1x128x128_33_0_0 : ∀ a, (![33, 0, 0] : Fin 3 → Nat) a + S1x128x128.size a ≤ S66x128x128.size a
  inb_S66x128_S1x128_33_0 : ∀ a, (![33, 0] : Fin 2 → Nat) a + S1x128.size a ≤ S66x128.size a
  inb_S66x128x128_S1x128x128_34_0_0 : ∀ a, (![34, 0, 0] : Fin 3 → Nat) a + S1x128x128.size a ≤ S66x128x128.size a
  inb_S66x128_S1x128_34_0 : ∀ a, (![34, 0] : Fin 2 → Nat) a + S1x128.size a ≤ S66x128.size a
  inb_S66x128x128_S1x128x128_35_0_0 : ∀ a, (![35, 0, 0] : Fin 3 → Nat) a + S1x128x128.size a ≤ S66x128x128.size a
  inb_S66x128_S1x128_35_0 : ∀ a, (![35, 0] : Fin 2 → Nat) a + S1x128.size a ≤ S66x128.size a
  inb_S66x128x128_S1x128x128_36_0_0 : ∀ a, (![36, 0, 0] : Fin 3 → Nat) a + S1x128x128.size a ≤ S66x128x128.size a
  inb_S66x128_S1x128_36_0 : ∀ a, (![36, 0] : Fin 2 → Nat) a + S1x128.size a ≤ S66x128.size a
  inb_S66x128x128_S1x128x128_37_0_0 : ∀ a, (![37, 0, 0] : Fin 3 → Nat) a + S1x128x128.size a ≤ S66x128x128.size a
  inb_S66x128_S1x128_37_0 : ∀ a, (![37, 0] : Fin 2 → Nat) a + S1x128.size a ≤ S66x128.size a
  inb_S66x128x128_S1x128x128_38_0_0 : ∀ a, (![38, 0, 0] : Fin 3 → Nat) a + S1x128x128.size a ≤ S66x128x128.size a
  inb_S66x128_S1x128_38_0 : ∀ a, (![38, 0] : Fin 2 → Nat) a + S1x128.size a ≤ S66x128.size a
  inb_S66x128x128_S1x128x128_39_0_0 : ∀ a, (![39, 0, 0] : Fin 3 → Nat) a + S1x128x128.size a ≤ S66x128x128.size a
  inb_S66x128_S1x128_39_0 : ∀ a, (![39, 0] : Fin 2 → Nat) a + S1x128.size a ≤ S66x128.size a
  inb_S66x128x128_S1x128x128_40_0_0 : ∀ a, (![40, 0, 0] : Fin 3 → Nat) a + S1x128x128.size a ≤ S66x128x128.size a
  inb_S66x128_S1x128_40_0 : ∀ a, (![40, 0] : Fin 2 → Nat) a + S1x128.size a ≤ S66x128.size a
  inb_S66x128x128_S1x128x128_41_0_0 : ∀ a, (![41, 0, 0] : Fin 3 → Nat) a + S1x128x128.size a ≤ S66x128x128.size a
  inb_S66x128_S1x128_41_0 : ∀ a, (![41, 0] : Fin 2 → Nat) a + S1x128.size a ≤ S66x128.size a
  inb_S66x128x128_S1x128x128_42_0_0 : ∀ a, (![42, 0, 0] : Fin 3 → Nat) a + S1x128x128.size a ≤ S66x128x128.size a
  inb_S66x128_S1x128_42_0 : ∀ a, (![42, 0] : Fin 2 → Nat) a + S1x128.size a ≤ S66x128.size a
  inb_S66x128x128_S1x128x128_43_0_0 : ∀ a, (![43, 0, 0] : Fin 3 → Nat) a + S1x128x128.size a ≤ S66x128x128.size a
  inb_S66x128_S1x128_43_0 : ∀ a, (![43, 0] : Fin 2 → Nat) a + S1x128.size a ≤ S66x128.size a
  inb_S66x128x128_S1x128x128_44_0_0 : ∀ a, (![44, 0, 0] : Fin 3 → Nat) a + S1x128x128.size a ≤ S66x128x128.size a
  inb_S66x128_S1x128_44_0 : ∀ a, (![44, 0] : Fin 2 → Nat) a + S1x128.size a ≤ S66x128.size a
  inb_S66x128x128_S1x128x128_45_0_0 : ∀ a, (![45, 0, 0] : Fin 3 → Nat) a + S1x128x128.size a ≤ S66x128x128.size a
  inb_S66x128_S1x128_45_0 : ∀ a, (![45, 0] : Fin 2 → Nat) a + S1x128.size a ≤ S66x128.size a
  inb_S66x128x128_S1x128x128_46_0_0 : ∀ a, (![46, 0, 0] : Fin 3 → Nat) a + S1x128x128.size a ≤ S66x128x128.size a
  inb_S66x128_S1x128_46_0 : ∀ a, (![46, 0] : Fin 2 → Nat) a + S1x128.size a ≤ S66x128.size a
  inb_S66x128x128_S1x128x128_47_0_0 : ∀ a, (![47, 0, 0] : Fin 3 → Nat) a + S1x128x128.size a ≤ S66x128x128.size a
  inb_S66x128_S1x128_47_0 : ∀ a, (![47, 0] : Fin 2 → Nat) a + S1x128.size a ≤ S66x128.size a
  inb_S66x128x128_S1x128x128_48_0_0 : ∀ a, (![48, 0, 0] : Fin 3 → Nat) a + S1x128x128.size a ≤ S66x128x128.size a
  inb_S66x128_S1x128_48_0 : ∀ a, (![48, 0] : Fin 2 → Nat) a + S1x128.size a ≤ S66x128.size a
  inb_S66x128x128_S1x128x128_49_0_0 : ∀ a, (![49, 0, 0] : Fin 3 → Nat) a + S1x128x128.size a ≤ S66x128x128.size a
  inb_S66x128_S1x128_49_0 : ∀ a, (![49, 0] : Fin 2 → Nat) a + S1x128.size a ≤ S66x128.size a
  inb_S66x128x128_S1x128x128_50_0_0 : ∀ a, (![50, 0, 0] : Fin 3 → Nat) a + S1x128x128.size a ≤ S66x128x128.size a
  inb_S66x128_S1x128_50_0 : ∀ a, (![50, 0] : Fin 2 → Nat) a + S1x128.size a ≤ S66x128.size a
  inb_S66x128x128_S1x128x128_51_0_0 : ∀ a, (![51, 0, 0] : Fin 3 → Nat) a + S1x128x128.size a ≤ S66x128x128.size a
  inb_S66x128_S1x128_51_0 : ∀ a, (![51, 0] : Fin 2 → Nat) a + S1x128.size a ≤ S66x128.size a
  inb_S66x128x128_S1x128x128_52_0_0 : ∀ a, (![52, 0, 0] : Fin 3 → Nat) a + S1x128x128.size a ≤ S66x128x128.size a
  inb_S66x128_S1x128_52_0 : ∀ a, (![52, 0] : Fin 2 → Nat) a + S1x128.size a ≤ S66x128.size a
  inb_S66x128x128_S1x128x128_53_0_0 : ∀ a, (![53, 0, 0] : Fin 3 → Nat) a + S1x128x128.size a ≤ S66x128x128.size a
  inb_S66x128_S1x128_53_0 : ∀ a, (![53, 0] : Fin 2 → Nat) a + S1x128.size a ≤ S66x128.size a
  inb_S66x128x128_S1x128x128_54_0_0 : ∀ a, (![54, 0, 0] : Fin 3 → Nat) a + S1x128x128.size a ≤ S66x128x128.size a
  inb_S66x128_S1x128_54_0 : ∀ a, (![54, 0] : Fin 2 → Nat) a + S1x128.size a ≤ S66x128.size a
  inb_S66x128x128_S1x128x128_55_0_0 : ∀ a, (![55, 0, 0] : Fin 3 → Nat) a + S1x128x128.size a ≤ S66x128x128.size a
  inb_S66x128_S1x128_55_0 : ∀ a, (![55, 0] : Fin 2 → Nat) a + S1x128.size a ≤ S66x128.size a
  inb_S66x128x128_S1x128x128_56_0_0 : ∀ a, (![56, 0, 0] : Fin 3 → Nat) a + S1x128x128.size a ≤ S66x128x128.size a
  inb_S66x128_S1x128_56_0 : ∀ a, (![56, 0] : Fin 2 → Nat) a + S1x128.size a ≤ S66x128.size a
  inb_S66x128x128_S1x128x128_57_0_0 : ∀ a, (![57, 0, 0] : Fin 3 → Nat) a + S1x128x128.size a ≤ S66x128x128.size a
  inb_S66x128_S1x128_57_0 : ∀ a, (![57, 0] : Fin 2 → Nat) a + S1x128.size a ≤ S66x128.size a
  inb_S66x128x128_S1x128x128_58_0_0 : ∀ a, (![58, 0, 0] : Fin 3 → Nat) a + S1x128x128.size a ≤ S66x128x128.size a
  inb_S66x128_S1x128_58_0 : ∀ a, (![58, 0] : Fin 2 → Nat) a + S1x128.size a ≤ S66x128.size a
  inb_S66x128x128_S1x128x128_59_0_0 : ∀ a, (![59, 0, 0] : Fin 3 → Nat) a + S1x128x128.size a ≤ S66x128x128.size a
  inb_S66x128_S1x128_59_0 : ∀ a, (![59, 0] : Fin 2 → Nat) a + S1x128.size a ≤ S66x128.size a
  inb_S66x128x128_S1x128x128_60_0_0 : ∀ a, (![60, 0, 0] : Fin 3 → Nat) a + S1x128x128.size a ≤ S66x128x128.size a
  inb_S66x128_S1x128_60_0 : ∀ a, (![60, 0] : Fin 2 → Nat) a + S1x128.size a ≤ S66x128.size a
  inb_S66x128x128_S1x128x128_61_0_0 : ∀ a, (![61, 0, 0] : Fin 3 → Nat) a + S1x128x128.size a ≤ S66x128x128.size a
  inb_S66x128_S1x128_61_0 : ∀ a, (![61, 0] : Fin 2 → Nat) a + S1x128.size a ≤ S66x128.size a
  inb_S66x128x128_S1x128x128_62_0_0 : ∀ a, (![62, 0, 0] : Fin 3 → Nat) a + S1x128x128.size a ≤ S66x128x128.size a
  inb_S66x128_S1x128_62_0 : ∀ a, (![62, 0] : Fin 2 → Nat) a + S1x128.size a ≤ S66x128.size a
  inb_S66x128x128_S1x128x128_63_0_0 : ∀ a, (![63, 0, 0] : Fin 3 → Nat) a + S1x128x128.size a ≤ S66x128x128.size a
  inb_S66x128_S1x128_63_0 : ∀ a, (![63, 0] : Fin 2 → Nat) a + S1x128.size a ≤ S66x128.size a
  inb_S66x128x128_S1x128x128_64_0_0 : ∀ a, (![64, 0, 0] : Fin 3 → Nat) a + S1x128x128.size a ≤ S66x128x128.size a
  inb_S66x128_S1x128_64_0 : ∀ a, (![64, 0] : Fin 2 → Nat) a + S1x128.size a ≤ S66x128.size a
  inb_S66x128x128_S1x128x128_65_0_0 : ∀ a, (![65, 0, 0] : Fin 3 → Nat) a + S1x128x128.size a ≤ S66x128x128.size a
  inb_S66x128_S1x128_65_0 : ∀ a, (![65, 0] : Fin 2 → Nat) a + S1x128.size a ≤ S66x128.size a
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S66x128x128.size a ≤ S66x128x128.size a
  hwx0_1 : ∀ i : grid0.Coords, EltTy.bits .f32 = 32 ∨ (Rect.block (s := S66x128x128) S66x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S66x128.size a ≤ S66x128.size a
  hwx0_2 : ∀ i : grid0.Coords, EltTy.bits .f32 = 32 ∨ (Rect.block (s := S66x128) S66x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .f32 = 32 ∨ (Rect.block (s := S16384x128) S2048x128.size (cc0_transform_3 i) (hinb0_3 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S66x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S66x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x128 : Shape := ⟨2, ![16384, 128]⟩
abbrev S66x128x128 : Shape := ⟨3, ![66, 128, 128]⟩
abbrev S66x128 : Shape := ⟨2, ![66, 128]⟩
abbrev S1x16384x128 : Shape := ⟨3, ![1, 16384, 128]⟩
abbrev S1x128x128 : Shape := ⟨3, ![1, 128, 128]⟩
abbrev S1x128 : Shape := ⟨2, ![1, 128]⟩
abbrev S1x1x128 : Shape := ⟨3, ![1, 1, 128]⟩
abbrev S_ : Shape := ⟨0, ![]⟩
abbrev S2x16384x128 : Shape := ⟨3, ![2, 16384, 128]⟩
abbrev S2x128x128 : Shape := ⟨3, ![2, 128, 128]⟩
abbrev S2x128 : Shape := ⟨2, ![2, 128]⟩
abbrev S2x1x128 : Shape := ⟨3, ![2, 1, 128]⟩
abbrev S3x16384x128 : Shape := ⟨3, ![3, 16384, 128]⟩
abbrev S3x128x128 : Shape := ⟨3, ![3, 128, 128]⟩
abbrev S3x128 : Shape := ⟨2, ![3, 128]⟩
abbrev S3x1x128 : Shape := ⟨3, ![3, 1, 128]⟩
abbrev S4x16384x128 : Shape := ⟨3, ![4, 16384, 128]⟩
abbrev S4x128x128 : Shape := ⟨3, ![4, 128, 128]⟩
abbrev S4x128 : Shape := ⟨2, ![4, 128]⟩
abbrev S4x1x128 : Shape := ⟨3, ![4, 1, 128]⟩
abbrev S5x16384x128 : Shape := ⟨3, ![5, 16384, 128]⟩
abbrev S5x128x128 : Shape := ⟨3, ![5, 128, 128]⟩
abbrev S5x128 : Shape := ⟨2, ![5, 128]⟩
abbrev S5x1x128 : Shape := ⟨3, ![5, 1, 128]⟩
abbrev S6x16384x128 : Shape := ⟨3, ![6, 16384, 128]⟩
abbrev S6x128x128 : Shape := ⟨3, ![6, 128, 128]⟩
abbrev S6x128 : Shape := ⟨2, ![6, 128]⟩
abbrev S6x1x128 : Shape := ⟨3, ![6, 1, 128]⟩
abbrev S7x16384x128 : Shape := ⟨3, ![7, 16384, 128]⟩
abbrev S7x128x128 : Shape := ⟨3, ![7, 128, 128]⟩
abbrev S7x128 : Shape := ⟨2, ![7, 128]⟩
abbrev S7x1x128 : Shape := ⟨3, ![7, 1, 128]⟩
abbrev S8x16384x128 : Shape := ⟨3, ![8, 16384, 128]⟩
abbrev S8x128x128 : Shape := ⟨3, ![8, 128, 128]⟩
abbrev S8x128 : Shape := ⟨2, ![8, 128]⟩
abbrev S8x1x128 : Shape := ⟨3, ![8, 1, 128]⟩
abbrev S9x16384x128 : Shape := ⟨3, ![9, 16384, 128]⟩
abbrev S9x128x128 : Shape := ⟨3, ![9, 128, 128]⟩
abbrev S9x128 : Shape := ⟨2, ![9, 128]⟩
abbrev S9x1x128 : Shape := ⟨3, ![9, 1, 128]⟩
abbrev S10x16384x128 : Shape := ⟨3, ![10, 16384, 128]⟩
abbrev S10x128x128 : Shape := ⟨3, ![10, 128, 128]⟩
abbrev S10x128 : Shape := ⟨2, ![10, 128]⟩
abbrev S10x1x128 : Shape := ⟨3, ![10, 1, 128]⟩
abbrev S11x16384x128 : Shape := ⟨3, ![11, 16384, 128]⟩
abbrev S11x128x128 : Shape := ⟨3, ![11, 128, 128]⟩
abbrev S11x128 : Shape := ⟨2, ![11, 128]⟩
abbrev S11x1x128 : Shape := ⟨3, ![11, 1, 128]⟩

abbrev nBuf : Space → Nat
  | .hbm => 200
  | .vmem => 0
  | .smem => 0
  | _ => 0

abbrev hbmTy0_0 (i : Nat) : BufTy := match i % 128 with
  | 0 => ⟨S16384x128, .f32⟩
  | 1 => ⟨S66x128x128, .f32⟩
  | 2 => ⟨S66x128, .f32⟩
  | 3 => ⟨S1x16384x128, .f32⟩
  | 4 => ⟨S1x128x128, .f32⟩
  | 5 => ⟨S1x128, .f32⟩
  | 6 => ⟨S1x16384x128, .f32⟩
  | 7 => ⟨S1x1x128, .f32⟩
  | 8 => ⟨S1x16384x128, .f32⟩
  | 9 => ⟨S1x16384x128, .f32⟩
  | 10 => ⟨S_, .f32⟩
  | 11 => ⟨S1x16384x128, .f32⟩
  | 12 => ⟨S1x16384x128, .f32⟩
  | 13 => ⟨S_, .f32⟩
  | 14 => ⟨S16384x128, .f32⟩
  | 15 => ⟨S1x16384x128, .f32⟩
  | 16 => ⟨S1x16384x128, .f32⟩
  | 17 => ⟨S2x16384x128, .f32⟩
  | 18 => ⟨S2x128x128, .f32⟩
  | 19 => ⟨S2x128, .f32⟩
  | 20 => ⟨S2x16384x128, .f32⟩
  | 21 => ⟨S2x1x128, .f32⟩
  | 22 => ⟨S2x16384x128, .f32⟩
  | 23 => ⟨S2x16384x128, .f32⟩
  | 24 => ⟨S_, .f32⟩
  | 25 => ⟨S2x16384x128, .f32⟩
  | 26 => ⟨S2x16384x128, .f32⟩
  | 27 => ⟨S_, .f32⟩
  | 28 => ⟨S16384x128, .f32⟩
  | 29 => ⟨S1x16384x128, .f32⟩
  | 30 => ⟨S1x16384x128, .f32⟩
  | 31 => ⟨S1x16384x128, .f32⟩
  | 32 => ⟨S3x16384x128, .f32⟩
  | 33 => ⟨S3x128x128, .f32⟩
  | 34 => ⟨S3x128, .f32⟩
  | 35 => ⟨S3x16384x128, .f32⟩
  | 36 => ⟨S3x1x128, .f32⟩
  | 37 => ⟨S3x16384x128, .f32⟩
  | 38 => ⟨S3x16384x128, .f32⟩
  | 39 => ⟨S_, .f32⟩
  | 40 => ⟨S3x16384x128, .f32⟩
  | 41 => ⟨S3x16384x128, .f32⟩
  | 42 => ⟨S_, .f32⟩
  | 43 => ⟨S16384x128, .f32⟩
  | 44 => ⟨S1x16384x128, .f32⟩
  | 45 => ⟨S1x16384x128, .f32⟩
  | 46 => ⟨S1x16384x128, .f32⟩
  | 47 => ⟨S1x16384x128, .f32⟩
  | 48 => ⟨S4x16384x128, .f32⟩
  | 49 => ⟨S4x128x128, .f32⟩
  | 50 => ⟨S4x128, .f32⟩
  | 51 => ⟨S4x16384x128, .f32⟩
  | 52 => ⟨S4x1x128, .f32⟩
  | 53 => ⟨S4x16384x128, .f32⟩
  | 54 => ⟨S4x16384x128, .f32⟩
  | 55 => ⟨S_, .f32⟩
  | 56 => ⟨S4x16384x128, .f32⟩
  | 57 => ⟨S4x16384x128, .f32⟩
  | 58 => ⟨S_, .f32⟩
  | 59 => ⟨S16384x128, .f32⟩
  | 60 => ⟨S1x16384x128, .f32⟩
  | 61 => ⟨S1x16384x128, .f32⟩
  | 62 => ⟨S1x16384x128, .f32⟩
  | 63 => ⟨S1x16384x128, .f32⟩
  | 64 => ⟨S1x16384x128, .f32⟩
  | 65 => ⟨S5x16384x128, .f32⟩
  | 66 => ⟨S5x128x128, .f32⟩
  | 67 => ⟨S5x128, .f32⟩
  | 68 => ⟨S5x16384x128, .f32⟩
  | 69 => ⟨S5x1x128, .f32⟩
  | 70 => ⟨S5x16384x128, .f32⟩
  | 71 => ⟨S5x16384x128, .f32⟩
  | 72 => ⟨S_, .f32⟩
  | 73 => ⟨S5x16384x128, .f32⟩
  | 74 => ⟨S5x16384x128, .f32⟩
  | 75 => ⟨S_, .f32⟩
  | 76 => ⟨S16384x128, .f32⟩
  | 77 => ⟨S1x16384x128, .f32⟩
  | 78 => ⟨S1x16384x128, .f32⟩
  | 79 => ⟨S1x16384x128, .f32⟩
  | 80 => ⟨S1x16384x128, .f32⟩
  | 81 => ⟨S1x16384x128, .f32⟩
  | 82 => ⟨S1x16384x128, .f32⟩
  | 83 => ⟨S6x16384x128, .f32⟩
  | 84 => ⟨S6x128x128, .f32⟩
  | 85 => ⟨S6x128, .f32⟩
  | 86 => ⟨S6x16384x128, .f32⟩
  | 87 => ⟨S6x1x128, .f32⟩
  | 88 => ⟨S6x16384x128, .f32⟩
  | 89 => ⟨S6x16384x128, .f32⟩
  | 90 => ⟨S_, .f32⟩
  | 91 => ⟨S6x16384x128, .f32⟩
  | 92 => ⟨S6x16384x128, .f32⟩
  | 93 => ⟨S_, .f32⟩
  | 94 => ⟨S16384x128, .f32⟩
  | 95 => ⟨S1x16384x128, .f32⟩
  | 96 => ⟨S1x16384x128, .f32⟩
  | 97 => ⟨S1x16384x128, .f32⟩
  | 98 => ⟨S1x16384x128, .f32⟩
  | 99 => ⟨S1x16384x128, .f32⟩
  | 100 => ⟨S1x16384x128, .f32⟩
  | 101 => ⟨S1x16384x128, .f32⟩
  | 102 => ⟨S7x16384x128, .f32⟩
  | 103 => ⟨S7x128x128, .f32⟩
  | 104 => ⟨S7x128, .f32⟩
  | 105 => ⟨S7x16384x128, .f32⟩
  | 106 => ⟨S7x1x128, .f32⟩
  | 107 => ⟨S7x16384x128, .f32⟩
  | 108 => ⟨S7x16384x128, .f32⟩
  | 109 => ⟨S_, .f32⟩
  | 110 => ⟨S7x16384x128, .f32⟩
  | 111 => ⟨S7x16384x128, .f32⟩
  | 112 => ⟨S_, .f32⟩
  | 113 => ⟨S16384x128, .f32⟩
  | 114 => ⟨S1x16384x128, .f32⟩
  | 115 => ⟨S1x16384x128, .f32⟩
  | 116 => ⟨S1x16384x128, .f32⟩
  | 117 => ⟨S1x16384x128, .f32⟩
  | 118 => ⟨S1x16384x128, .f32⟩
  | 119 => ⟨S1x16384x128, .f32⟩
  | 120 => ⟨S1x16384x128, .f32⟩
  | 121 => ⟨S1x16384x128, .f32⟩
  | 122 => ⟨S8x16384x128, .f32⟩
  | 123 => ⟨S8x128x128, .f32⟩
  | 124 => ⟨S8x128, .f32⟩
  | 125 => ⟨S8x16384x128, .f32⟩
  | 126 => ⟨S8x1x128, .f32⟩
  | 127 => ⟨S8x16384x128, .f32⟩
  | _ => ⟨S16384x128, .f32⟩

abbrev hbmTy0_1 (i : Nat) : BufTy := match i % 128 with
  | 0 => ⟨S8x16384x128, .f32⟩
  | 1 => ⟨S_, .f32⟩
  | 2 => ⟨S8x16384x128, .f32⟩
  | 3 => ⟨S8x16384x128, .f32⟩
  | 4 => ⟨S_, .f32⟩
  | 5 => ⟨S16384x128, .f32⟩
  | 6 => ⟨S1x16384x128, .f32⟩
  | 7 => ⟨S1x16384x128, .f32⟩
  | 8 => ⟨S1x16384x128, .f32⟩
  | 9 => ⟨S1x16384x128, .f32⟩
  | 10 => ⟨S1x16384x128, .f32⟩
  | 11 => ⟨S1x16384x128, .f32⟩
  | 12 => ⟨S1x16384x128, .f32⟩
  | 13 => ⟨S1x16384x128, .f32⟩
  | 14 => ⟨S1x16384x128, .f32⟩
  | 15 => ⟨S9x16384x128, .f32⟩
  | 16 => ⟨S9x128x128, .f32⟩
  | 17 => ⟨S9x128, .f32⟩
  | 18 => ⟨S9x16384x128, .f32⟩
  | 19 => ⟨S9x1x128, .f32⟩
  | 20 => ⟨S9x16384x128, .f32⟩
  | 21 => ⟨S9x16384x128, .f32⟩
  | 22 => ⟨S_, .f32⟩
  | 23 => ⟨S9x16384x128, .f32⟩
  | 24 => ⟨S9x16384x128, .f32⟩
  | 25 => ⟨S_, .f32⟩
  | 26 => ⟨S16384x128, .f32⟩
  | 27 => ⟨S1x16384x128, .f32⟩
  | 28 => ⟨S1x16384x128, .f32⟩
  | 29 => ⟨S1x16384x128, .f32⟩
  | 30 => ⟨S1x16384x128, .f32⟩
  | 31 => ⟨S1x16384x128, .f32⟩
  | 32 => ⟨S1x16384x128, .f32⟩
  | 33 => ⟨S1x16384x128, .f32⟩
  | 34 => ⟨S1x16384x128, .f32⟩
  | 35 => ⟨S1x16384x128, .f32⟩
  | 36 => ⟨S1x16384x128, .f32⟩
  | 37 => ⟨S10x16384x128, .f32⟩
  | 38 => ⟨S10x128x128, .f32⟩
  | 39 => ⟨S10x128, .f32⟩
  | 40 => ⟨S10x16384x128, .f32⟩
  | 41 => ⟨S10x1x128, .f32⟩
  | 42 => ⟨S10x16384x128, .f32⟩
  | 43 => ⟨S10x16384x128, .f32⟩
  | 44 => ⟨S_, .f32⟩
  | 45 => ⟨S10x16384x128, .f32⟩
  | 46 => ⟨S10x16384x128, .f32⟩
  | 47 => ⟨S_, .f32⟩
  | 48 => ⟨S16384x128, .f32⟩
  | 49 => ⟨S1x16384x128, .f32⟩
  | 50 => ⟨S1x16384x128, .f32⟩
  | 51 => ⟨S1x16384x128, .f32⟩
  | 52 => ⟨S1x16384x128, .f32⟩
  | 53 => ⟨S1x16384x128, .f32⟩
  | 54 => ⟨S1x16384x128, .f32⟩
  | 55 => ⟨S1x16384x128, .f32⟩
  | 56 => ⟨S1x16384x128, .f32⟩
  | 57 => ⟨S1x16384x128, .f32⟩
  | 58 => ⟨S1x16384x128, .f32⟩
  | 59 => ⟨S1x16384x128, .f32⟩
  | 60 => ⟨S11x16384x128, .f32⟩
  | 61 => ⟨S11x128x128, .f32⟩
  | 62 => ⟨S11x128, .f32⟩
  | 63 => ⟨S11x16384x128, .f32⟩
  | 64 => ⟨S11x1x128, .f32⟩
  | 65 => ⟨S11x16384x128, .f32⟩
  | 66 => ⟨S11x16384x128, .f32⟩
  | 67 => ⟨S_, .f32⟩
  | 68 => ⟨S11x16384x128, .f32⟩
  | 69 => ⟨S11x16384x128, .f32⟩
  | 70 => ⟨S_, .f32⟩
  | 71 => ⟨S16384x128, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call1_cst : Ref sig .tc := ⟨.hbm, 24, rfl⟩
abbrev main_call1_v0 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call2_cst : Ref sig .tc := ⟨.hbm, 39, rfl⟩
abbrev main_call2_v0 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_call3_cst : Ref sig .tc := ⟨.hbm, 55, rfl⟩
abbrev main_call3_v0 : Ref sig .tc := ⟨.hbm, 56, rfl⟩
abbrev main_v43 : Ref sig .tc := ⟨.hbm, 57, rfl⟩
abbrev main_cst_2 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_call4_cst : Ref sig .tc := ⟨.hbm, 72, rfl⟩
abbrev main_call4_v0 : Ref sig .tc := ⟨.hbm, 73, rfl⟩
abbrev main_v57 : Ref sig .tc := ⟨.hbm, 74, rfl⟩
abbrev main_cst_3 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_call5_cst : Ref sig .tc := ⟨.hbm, 90, rfl⟩
abbrev main_call5_v0 : Ref sig .tc := ⟨.hbm, 91, rfl⟩
abbrev main_v72 : Ref sig .tc := ⟨.hbm, 92, rfl⟩
abbrev main_cst_4 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_call6_cst : Ref sig .tc := ⟨.hbm, 109, rfl⟩
abbrev main_call6_v0 : Ref sig .tc := ⟨.hbm, 110, rfl⟩
abbrev main_v88 : Ref sig .tc := ⟨.hbm, 111, rfl⟩
abbrev main_cst_5 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_call7_cst : Ref sig .tc := ⟨.hbm, 129, rfl⟩
abbrev main_call7_v0 : Ref sig .tc := ⟨.hbm, 130, rfl⟩
abbrev main_v105 : Ref sig .tc := ⟨.hbm, 131, rfl⟩
abbrev main_cst_6 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_call8_cst : Ref sig .tc := ⟨.hbm, 150, rfl⟩
abbrev main_call8_v0 : Ref sig .tc := ⟨.hbm, 151, rfl⟩
abbrev main_v123 : Ref sig .tc := ⟨.hbm, 152, rfl⟩
abbrev main_cst_7 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_call9_cst : Ref sig .tc := ⟨.hbm, 172, rfl⟩
abbrev main_call9_v0 : Ref sig .tc := ⟨.hbm, 173, rfl⟩
abbrev main_v142 : Ref sig .tc := ⟨.hbm, 174, rfl⟩
abbrev main_cst_8 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_call10_cst : Ref sig .tc := ⟨.hbm, 195, rfl⟩
abbrev main_call10_v0 : Ref sig .tc := ⟨.hbm, 196, rfl⟩
abbrev main_v162 : Ref sig .tc := ⟨.hbm, 197, rfl⟩
abbrev main_cst_9 : Ref sig .tc := ⟨.hbm, 198, rfl⟩
abbrev main_v163 : Ref sig .tc := ⟨.hbm, 199, rfl⟩

abbrev nD : Nat := 1
abbrev τ : Topo := Topo.v7x

variable {F : FTy → Type} [FloatOps F]

class Facts₀ : Prop where
  bcast_S16384x128_S1x16384x128_1_2 : S16384x128.BroadcastsInDim S1x16384x128 (![1, 2] : Fin 2 → Fin S1x16384x128.rank)
  slices_S66x128x128_S1x128x128_0_0_0 : S66x128x128.Slices ![0, 0, 0] S1x128x128
  slices_S66x128_S1x128_0_0 : S66x128.Slices ![0, 0] S1x128
  bcast_S1x128_S1x1x128_0_2 : S1x128.BroadcastsInDim S1x1x128 (![0, 2] : Fin 2 → Fin S1x1x128.rank)
  bcast_S1x1x128_S1x16384x128_0_1_2 : S1x1x128.BroadcastsInDim S1x16384x128 (![0, 1, 2] : Fin 3 → Fin S1x16384x128.rank)
  bcast_S_S1x16384x128 : S_.BroadcastsInDim S1x16384x128 (![] : Fin 0 → Fin S1x16384x128.rank)
  reducesTo_S1x16384x128_S16384x128_d0 : S1x16384x128.ReducesTo [0] S16384x128
  h_S_ : 0 < S_.numel
  concatenates_S1x16384x128_S1x16384x128_S2x16384x128_d0 : Shape.Concatenates [S1x16384x128, S1x16384x128] S2x16384x128 0
  slices_S66x128x128_S2x128x128_1_0_0 : S66x128x128.Slices ![1, 0, 0] S2x128x128
  slices_S66x128_S2x128_1_0 : S66x128.Slices ![1, 0] S2x128
  bcast_S2x128_S2x1x128_0_2 : S2x128.BroadcastsInDim S2x1x128 (![0, 2] : Fin 2 → Fin S2x1x128.rank)
  bcast_S2x1x128_S2x16384x128_0_1_2 : S2x1x128.BroadcastsInDim S2x16384x128 (![0, 1, 2] : Fin 3 → Fin S2x16384x128.rank)
  bcast_S_S2x16384x128 : S_.BroadcastsInDim S2x16384x128 (![] : Fin 0 → Fin S2x16384x128.rank)
  reducesTo_S2x16384x128_S16384x128_d0 : S2x16384x128.ReducesTo [0] S16384x128
  concatenates_S1x16384x128_S1x16384x128_S1x16384x128_S3x16384x128_d0 : Shape.Concatenates [S1x16384x128, S1x16384x128, S1x16384x128] S3x16384x128 0
  slices_S66x128x128_S3x128x128_3_0_0 : S66x128x128.Slices ![3, 0, 0] S3x128x128
  slices_S66x128_S3x128_3_0 : S66x128.Slices ![3, 0] S3x128
  bcast_S3x128_S3x1x128_0_2 : S3x128.BroadcastsInDim S3x1x128 (![0, 2] : Fin 2 → Fin S3x1x128.rank)
  bcast_S3x1x128_S3x16384x128_0_1_2 : S3x1x128.BroadcastsInDim S3x16384x128 (![0, 1, 2] : Fin 3 → Fin S3x16384x128.rank)
  bcast_S_S3x16384x128 : S_.BroadcastsInDim S3x16384x128 (![] : Fin 0 → Fin S3x16384x128.rank)
  reducesTo_S3x16384x128_S16384x128_d0 : S3x16384x128.ReducesTo [0] S16384x128
  concatenates_S1x16384x128_S1x16384x128_S1x16384x128_S1x16384x128_S4x16384x128_d0 : Shape.Concatenates [S1x16384x128, S1x16384x128, S1x16384x128, S1x16384x128] S4x16384x128 0
  slices_S66x128x128_S4x128x128_6_0_0 : S66x128x128.Slices ![6, 0, 0] S4x128x128
  slices_S66x128_S4x128_6_0 : S66x128.Slices ![6, 0] S4x128
  bcast_S4x128_S4x1x128_0_2 : S4x128.BroadcastsInDim S4x1x128 (![0, 2] : Fin 2 → Fin S4x1x128.rank)
  bcast_S4x1x128_S4x16384x128_0_1_2 : S4x1x128.BroadcastsInDim S4x16384x128 (![0, 1, 2] : Fin 3 → Fin S4x16384x128.rank)
  bcast_S_S4x16384x128 : S_.BroadcastsInDim S4x16384x128 (![] : Fin 0 → Fin S4x16384x128.rank)
  reducesTo_S4x16384x128_S16384x128_d0 : S4x16384x128.ReducesTo [0] S16384x128
  concatenates_S1x16384x128_S1x16384x128_S1x16384x128_S1x16384x128_S1x16384x128_S5x16384x128_d0 : Shape.Concatenates [S1x16384x128, S1x16384x128, S1x16384x128, S1x16384x128, S1x16384x128] S5x16384x128 0
  slices_S66x128x128_S5x128x128_10_0_0 : S66x128x128.Slices ![10, 0, 0] S5x128x128
  slices_S66x128_S5x128_10_0 : S66x128.Slices ![10, 0] S5x128
  bcast_S5x128_S5x1x128_0_2 : S5x128.BroadcastsInDim S5x1x128 (![0, 2] : Fin 2 → Fin S5x1x128.rank)
  bcast_S5x1x128_S5x16384x128_0_1_2 : S5x1x128.BroadcastsInDim S5x16384x128 (![0, 1, 2] : Fin 3 → Fin S5x16384x128.rank)
  bcast_S_S5x16384x128 : S_.BroadcastsInDim S5x16384x128 (![] : Fin 0 → Fin S5x16384x128.rank)
  reducesTo_S5x16384x128_S16384x128_d0 : S5x16384x128.ReducesTo [0] S16384x128
  concatenates_S1x16384x128_S1x16384x128_S1x16384x128_S1x16384x128_S1x16384x128_S1x16384x128_S6x16384x128_d0 : Shape.Concatenates [S1x16384x128, S1x16384x128, S1x16384x128, S1x16384x128, S1x16384x128, S1x16384x128] S6x16384x128 0
  slices_S66x128x128_S6x128x128_15_0_0 : S66x128x128.Slices ![15, 0, 0] S6x128x128
  slices_S66x128_S6x128_15_0 : S66x128.Slices ![15, 0] S6x128
  bcast_S6x128_S6x1x128_0_2 : S6x128.BroadcastsInDim S6x1x128 (![0, 2] : Fin 2 → Fin S6x1x128.rank)
  bcast_S6x1x128_S6x16384x128_0_1_2 : S6x1x128.BroadcastsInDim S6x16384x128 (![0, 1, 2] : Fin 3 → Fin S6x16384x128.rank)
  bcast_S_S6x16384x128 : S_.BroadcastsInDim S6x16384x128 (![] : Fin 0 → Fin S6x16384x128.rank)
  reducesTo_S6x16384x128_S16384x128_d0 : S6x16384x128.ReducesTo [0] S16384x128
  concatenates_S1x16384x128_S1x16384x128_S1x16384x128_S1x16384x128_S1x16384x128_S1x16384x128_S1x16384x128_S7x16384x128_d0 : Shape.Concatenates [S1x16384x128, S1x16384x128, S1x16384x128, S1x16384x128, S1x16384x128, S1x16384x128, S1x16384x128] S7x16384x128 0
  slices_S66x128x128_S7x128x128_21_0_0 : S66x128x128.Slices ![21, 0, 0] S7x128x128
  slices_S66x128_S7x128_21_0 : S66x128.Slices ![21, 0] S7x128
  bcast_S7x128_S7x1x128_0_2 : S7x128.BroadcastsInDim S7x1x128 (![0, 2] : Fin 2 → Fin S7x1x128.rank)
  bcast_S7x1x128_S7x16384x128_0_1_2 : S7x1x128.BroadcastsInDim S7x16384x128 (![0, 1, 2] : Fin 3 → Fin S7x16384x128.rank)
  bcast_S_S7x16384x128 : S_.BroadcastsInDim S7x16384x128 (![] : Fin 0 → Fin S7x16384x128.rank)
  reducesTo_S7x16384x128_S16384x128_d0 : S7x16384x128.ReducesTo [0] S16384x128
  concatenates_S1x16384x128_S1x16384x128_S1x16384x128_S1x16384x128_S1x16384x128_S1x16384x128_S1x16384x128_S1x16384x128_S8x16384x128_d0 : Shape.Concatenates [S1x16384x128, S1x16384x128, S1x16384x128, S1x16384x128, S1x16384x128, S1x16384x128, S1x16384x128, S1x16384x128] S8x16384x128 0
  slices_S66x128x128_S8x128x128_28_0_0 : S66x128x128.Slices ![28, 0, 0] S8x128x128
  slices_S66x128_S8x128_28_0 : S66x128.Slices ![28, 0] S8x128
  bcast_S8x128_S8x1x128_0_2 : S8x128.BroadcastsInDim S8x1x128 (![0, 2] : Fin 2 → Fin S8x1x128.rank)
  bcast_S8x1x128_S8x16384x128_0_1_2 : S8x1x128.BroadcastsInDim S8x16384x128 (![0, 1, 2] : Fin 3 → Fin S8x16384x128.rank)
  bcast_S_S8x16384x128 : S_.BroadcastsInDim S8x16384x128 (![] : Fin 0 → Fin S8x16384x128.rank)
  reducesTo_S8x16384x128_S16384x128_d0 : S8x16384x128.ReducesTo [0] S16384x128
  concatenates_S1x16384x128_S1x16384x128_S1x16384x128_S1x16384x128_S1x16384x128_S1x16384x128_S1x16384x128_S1x16384x128_S1x16384x128_S9x16384x128_d0 : Shape.Concatenates [S1x16384x128, S1x16384x128, S1x16384x128, S1x16384x128, S1x16384x128, S1x16384x128, S1x16384x128, S1x16384x128, S1x16384x128] S9x16384x128 0
  slices_S66x128x128_S9x128x128_36_0_0 : S66x128x128.Slices ![36, 0, 0] S9x128x128
  slices_S66x128_S9x128_36_0 : S66x128.Slices ![36, 0] S9x128
  bcast_S9x128_S9x1x128_0_2 : S9x128.BroadcastsInDim S9x1x128 (![0, 2] : Fin 2 → Fin S9x1x128.rank)
  bcast_S9x1x128_S9x16384x128_0_1_2 : S9x1x128.BroadcastsInDim S9x16384x128 (![0, 1, 2] : Fin 3 → Fin S9x16384x128.rank)
  bcast_S_S9x16384x128 : S_.BroadcastsInDim S9x16384x128 (![] : Fin 0 → Fin S9x16384x128.rank)
  reducesTo_S9x16384x128_S16384x128_d0 : S9x16384x128.ReducesTo [0] S16384x128
  concatenates_S1x16384x128_S1x16384x128_S1x16384x128_S1x16384x128_S1x16384x128_S1x16384x128_S1x16384x128_S1x16384x128_S1x16384x128_S1x16384x128_S10x16384x128_d0 : Shape.Concatenates [S1x16384x128, S1x16384x128, S1x16384x128, S1x16384x128, S1x16384x128, S1x16384x128, S1x16384x128, S1x16384x128, S1x16384x128, S1x16384x128] S10x16384x128 0
  slices_S66x128x128_S10x128x128_45_0_0 : S66x128x128.Slices ![45, 0, 0] S10x128x128
  slices_S66x128_S10x128_45_0 : S66x128.Slices ![45, 0] S10x128
  bcast_S10x128_S10x1x128_0_2 : S10x128.BroadcastsInDim S10x1x128 (![0, 2] : Fin 2 → Fin S10x1x128.rank)
  bcast_S10x1x128_S10x16384x128_0_1_2 : S10x1x128.BroadcastsInDim S10x16384x128 (![0, 1, 2] : Fin 3 → Fin S10x16384x128.rank)
  bcast_S_S10x16384x128 : S_.BroadcastsInDim S10x16384x128 (![] : Fin 0 → Fin S10x16384x128.rank)
  reducesTo_S10x16384x128_S16384x128_d0 : S10x16384x128.ReducesTo [0] S16384x128
  concatenates_S1x16384x128_S1x16384x128_S1x16384x128_S1x16384x128_S1x16384x128_S1x16384x128_S1x16384x128_S1x16384x128_S1x16384x128_S1x16384x128_S1x16384x128_S11x16384x128_d0 : Shape.Concatenates [S1x16384x128, S1x16384x128, S1x16384x128, S1x16384x128, S1x16384x128, S1x16384x128, S1x16384x128, S1x16384x128, S1x16384x128, S1x16384x128, S1x16384x128] S11x16384x128 0
  slices_S66x128x128_S11x128x128_55_0_0 : S66x128x128.Slices ![55, 0, 0] S11x128x128
  slices_S66x128_S11x128_55_0 : S66x128.Slices ![55, 0] S11x128
  bcast_S11x128_S11x1x128_0_2 : S11x128.BroadcastsInDim S11x1x128 (![0, 2] : Fin 2 → Fin S11x1x128.rank)
  bcast_S11x1x128_S11x16384x128_0_1_2 : S11x1x128.BroadcastsInDim S11x16384x128 (![0, 1, 2] : Fin 3 → Fin S11x16384x128.rank)
  bcast_S_S11x16384x128 : S_.BroadcastsInDim S11x16384x128 (![] : Fin 0 → Fin S11x16384x128.rank)
  reducesTo_S11x16384x128_S16384x128_d0 : S11x16384x128.ReducesTo [0] S16384x128
  dot_S1x16384x128_S1x128x128_S1x16384x128_2_1_1_2_0_0_wf : DotDims.WF S1x16384x128 S1x128x128 S1x16384x128 [2] [1] [1] [2] [0] [0]
  dot_S2x16384x128_S2x128x128_S2x16384x128_2_1_1_2_0_0_wf : DotDims.WF S2x16384x128 S2x128x128 S2x16384x128 [2] [1] [1] [2] [0] [0]
  dot_S3x16384x128_S3x128x128_S3x16384x128_2_1_1_2_0_0_wf : DotDims.WF S3x16384x128 S3x128x128 S3x16384x128 [2] [1] [1] [2] [0] [0]
  dot_S4x16384x128_S4x128x128_S4x16384x128_2_1_1_2_0_0_wf : DotDims.WF S4x16384x128 S4x128x128 S4x16384x128 [2] [1] [1] [2] [0] [0]
  dot_S5x16384x128_S5x128x128_S5x16384x128_2_1_1_2_0_0_wf : DotDims.WF S5x16384x128 S5x128x128 S5x16384x128 [2] [1] [1] [2] [0] [0]
  dot_S6x16384x128_S6x128x128_S6x16384x128_2_1_1_2_0_0_wf : DotDims.WF S6x16384x128 S6x128x128 S6x16384x128 [2] [1] [1] [2] [0] [0]
  dot_S7x16384x128_S7x128x128_S7x16384x128_2_1_1_2_0_0_wf : DotDims.WF S7x16384x128 S7x128x128 S7x16384x128 [2] [1] [1] [2] [0] [0]
  dot_S8x16384x128_S8x128x128_S8x16384x128_2_1_1_2_0_0_wf : DotDims.WF S8x16384x128 S8x128x128 S8x16384x128 [2] [1] [1] [2] [0] [0]
  dot_S9x16384x128_S9x128x128_S9x16384x128_2_1_1_2_0_0_wf : DotDims.WF S9x16384x128 S9x128x128 S9x16384x128 [2] [1] [1] [2] [0] [0]
  dot_S10x16384x128_S10x128x128_S10x16384x128_2_1_1_2_0_0_wf : DotDims.WF S10x16384x128 S10x128x128 S10x16384x128 [2] [1] [1] [2] [0] [0]
  dot_S11x16384x128_S11x128x128_S11x16384x128_2_1_1_2_0_0_wf : DotDims.WF S11x16384x128 S11x128x128 S11x16384x128 [2] [1] [1] [2] [0] [0]

variable [Facts₀]

def dot_S1x16384x128_S1x128x128_S1x16384x128_2_1_1_2_0_0 : DotDims S1x16384x128 S1x128x128 S1x16384x128 where
  lhsContracting := [2]
  rhsContracting := [1]
  lhsNonContracting := [1]
  rhsNonContracting := [2]
  lhsBatch := [0]
  rhsBatch := [0]
  wf := dot_S1x16384x128_S1x128x128_S1x16384x128_2_1_1_2_0_0_wf
def dot_S2x16384x128_S2x128x128_S2x16384x128_2_1_1_2_0_0 : DotDims S2x16384x128 S2x128x128 S2x16384x128 where
  lhsContracting := [2]
  rhsContracting := [1]
  lhsNonContracting := [1]
  rhsNonContracting := [2]
  lhsBatch := [0]
  rhsBatch := [0]
  wf := dot_S2x16384x128_S2x128x128_S2x16384x128_2_1_1_2_0_0_wf
def dot_S3x16384x128_S3x128x128_S3x16384x128_2_1_1_2_0_0 : DotDims S3x16384x128 S3x128x128 S3x16384x128 where
  lhsContracting := [2]
  rhsContracting := [1]
  lhsNonContracting := [1]
  rhsNonContracting := [2]
  lhsBatch := [0]
  rhsBatch := [0]
  wf := dot_S3x16384x128_S3x128x128_S3x16384x128_2_1_1_2_0_0_wf
def dot_S4x16384x128_S4x128x128_S4x16384x128_2_1_1_2_0_0 : DotDims S4x16384x128 S4x128x128 S4x16384x128 where
  lhsContracting := [2]
  rhsContracting := [1]
  lhsNonContracting := [1]
  rhsNonContracting := [2]
  lhsBatch := [0]
  rhsBatch := [0]
  wf := dot_S4x16384x128_S4x128x128_S4x16384x128_2_1_1_2_0_0_wf
def dot_S5x16384x128_S5x128x128_S5x16384x128_2_1_1_2_0_0 : DotDims S5x16384x128 S5x128x128 S5x16384x128 where
  lhsContracting := [2]
  rhsContracting := [1]
  lhsNonContracting := [1]
  rhsNonContracting := [2]
  lhsBatch := [0]
  rhsBatch := [0]
  wf := dot_S5x16384x128_S5x128x128_S5x16384x128_2_1_1_2_0_0_wf
def dot_S6x16384x128_S6x128x128_S6x16384x128_2_1_1_2_0_0 : DotDims S6x16384x128 S6x128x128 S6x16384x128 where
  lhsContracting := [2]
  rhsContracting := [1]
  lhsNonContracting := [1]
  rhsNonContracting := [2]
  lhsBatch := [0]
  rhsBatch := [0]
  wf := dot_S6x16384x128_S6x128x128_S6x16384x128_2_1_1_2_0_0_wf
def dot_S7x16384x128_S7x128x128_S7x16384x128_2_1_1_2_0_0 : DotDims S7x16384x128 S7x128x128 S7x16384x128 where
  lhsContracting := [2]
  rhsContracting := [1]
  lhsNonContracting := [1]
  rhsNonContracting := [2]
  lhsBatch := [0]
  rhsBatch := [0]
  wf := dot_S7x16384x128_S7x128x128_S7x16384x128_2_1_1_2_0_0_wf
def dot_S8x16384x128_S8x128x128_S8x16384x128_2_1_1_2_0_0 : DotDims S8x16384x128 S8x128x128 S8x16384x128 where
  lhsContracting := [2]
  rhsContracting := [1]
  lhsNonContracting := [1]
  rhsNonContracting := [2]
  lhsBatch := [0]
  rhsBatch := [0]
  wf := dot_S8x16384x128_S8x128x128_S8x16384x128_2_1_1_2_0_0_wf
def dot_S9x16384x128_S9x128x128_S9x16384x128_2_1_1_2_0_0 : DotDims S9x16384x128 S9x128x128 S9x16384x128 where
  lhsContracting := [2]
  rhsContracting := [1]
  lhsNonContracting := [1]
  rhsNonContracting := [2]
  lhsBatch := [0]
  rhsBatch := [0]
  wf := dot_S9x16384x128_S9x128x128_S9x16384x128_2_1_1_2_0_0_wf
def dot_S10x16384x128_S10x128x128_S10x16384x128_2_1_1_2_0_0 : DotDims S10x16384x128 S10x128x128 S10x16384x128 where
  lhsContracting := [2]
  rhsContracting := [1]
  lhsNonContracting := [1]
  rhsNonContracting := [2]
  lhsBatch := [0]
  rhsBatch := [0]
  wf := dot_S10x16384x128_S10x128x128_S10x16384x128_2_1_1_2_0_0_wf
def dot_S11x16384x128_S11x128x128_S11x16384x128_2_1_1_2_0_0 : DotDims S11x16384x128 S11x128x128 S11x16384x128 where
  lhsContracting := [2]
  rhsContracting := [1]
  lhsNonContracting := [1]
  rhsNonContracting := [2]
  lhsBatch := [0]
  rhsBatch := [0]
  wf := dot_S11x16384x128_S11x128x128_S11x16384x128_2_1_1_2_0_0_wf

class Facts : Prop extends Facts₀ where

variable [Facts]
-- ==== Proof.KernelEdge.lean ====
/-
  One edge of the DAG as the kernel computes it on a block of 2048 rows, and what it is index by index.

  The kernel reads edge `e`'s weight matrix and bias row out of the resident arrays through the unit rectangles
  at offsets `(e, 0, 0)` and `(e, 0)`, multiplies the block by the matrix into a zero accumulator, adds the bias
  row to every row and clamps below at zero.  At the extended reals a change of float format is the identity, so
  entry `(r, o)` of the result is `max (∑ₖ h r k · W e k o + b e o) 0`.
-/
import proofs.«165653_j38268158607515_1_alg».proof.Proof.Gen.KernelIdeal.Frame
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Edge

open Cert.KernelIdeal Cert.KernelIdeal.Gen Idealize.ShloMosaic Idealize.ShloMosaic.ValueIdx

variable {F : FTy → Type} [FloatOps F]

/-- Edge `e`'s weight matrix inside the array of all 66: the unit rectangle at offset `(e, 0, 0)`. -/
theorem inbW (e : Fin 66) : ∀ a, (![e.val, 0, 0] : Fin 3 → Nat) a + S1x128x128.size a ≤ S66x128x128.size a := fun a => by
  match a with
  | ⟨0, _⟩ => show e.val + 1 ≤ 66; omega
  | ⟨1, _⟩ => show 0 + 128 ≤ 128; omega
  | ⟨2, _⟩ => show 0 + 128 ≤ 128; omega

/-- Edge `e`'s bias row inside the array of all 66: the unit rectangle at offset `(e, 0)`. -/
theorem inbB (e : Fin 66) : ∀ a, (![e.val, 0] : Fin 2 → Nat) a + S1x128.size a ≤ S66x128.size a := fun a => by
  match a with
  | ⟨0, _⟩ => show e.val + 1 ≤ 66; omega
  | ⟨1, _⟩ => show 0 + 128 ≤ 128; omega

abbrev rW (e : Fin 66) : Rect S66x128x128 := Rect.unit (s := S66x128x128) ![e.val, 0, 0] S1x128x128.size (inbW e)
abbrev rB (e : Fin 66) : Rect S66x128 := Rect.unit (s := S66x128) ![e.val, 0] S1x128.size (inbB e)

/-- The load of edge `e`'s matrix reads the array at `(e, k, o)`. -/
theorem ldW_apply {α : Type} (x1 : S66x128x128.Idx → α) (e : Fin 66) (k o : Fin 128) :
    x1 ((rW e).idx (ix3 (0 : Fin 1) k o)) = x1 (ix3 e k o) := by
  refine congrArg x1 (funext fun a => Fin.ext ?_)
  match a with
  | ⟨0, _⟩ => show e.val + 1 * 0 = e.val; omega
  | ⟨1, _⟩ => show 0 + 1 * k.val = k.val; omega
  | ⟨2, _⟩ => show 0 + 1 * o.val = o.val; omega

/-- The load of edge `e`'s bias row reads the array at `(e, o)`. -/
theorem ldB_apply {α : Type} (x2 : S66x128.Idx → α) (e : Fin 66) (o : Fin 128) :
    x2 ((rB e).idx (ix2 (0 : Fin 1) o)) = x2 (ix2 e o) := by
  refine congrArg x2 (funext fun a => Fin.ext ?_)
  match a with
  | ⟨0, _⟩ => show e.val + 1 * 0 = e.val; omega
  | ⟨1, _⟩ => show 0 + 1 * o.val = o.val; omega

/-- The zero block every node's sum starts from. -/
def zK : FVec F S2048x128 .f32 := broadcast S2048x128 (Scalar.ofBits .f32 0x00000000#32)

/-- One edge on a block: the block times the loaded matrix, plus the loaded bias row on every row, clamped below
    at zero. -/
def edgeK (h : FVec F S2048x128 .f32) (Wl : Vec F S1x128x128 .f32) (bl : Vec F S1x128 .f32) : FVec F S2048x128 .f32 :=
  maximumf
    (addf
      (matmul dot_S2048x128_S128x128_S2048x128_1_0_0_1_n_n none (truncf .bf16 h bitsLt_bf16_f32)
        (truncf .bf16 (shapeCast S128x128 Wl shapeCasts_S1x128x128_S128x128) bitsLt_bf16_f32)
        (constant S2048x128 .f32 0x00000000#32))
      (broadcastTo S2048x128 (shapeCast S1x128 (shapeCast S128 bl shapeCasts_S1x128_S128) shapeCasts_S128_S1x128)
        broadcasts_S1x128_S2048x128))
    (broadcast S2048x128 (Scalar.ofBits .f32 0x00000000#32))

/-- Edge `e` on a block, its matrix and bias row loaded out of the resident arrays. -/
def eK (x1 : Vec F S66x128x128 .f32) (x2 : Vec F S66x128 .f32) (h : FVec F S2048x128 .f32) (e : Fin 66) :
    FVec F S2048x128 .f32 :=
  edgeK h (View.ld x1 (rW e)) (View.ld x2 (rB e))

/-- Node 0 on a block: the block itself, loaded whole. -/
def nK0 (x0 : Vec F S2048x128 .f32) (x1 : Vec F S66x128x128 .f32) (x2 : Vec F S66x128 .f32) : FVec F S2048x128 .f32 :=
  View.ld x0 r0_0

/-! ## Index by index, over the extended reals -/

theorem lhs_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The product of a block with a matrix into a zero accumulator, at an entry: the row times the column. -/
theorem matmul_zero_apply (l : FVec Ideal S2048x128 .bf16) (w : FVec Ideal S128x128 .bf16) (r : Fin 2048) (o : Fin 128) :
    matmul dot_S2048x128_S128x128_S2048x128_1_0_0_1_n_n none l w (constant S2048x128 .f32 0x00000000#32) (ix2 r o)
      = ∑ k : Fin 128, l (ix2 r k) * w (ix2 k o) := by
  show FloatOps.matmul _ _ l w (constant S2048x128 .f32 0x00000000#32) (ix2 r o) = _
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 r o) ((ValueIdx.contrEquiv1 dot_S2048x128_S128x128_S2048x128_1_0_0_1_n_n 128 rfl rfl).symm k) = ix2 r k := funext fun a => Fin.ext (by
    match a with
    | ⟨0, _⟩ => exact lhs_0 _ _
    | ⟨1, _⟩ => exact (lhs_1 _ _).trans hk)
  have er : dot_S2048x128_S128x128_S2048x128_1_0_0_1_n_n.rhsIdx (ix2 r o) ((ValueIdx.contrEquiv1 dot_S2048x128_S128x128_S2048x128_1_0_0_1_n_n 128 rfl rfl).symm k) = ix2 k o := funext fun a => Fin.ext (by
    match a with
    | ⟨0, _⟩ => exact (rhs_0 _ _).trans hk
    | ⟨1, _⟩ => exact rhs_1 _ _)
  rw [el, er]

/-- One edge on a block at the entry `(r, o)`. -/
theorem edgeK_apply (h : FVec Ideal S2048x128 .f32) (Wl : Vec Ideal S1x128x128 .f32) (bl : Vec Ideal S1x128 .f32)
    (r : Fin 2048) (o : Fin 128) :
    edgeK h Wl bl (ix2 r o)
      = max ((∑ k : Fin 128, h (ix2 r k) * Wl (ix3 (0 : Fin 1) k o)) + bl (ix2 (0 : Fin 1) o)) 0 := by
  unfold edgeK
  rw [maximumf_apply, addf_apply, matmul_zero_apply, broadcast_apply,
    broadcastTo_1b_ab_apply, shapeCast_a_1a_apply, shapeCast_1a_a_apply]
  have hz : (Scalar.ofBits (F := Ideal) .f32 0x00000000#32 : EReal) = 0 := Ideal.ofBits_zero_f32
  rw [hz]
  refine congrArg (fun s => max (s + bl (ix2 (0 : Fin 1) o)) 0) (Finset.sum_congr rfl fun k _ => ?_)
  rw [truncf_apply, truncf_apply, shapeCast_1ab_ab_apply]

/-- Edge `e` on a block at the entry `(r, o)`, over the resident arrays. -/
theorem eK_apply (x1 : Vec Ideal S66x128x128 .f32) (x2 : Vec Ideal S66x128 .f32) (h : FVec Ideal S2048x128 .f32)
    (e : Fin 66) (r : Fin 2048) (o : Fin 128) :
    eK x1 x2 h e (ix2 r o) = max ((∑ k : Fin 128, h (ix2 r k) * x1 (ix3 e k o)) + x2 (ix2 e o)) 0 := by
  unfold eK
  rw [edgeK_apply]
  refine congrArg₂ (fun s t => max (s + t) 0) (Finset.sum_congr rfl fun k _ => ?_) ?_
  · exact congrArg (h (ix2 r k) * ·) (ldW_apply x1 e k o)
  · exact ldB_apply x2 e o

theorem zK_apply (i : S2048x128.Idx) : (zK (F := Ideal)) i = 0 := Ideal.ofBits_zero_f32

end Cert.KernelIdeal.Edge

end
-- ==== Proof.KernelNodeTable.lean ====
import proofs.«165653_j38268158607515_1_alg».proof.Proof.KernelEdge

noncomputable section

namespace Cert.KernelIdeal.Edge

open Cert.KernelIdeal Cert.KernelIdeal.Gen Idealize.ShloMosaic

variable {F : FTy → Type} [FloatOps F]

def nK1 (x0 : Vec F S2048x128 .f32) (x1 : Vec F S66x128x128 .f32) (x2 : Vec F S66x128 .f32) : FVec F S2048x128 .f32 :=
  addf (zK) (eK x1 x2 (nK0 x0 x1 x2) 0)
def nK2 (x0 : Vec F S2048x128 .f32) (x1 : Vec F S66x128x128 .f32) (x2 : Vec F S66x128 .f32) : FVec F S2048x128 .f32 :=
  addf (addf (zK) (eK x1 x2 (nK0 x0 x1 x2) 1)) (eK x1 x2 (nK1 x0 x1 x2) 2)
def nK3 (x0 : Vec F S2048x128 .f32) (x1 : Vec F S66x128x128 .f32) (x2 : Vec F S66x128 .f32) : FVec F S2048x128 .f32 :=
  addf (addf (addf (zK) (eK x1 x2 (nK0 x0 x1 x2) 3)) (eK x1 x2 (nK1 x0 x1 x2) 4)) (eK x1 x2 (nK2 x0 x1 x2) 5)
def nK4 (x0 : Vec F S2048x128 .f32) (x1 : Vec F S66x128x128 .f32) (x2 : Vec F S66x128 .f32) : FVec F S2048x128 .f32 :=
  addf (addf (addf (addf (zK) (eK x1 x2 (nK0 x0 x1 x2) 6)) (eK x1 x2 (nK1 x0 x1 x2) 7)) (eK x1 x2 (nK2 x0 x1 x2) 8)) (eK x1 x2 (nK3 x0 x1 x2) 9)
def nK5 (x0 : Vec F S2048x128 .f32) (x1 : Vec F S66x128x128 .f32) (x2 : Vec F S66x128 .f32) : FVec F S2048x128 .f32 :=
  addf (addf (addf (addf (addf (zK) (eK x1 x2 (nK0 x0 x1 x2) 10)) (eK x1 x2 (nK1 x0 x1 x2) 11)) (eK x1 x2 (nK2 x0 x1 x2) 12)) (eK x1 x2 (nK3 x0 x1 x2) 13)) (eK x1 x2 (nK4 x0 x1 x2) 14)
def nK6 (x0 : Vec F S2048x128 .f32) (x1 : Vec F S66x128x128 .f32) (x2 : Vec F S66x128 .f32) : FVec F S2048x128 .f32 :=
  addf (addf (addf (addf (addf (addf (zK) (eK x1 x2 (nK0 x0 x1 x2) 15)) (eK x1 x2 (nK1 x0 x1 x2) 16)) (eK x1 x2 (nK2 x0 x1 x2) 17)) (eK x1 x2 (nK3 x0 x1 x2) 18)) (eK x1 x2 (nK4 x0 x1 x2) 19)) (eK x1 x2 (nK5 x0 x1 x2) 20)
def nK7 (x0 : Vec F S2048x128 .f32) (x1 : Vec F S66x128x128 .f32) (x2 : Vec F S66x128 .f32) : FVec F S2048x128 .f32 :=
  addf (addf (addf (addf (addf (addf (addf (zK) (eK x1 x2 (nK0 x0 x1 x2) 21)) (eK x1 x2 (nK1 x0 x1 x2) 22)) (eK x1 x2 (nK2 x0 x1 x2) 23)) (eK x1 x2 (nK3 x0 x1 x2) 24)) (eK x1 x2 (nK4 x0 x1 x2) 25)) (eK x1 x2 (nK5 x0 x1 x2) 26)) (eK x1 x2 (nK6 x0 x1 x2) 27)
def nK8 (x0 : Vec F S2048x128 .f32) (x1 : Vec F S66x128x128 .f32) (x2 : Vec F S66x128 .f32) : FVec F S2048x128 .f32 :=
  addf (addf (addf (addf (addf (addf (addf (addf (zK) (eK x1 x2 (nK0 x0 x1 x2) 28)) (eK x1 x2 (nK1 x0 x1 x2) 29)) (eK x1 x2 (nK2 x0 x1 x2) 30)) (eK x1 x2 (nK3 x0 x1 x2) 31)) (eK x1 x2 (nK4 x0 x1 x2) 32)) (eK x1 x2 (nK5 x0 x1 x2) 33)) (eK x1 x2 (nK6 x0 x1 x2) 34)) (eK x1 x2 (nK7 x0 x1 x2) 35)
def nK9 (x0 : Vec F S2048x128 .f32) (x1 : Vec F S66x128x128 .f32) (x2 : Vec F S66x128 .f32) : FVec F S2048x128 .f32 :=
  addf (addf (addf (addf (addf (addf (addf (addf (addf (zK) (eK x1 x2 (nK0 x0 x1 x2) 36)) (eK x1 x2 (nK1 x0 x1 x2) 37)) (eK x1 x2 (nK2 x0 x1 x2) 38)) (eK x1 x2 (nK3 x0 x1 x2) 39)) (eK x1 x2 (nK4 x0 x1 x2) 40)) (eK x1 x2 (nK5 x0 x1 x2) 41)) (eK x1 x2 (nK6 x0 x1 x2) 42)) (eK x1 x2 (nK7 x0 x1 x2) 43)) (eK x1 x2 (nK8 x0 x1 x2) 44)
def nK10 (x0 : Vec F S2048x128 .f32) (x1 : Vec F S66x128x128 .f32) (x2 : Vec F S66x128 .f32) : FVec F S2048x128 .f32 :=
  addf (addf (addf (addf (addf (addf (addf (addf (addf (addf (zK) (eK x1 x2 (nK0 x0 x1 x2) 45)) (eK x1 x2 (nK1 x0 x1 x2) 46)) (eK x1 x2 (nK2 x0 x1 x2) 47)) (eK x1 x2 (nK3 x0 x1 x2) 48)) (eK x1 x2 (nK4 x0 x1 x2) 49)) (eK x1 x2 (nK5 x0 x1 x2) 50)) (eK x1 x2 (nK6 x0 x1 x2) 51)) (eK x1 x2 (nK7 x0 x1 x2) 52)) (eK x1 x2 (nK8 x0 x1 x2) 53)) (eK x1 x2 (nK9 x0 x1 x2) 54)
def nK11 (x0 : Vec F S2048x128 .f32) (x1 : Vec F S66x128x128 .f32) (x2 : Vec F S66x128 .f32) : FVec F S2048x128 .f32 :=
  addf (addf (addf (addf (addf (addf (addf (addf (addf (addf (addf (zK) (eK x1 x2 (nK0 x0 x1 x2) 55)) (eK x1 x2 (nK1 x0 x1 x2) 56)) (eK x1 x2 (nK2 x0 x1 x2) 57)) (eK x1 x2 (nK3 x0 x1 x2) 58)) (eK x1 x2 (nK4 x0 x1 x2) 59)) (eK x1 x2 (nK5 x0 x1 x2) 60)) (eK x1 x2 (nK6 x0 x1 x2) 61)) (eK x1 x2 (nK7 x0 x1 x2) 62)) (eK x1 x2 (nK8 x0 x1 x2) 63)) (eK x1 x2 (nK9 x0 x1 x2) 64)) (eK x1 x2 (nK10 x0 x1 x2) 65)

end Cert.KernelIdeal.Edge

end
-- ==== Proof.Dag.lean ====
/-
  Message passing over the complete DAG on twelve nodes, one row at a time.

  Node 0 holds the input row.  Node `n + 1` has an incoming edge from every earlier node `j ≤ n`; the edges
  are numbered in the order (target, source), so those into node `n + 1` are `tri n + j` with
  `tri n = n (n + 1) / 2`.  Edge `e` carries a row `h` to `max (h · W_e + b_e) 0`, and a node sums its
  incoming edges.  Everything is stated over the extended reals; the sum over sources is a finite sum, so its
  order and bracketing do not matter.
-/
import Idealize.ShloMosaic.PureOps.Ideal
import Idealize.ShloMosaic.Lib.ValueIdx
import Mathlib.Algebra.BigOperators.Fin

noncomputable section

namespace Cert.Dag

open Idealize.ShloMosaic Idealize.ShloMosaic.ValueIdx

/-- The weights, one 128 × 128 matrix per edge, and the biases, one row per edge. -/
abbrev Wts := (⟨3, ![66, 128, 128]⟩ : Shape).Idx → EReal
abbrev Bias := (⟨2, ![66, 128]⟩ : Shape).Idx → EReal

/-- The number of the first edge into node `n + 1`. -/
def tri (n : ℕ) : ℕ := n * (n + 1) / 2

/-- One edge applied to a row: `max (∑ₖ h k · W e k o + b e o) 0`; edges past the last are zero. -/
def edge (W : Wts) (B : Bias) (e : ℕ) (h : Fin 128 → EReal) (o : Fin 128) : EReal :=
  if he : e < 66 then max ((∑ k : Fin 128, h k * W (ix3 ⟨e, he⟩ k o)) + B (ix2 ⟨e, he⟩ o)) 0 else 0

/-- The value of node `n` on the input row `xr`. -/
def node (W : Wts) (B : Bias) (xr : Fin 128 → EReal) : ℕ → Fin 128 → EReal
  | 0 => xr
  | n + 1 => fun o => ∑ j : Fin (n + 1), edge W B (tri n + j.val) (node W B xr j.val) o
decreasing_by exact j.isLt

theorem node_zero (W : Wts) (B : Bias) (xr : Fin 128 → EReal) : node W B xr 0 = xr := by
  rw [node]

theorem node_succ (W : Wts) (B : Bias) (xr : Fin 128 → EReal) (n : ℕ) (o : Fin 128) :
    node W B xr (n + 1) o = ∑ j : Fin (n + 1), edge W B (tri n + j.val) (node W B xr j.val) o := by
  rw [node]

/-- An edge below 66 is the displayed formula. -/
theorem edge_of_lt (W : Wts) (B : Bias) (e : ℕ) (he : e < 66) (h : Fin 128 → EReal) (o : Fin 128) :
    edge W B e h o = max ((∑ k : Fin 128, h k * W (ix3 ⟨e, he⟩ k o)) + B (ix2 ⟨e, he⟩ o)) 0 := by
  unfold edge; rw [dif_pos he]

end Cert.Dag

end
-- ==== Proof.KernelValue.lean ====
/-
  The kernel's block of 2048 rows, node by node, is the DAG's node on each row.

  The kernel brackets node `n + 1`'s sum as a left fold from the zero block, `((0 + e₀) + e₁) + …`; a finite sum
  over `Fin (n + 1)` peeled from its last term has exactly this bracketing, so no reordering is needed.  Each edge
  term at the entry `(r, o)` is the DAG's edge on row `r` of the source node.
-/
import proofs.«165653_j38268158607515_1_alg».proof.Proof.KernelNodeTable
import proofs.«165653_j38268158607515_1_alg».proof.Proof.Dag

noncomputable section

namespace Cert.KernelIdeal.Edge

open Cert.KernelIdeal Cert.KernelIdeal.Gen Cert.Dag Idealize.ShloMosaic Idealize.ShloMosaic.ValueIdx

/-- The left fold `((0 + f 0) + f 1) + … + f (n - 1)`. -/
def lfold (f : ℕ → EReal) : ℕ → EReal
  | 0 => 0
  | n + 1 => lfold f n + f n

/-- A sum over `Fin n`, peeled from its last term down, is the left fold. -/
theorem sum_eq_lfold (f : ℕ → EReal) (n : ℕ) : ∑ j : Fin n, f j.val = lfold f n := by
  induction n with
  | zero => rw [Fin.sum_univ_zero, lfold]
  | succ n ih =>
    rw [Fin.sum_univ_castSucc, lfold]
    simp only [Fin.val_castSucc, Fin.val_last]
    rw [ih]

/-- Node `n + 1` in the kernel's bracketing. -/
theorem node_succ_lfold (W : Wts) (B : Bias) (xr : Fin 128 → EReal) (n : ℕ) (o : Fin 128) :
    node W B xr (n + 1) o = lfold (fun j => edge W B (tri n + j) (node W B xr j) o) (n + 1) := by
  rw [node_succ]
  exact sum_eq_lfold (fun j => edge W B (tri n + j) (node W B xr j) o) (n + 1)

/-- Row `r` of a block. -/
abbrev rowK (x0 : Vec Ideal S2048x128 .f32) (r : Fin 2048) : Fin 128 → EReal := fun q => x0 (ix2 r q)

/-- Edge `e` on a block at the entry `(r, o)` is the DAG's edge `e` on row `r` of the block. -/
theorem eK_row (x1 : Vec Ideal S66x128x128 .f32) (x2 : Vec Ideal S66x128 .f32) (h : FVec Ideal S2048x128 .f32)
    (e : Fin 66) (r : Fin 2048) (o : Fin 128) :
    eK x1 x2 h e (ix2 r o) = edge x1 x2 e.val (fun k => h (ix2 r k)) o := by
  rw [eK_apply, edge_of_lt x1 x2 e.val e.isLt]

theorem zeros2 : (![0, 0] : Fin 2 → Nat) = fun _ => 0 :=
  funext fun a => by match a with | ⟨0, _⟩ => rfl | ⟨1, _⟩ => rfl

variable (x0 : Vec Ideal S2048x128 .f32) (x1 : Vec Ideal S66x128x128 .f32) (x2 : Vec Ideal S66x128 .f32)

theorem nK0_apply (r : Fin 2048) (o : Fin 128) : nK0 x0 x1 x2 (ix2 r o) = node x1 x2 (rowK x0 r) 0 o := by
  rw [node_zero]
  unfold nK0
  rw [View.ld_unit_zero (S := S2048x128) zeros2]

theorem nK1_apply (r : Fin 2048) (o : Fin 128) : nK1 x0 x1 x2 (ix2 r o) = node x1 x2 (rowK x0 r) 1 o := by
  rw [node_succ_lfold]
  simp only [nK1, lfold, addf_apply, zK_apply, eK_row, nK0_apply]
  try rfl

theorem nK2_apply (r : Fin 2048) (o : Fin 128) : nK2 x0 x1 x2 (ix2 r o) = node x1 x2 (rowK x0 r) 2 o := by
  rw [node_succ_lfold]
  simp only [nK2, lfold, addf_apply, zK_apply, eK_row, nK0_apply, nK1_apply]
  try rfl

theorem nK3_apply (r : Fin 2048) (o : Fin 128) : nK3 x0 x1 x2 (ix2 r o) = node x1 x2 (rowK x0 r) 3 o := by
  rw [node_succ_lfold]
  simp only [nK3, lfold, addf_apply, zK_apply, eK_row, nK0_apply, nK1_apply, nK2_apply]
  try rfl

theorem nK4_apply (r : Fin 2048) (o : Fin 128) : nK4 x0 x1 x2 (ix2 r o) = node x1 x2 (rowK x0 r) 4 o := by
  rw [node_succ_lfold]
  simp only [nK4, lfold, addf_apply, zK_apply, eK_row, nK0_apply, nK1_apply, nK2_apply, nK3_apply]
  try rfl

theorem nK5_apply (r : Fin 2048) (o : Fin 128) : nK5 x0 x1 x2 (ix2 r o) = node x1 x2 (rowK x0 r) 5 o := by
  rw [node_succ_lfold]
  simp only [nK5, lfold, addf_apply, zK_apply, eK_row, nK0_apply, nK1_apply, nK2_apply, nK3_apply, nK4_apply]
  try rfl

theorem nK6_apply (r : Fin 2048) (o : Fin 128) : nK6 x0 x1 x2 (ix2 r o) = node x1 x2 (rowK x0 r) 6 o := by
  rw [node_succ_lfold]
  simp only [nK6, lfold, addf_apply, zK_apply, eK_row, nK0_apply, nK1_apply, nK2_apply, nK3_apply, nK4_apply,
    nK5_apply]
  try rfl

theorem nK7_apply (r : Fin 2048) (o : Fin 128) : nK7 x0 x1 x2 (ix2 r o) = node x1 x2 (rowK x0 r) 7 o := by
  rw [node_succ_lfold]
  simp only [nK7, lfold, addf_apply, zK_apply, eK_row, nK0_apply, nK1_apply, nK2_apply, nK3_apply, nK4_apply,
    nK5_apply, nK6_apply]
  try rfl

theorem nK8_apply (r : Fin 2048) (o : Fin 128) : nK8 x0 x1 x2 (ix2 r o) = node x1 x2 (rowK x0 r) 8 o := by
  rw [node_succ_lfold]
  simp only [nK8, lfold, addf_apply, zK_apply, eK_row, nK0_apply, nK1_apply, nK2_apply, nK3_apply, nK4_apply,
    nK5_apply, nK6_apply, nK7_apply]
  try rfl

theorem nK9_apply (r : Fin 2048) (o : Fin 128) : nK9 x0 x1 x2 (ix2 r o) = node x1 x2 (rowK x0 r) 9 o := by
  rw [node_succ_lfold]
  simp only [nK9, lfold, addf_apply, zK_apply, eK_row, nK0_apply, nK1_apply, nK2_apply, nK3_apply, nK4_apply,
    nK5_apply, nK6_apply, nK7_apply, nK8_apply]
  try rfl

theorem nK10_apply (r : Fin 2048) (o : Fin 128) : nK10 x0 x1 x2 (ix2 r o) = node x1 x2 (rowK x0 r) 10 o := by
  rw [node_succ_lfold]
  simp only [nK10, lfold, addf_apply, zK_apply, eK_row, nK0_apply, nK1_apply, nK2_apply, nK3_apply, nK4_apply,
    nK5_apply, nK6_apply, nK7_apply, nK8_apply, nK9_apply]
  try rfl

theorem nK11_apply (r : Fin 2048) (o : Fin 128) : nK11 x0 x1 x2 (ix2 r o) = node x1 x2 (rowK x0 r) 11 o := by
  rw [node_succ_lfold]
  simp only [nK11, lfold, addf_apply, zK_apply, eK_row, nK0_apply, nK1_apply, nK2_apply, nK3_apply, nK4_apply,
    nK5_apply, nK6_apply, nK7_apply, nK8_apply, nK9_apply, nK10_apply]
  try rfl

/-! ## The body's one store -/

section
variable {F : FTy → Type} [FloatOps F]

set_option maxRecDepth 16384 in
set_option maxHeartbeats 4000000 in
/-- What the body stores is node 11 of the loaded block: the body's operations, in the order it performs them,
    are the table's nested sums. -/
theorem out_eq (y0 : Vec F S2048x128 .f32) (y1 : Vec F S66x128x128 .f32) (y2 : Vec F S66x128 .f32) :
    out0_3 y0 y1 y2 = View.canon [(⟨r0_0, nK11 y0 y1 y2⟩ : View.Piece (Elt F) S2048x128 .f32)] := rfl
end

/-- The block the body leaves, at the entry `(r, o)`: node 11 on row `r` of the input block. -/
theorem kernel_block (r : Fin 2048) (o : Fin 128) :
    out0_3 x0 x1 x2 (ix2 r o) = node x1 x2 (rowK x0 r) 11 o := by
  rw [out_eq, View.canon_unit_zero (S := S2048x128) zeros2]
  exact nK11_apply x0 x1 x2 r o

end Cert.KernelIdeal.Edge

end
-- ==== Proof.KernelArray.lean ====
/-
  From blocks to the whole array.

  The grid has eight points; point `t` stages rows `2048 t … 2048 t + 2047` of `x`, the whole of `W` and of `b`,
  and writes back rows `2048 t … 2048 t + 2047` of the result.  The DAG acts on each row by itself, so the block a
  point writes is the restriction to its rows of ONE function `G` of the whole arrays: row `R` of `G x W b` is
  node 11 on row `R` of `x`.  The eight blocks tile the 16384 rows (row `R` lies in block `R / 2048`), so the
  result array ends equal to `G`.
-/
import proofs.«165653_j38268158607515_1_alg».proof.Proof.Gen.KernelIdeal.Value
import proofs.«165653_j38268158607515_1_alg».proof.Proof.KernelValue

noncomputable section

namespace Cert.KernelIdeal.Array

open Cert.KernelIdeal Cert.KernelIdeal.Gen Cert.KernelIdeal.Edge Cert.Dag
open Idealize.ShloMosaic Idealize.ShloMosaic.TcCoe Idealize.SL.Sem Idealize.ShloMosaic.ValueIdx
open Idealize.ShloMosaic.Pipeline (Dat)

/-- The result as one function of the three arrays: row `R`, column `o` is node 11 of row `R` of `x` at `o`. -/
def G (x : S16384x128.Idx → EReal) (W : S66x128x128.Idx → EReal) (B : S66x128.Idx → EReal) : S16384x128.Idx → EReal :=
  fun i => node W B (fun q => x (ix2 (⟨(i 0).val, (i 0).isLt⟩ : Fin 16384) q)) 11 (⟨(i 1).val, (i 1).isLt⟩ : Fin 128)

/-- The body's block at any index of the block. -/
theorem kernel_block_at (X0 : Vec Ideal S2048x128 .f32) (X1 : Vec Ideal S66x128x128 .f32) (X2 : Vec Ideal S66x128 .f32)
    (j : S2048x128.Idx) :
    out0_3 X0 X1 X2 j
      = node X1 X2 (rowK X0 (⟨(j 0).val, (j 0).isLt⟩ : Fin 2048)) 11 (⟨(j 1).val, (j 1).isLt⟩ : Fin 128) := by
  have hj : j = ix2 (⟨(j 0).val, (j 0).isLt⟩ : Fin 2048) (⟨(j 1).val, (j 1).isLt⟩ : Fin 128) :=
    funext fun a => by match a with | ⟨0, _⟩ => rfl | ⟨1, _⟩ => rfl
  exact (congrArg (out0_3 X0 X1 X2) hj).trans (kernel_block X0 X1 X2 _ _)

/-- A block whose rows are rows of `x`, beside the whole of `W` and `b`, gives the entries of `G` on those rows. -/
theorem block_eq_G (X0 : Vec Ideal S2048x128 .f32) (X1 : Vec Ideal S66x128x128 .f32) (X2 : Vec Ideal S66x128 .f32)
    (A0 : S16384x128.Idx → EReal) (A1 : S66x128x128.Idx → EReal) (A2 : S66x128.Idx → EReal)
    (j : S2048x128.Idx) (i : S16384x128.Idx)
    (h1 : X1 = A1) (h2 : X2 = A2)
    (h0 : ∀ q : Fin 128, X0 (ix2 (⟨(j 0).val, (j 0).isLt⟩ : Fin 2048) q) = A0 (ix2 (⟨(i 0).val, (i 0).isLt⟩ : Fin 16384) q))
    (hi1 : (i 1).val = (j 1).val) :
    out0_3 X0 X1 X2 j = G A0 A1 A2 i := by
  rw [kernel_block_at]
  subst h1 h2
  unfold G rowK
  have e0 : (fun q : Fin 128 => X0 (ix2 (⟨(j 0).val, (j 0).isLt⟩ : Fin 2048) q))
      = fun q : Fin 128 => A0 (ix2 (⟨(i 0).val, (i 0).isLt⟩ : Fin 16384) q) := funext h0
  have e1 : (⟨(j 1).val, (j 1).isLt⟩ : Fin 128) = ⟨(i 1).val, (i 1).isLt⟩ := Fin.ext hi1.symm
  rw [e0, e1]

variable (m : (ℓ : Loc nD τ sig) → Buf (Elt Ideal) ℓ) (ρ : Dev nD → PrngReg)

/-- The printed index maps over the eight grid points: the input rows move with the output rows, the weights and
    biases stay at block zero. -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) ≤ 7 :=
  (by decide +kernel : ∀ t : Fin grid0.N, _)

/-- Every block of rows is some point's. -/
theorem idx_onto : ∀ q0 : Fin 8, ∃ t : Fin cfg0.N, win0_3.index t = ![q0.val, 0] :=
  (by decide +kernel : ∀ q0 : Fin 8, ∃ t : Fin grid0.N, win0_3.index t = ![q0.val, 0])

/-- What point `t` writes back is block `t` of `G` of the arrays as the region finds them. -/
theorem flushed_eq (c : Dev nD) (t : Fin cfg0.N) :
    (dats m 0 c).flushed 3 t
      = ((cfg0.win 3).blk t).view.read (Elt Ideal) (G (V m c main_arg0) (V m c main_arg1) (V m c main_arg2)) := by
  rw [Cert.KernelIdeal.Value.flushed3]
  obtain ⟨f0, f1, f2, f3, f4, f5, f6, f7, f8⟩ := idx_facts t
  funext j
  show out0_3 (iblk m c 0 t) (iblk m c 1 t) (iblk m c 2 t) j
    = G (V m c main_arg0) (V m c main_arg1) (V m c main_arg2) (((cfg0.win 3).blk t).view.emb j)
  refine block_eq_G (iblk m c 0 t) (iblk m c 1 t) (iblk m c 2 t) (V m c main_arg0) (V m c main_arg1) (V m c main_arg2)
    j (((cfg0.win 3).blk t).view.emb j) ?_ ?_ ?_ ?_
  · funext y
    show V m c main_arg1 (((cfg0.win 1).blk t).view.emb y) = V m c main_arg1 y
    refine congrArg (V m c main_arg1) (funext fun a => Fin.ext ?_)
    match a with
    | ⟨0, _⟩ => show win0_1.index t (0 : Fin 3) * 66 + 1 * (y 0).val = (y 0).val; omega
    | ⟨1, _⟩ => show win0_1.index t (1 : Fin 3) * 128 + 1 * (y 1).val = (y 1).val; omega
    | ⟨2, _⟩ => show win0_1.index t (2 : Fin 3) * 128 + 1 * (y 2).val = (y 2).val; omega
  · funext y
    show V m c main_arg2 (((cfg0.win 2).blk t).view.emb y) = V m c main_arg2 y
    refine congrArg (V m c main_arg2) (funext fun a => Fin.ext ?_)
    match a with
    | ⟨0, _⟩ => show win0_2.index t (0 : Fin 2) * 66 + 1 * (y 0).val = (y 0).val; omega
    | ⟨1, _⟩ => show win0_2.index t (1 : Fin 2) * 128 + 1 * (y 1).val = (y 1).val; omega
  · intro q
    show V m c main_arg0 (((cfg0.win 0).blk t).view.emb (ix2 (⟨(j 0).val, (j 0).isLt⟩ : Fin 2048) q)) = _
    refine congrArg (V m c main_arg0) (funext fun a => Fin.ext ?_)
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 128 + 1 * q.val = q.val; omega
  · show win0_3.index t (1 : Fin 2) * 128 + 1 * (j 1).val = (j 1).val
    omega

/-- An index of the array is in point `t`'s block iff each coordinate is in the block's range on its axis. -/
theorem mem_blk (t : Fin cfg0.N) (i : S16384x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v0).slice (win0_3.rect t)).set ↔ _
  rw [View.set_slice_whole, Rect.mem_set_unit]
  exact Iff.rfl

/-- Row `R` lies in the block of point `R / 2048`: the eight blocks cover the array. -/
theorem cover (i : S16384x128.Idx) : ∃ t : Fin cfg0.N, (cfg0.win 3).flush t = true ∧ i ∈ ((cfg0.win 3).blk t).view.set := by
  have hi0 : (i 0).val < 16384 := (i 0).isLt
  have hi1 : (i 1).val < 128 := (i 1).isLt
  obtain ⟨t, ht⟩ := idx_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-- The result array after the run is `G` of the argument arrays. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 (G (V m c main_arg0) (V m c main_arg1) (V m c main_arg2))
    (fun t _ => flushed_eq m c t) cover

/-- The kernel's run: the result array ends at `G` of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Array

end
-- ==== Proof.RefAgree.lean ====
/-
  What it means for a 16384 × 128 array to hold node `n` of the DAG: row `r` of the array is node `n`
  evaluated on row `r` of the input `x`, with the weights and biases read as the DAG's.
-/
import proofs.«165653_j38268158607515_1_alg».proof.Proof.ReadP
import proofs.«165653_j38268158607515_1_alg».proof.Proof.Dag

noncomputable section

namespace Cert.RefDag

open Cert.ReferenceIdeal Cert.Dag Idealize.ShloMosaic Idealize.ShloMosaic.ValueIdx

/-- Row `r` of `f` is node `n` on row `r` of `x`. -/
def IsNode (x : (⟨S16384x128, .f32⟩ : BufTy).Contents (Elt Ideal)) (W : (⟨S66x128x128, .f32⟩ : BufTy).Contents (Elt Ideal))
    (B : (⟨S66x128, .f32⟩ : BufTy).Contents (Elt Ideal)) (n : ℕ) (f : (⟨S16384x128, .f32⟩ : BufTy).Contents (Elt Ideal)) : Prop :=
  ∀ (r : Fin 16384) (o : Fin 128), f (ix2 r o) = node W B (fun q => x (ix2 r q)) n o

/-- The input itself is node 0. -/
theorem isNode_zero (x : (⟨S16384x128, .f32⟩ : BufTy).Contents (Elt Ideal)) (W : (⟨S66x128x128, .f32⟩ : BufTy).Contents (Elt Ideal))
    (B : (⟨S66x128, .f32⟩ : BufTy).Contents (Elt Ideal)) : IsNode x W B 0 x := fun r o => by
  rw [node_zero]

end Cert.RefDag

end
-- ==== Proof.RefLayer1.lean ====
import proofs.«165653_j38268158607515_1_alg».proof.Proof.RefAgree
import Idealize.ShloMosaic.Lib.Pipeline.Value
import Idealize.ShloMosaic.Lib.ValueIdx
import Idealize.ShloMosaic.PureOps.Ideal.Laws

noncomputable section

namespace Cert.RefDag

open Cert.ReferenceIdeal Cert.Dag Idealize.ShloMosaic Idealize.ShloMosaic.ValueIdx

/-- Node 1: the one edge into it, edge 0 applied to the input row. The reduce over the single source is that
    source's term; its relu, bias and product sum are edge 0's, the weight and bias slices starting at 0. -/
theorem layer1 (x0 : (⟨S16384x128, .f32⟩ : BufTy).Contents (Elt Ideal)) (x1 : (⟨S66x128x128, .f32⟩ : BufTy).Contents (Elt Ideal)) (x2 : (⟨S66x128, .f32⟩ : BufTy).Contents (Elt Ideal)) : IsNode x0 x1 x2 1 (ReadP.val_main_v8 (F := Ideal) x0 x1 x2) := by
  intro r o
  rw [node_succ, ReadP.val_main_v8_apply, ReadP.val_main_cst_apply, Ideal.ofBits_def, Ideal.ofBits_zero_f32, zero_add]
  refine Finset.sum_congr rfl fun k _ => ?_
  have hk : tri 0 + k.val < 66 := by have := k.isLt; unfold tri; omega
  rw [ReadP.val_main_v7_apply, ReadP.val_main_v6_apply, ReadP.val_main_call0_v0_apply, ReadP.val_main_call0_cst_apply,
    ReadP.val_main_v3_apply, ReadP.val_main_v5_apply, ReadP.val_main_v4_apply, ReadP.val_main_v2_apply,
    Ideal.ofBits_def, Ideal.ofBits_zero_f32, Ideal.addf_def, Ideal.maximumf_def, edge_of_lt x1 x2 _ hk]
  -- the bias slice read at (k, o) is the bias of edge tri 0 + k
  have hB : ReadP.idx_main_v2 (ReadP.idx_main_v4 (ReadP.idx_main_v5 (ReadP.idx_main_v8 (ix2 r o) k))) = ix2 ⟨tri 0 + k.val, hk⟩ o :=
    funext fun a => Fin.ext (by
      match a with
      | ⟨0, _⟩ => show 0 = tri 0 + k.val; have := k.isLt; unfold tri; omega
      | ⟨1, _⟩ => rfl)
  -- the weight slice read at (k, q, o) is the weight of edge tri 0 + k
  have hW : ∀ q : Fin 128, ReadP.idx_main_v1 (ReadP.ridx_main_v3 (ReadP.idx_main_v8 (ix2 r o) k) q) = ix3 ⟨tri 0 + k.val, hk⟩ q o :=
    fun q => funext fun a => Fin.ext (by
      match a with
      | ⟨0, _⟩ => show k.val = tri 0 + k.val; unfold tri; omega
      | ⟨1, _⟩ => rfl
      | ⟨2, _⟩ => rfl)
  -- the source read at (k, r, q) is node k at row r: the only source is node 0, the input
  have hX : ∀ q : Fin 128, ReadP.val_main_v0 (F := Ideal) x0 (ReadP.lidx_main_v3 (ReadP.idx_main_v8 (ix2 r o) k) q)
      = node x1 x2 (fun q => x0 (ix2 r q)) k.val q := fun q => by
    obtain rfl : k = 0 := Subsingleton.elim _ _
    rw [ReadP.val_main_v0_apply]
    show _ = node x1 x2 (fun q => x0 (ix2 r q)) 0 q
    rw [node_zero]
    exact congrArg x0 (funext fun a => by match a with | ⟨0, _⟩ => rfl | ⟨1, _⟩ => rfl)
  rw [hB]
  refine congrArg (fun s => max (s + _) 0) (Finset.sum_congr rfl fun q _ => ?_)
  rw [ReadP.val_main_v1_apply, hW, hX]

end Cert.RefDag

end
-- ==== Proof.RefLayer2.lean ====
import proofs.«165653_j38268158607515_1_alg».proof.Proof.RefAgree
import Idealize.ShloMosaic.Lib.Pipeline.Value
import Idealize.ShloMosaic.Lib.ValueIdx
import Idealize.ShloMosaic.PureOps.Ideal.Laws

noncomputable section

namespace Cert.RefDag

open Cert.ReferenceIdeal Cert.Dag Idealize.ShloMosaic Idealize.ShloMosaic.ValueIdx

/-- The two stacked sources of node 2, read at (k, r, q): source 0 is the input, source 1 is node 1's array. -/
theorem src2 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (h1 : IsNode x0 x1 x2 1 (ReadP.val_main_v8 (F := Ideal) x0 x1 x2)) (r : Fin 16384) (q : Fin 128) (k : Fin 2) :
    ReadP.val_main_v11 (F := Ideal) x0 x1 x2 (ix3 k r q) = node x1 x2 (fun q => x0 (ix2 r q)) k.val q := by
  unfold ReadP.val_main_v11
  match k with
  | ⟨0, _⟩ =>
    rw [concatenate_pair_apply_left (t := S2x16384x128) (s₁ := S1x16384x128) (s₂ := S1x16384x128) 0 _ _ _ _ rfl (ix3 (0 : Fin 1) r q)
      (fun b => by match b with | ⟨0, _⟩ => rfl | ⟨1, _⟩ => rfl | ⟨2, _⟩ => rfl)]
    rw [ReadP.val_main_v9_apply]
    show _ = node x1 x2 (fun q => x0 (ix2 r q)) 0 q
    rw [node_zero]
    exact congrArg x0 (funext fun a => by match a with | ⟨0, _⟩ => rfl | ⟨1, _⟩ => rfl)
  | ⟨1, _⟩ =>
    rw [concatenate_pair_apply_right (t := S2x16384x128) (s₁ := S1x16384x128) (s₂ := S1x16384x128) 0 _ _ _ _ rfl rfl (ix3 (0 : Fin 1) r q)
      (fun b => by
        match b with
        | ⟨0, _⟩ => exact fun hne => absurd rfl hne
        | ⟨1, _⟩ => exact fun _ => rfl
        | ⟨2, _⟩ => exact fun _ => rfl)
      rfl]
    rw [ReadP.val_main_v10_apply]
    exact (congrArg (ReadP.val_main_v8 (F := Ideal) x0 x1 x2)
      (funext fun a => by match a with | ⟨0, _⟩ => rfl | ⟨1, _⟩ => rfl)).trans (h1 r q)

/-- Node 2: the reduce over the two sources is the sum of their terms; source k's term is edge tri 1 + k = 1 + k
    applied to node k, the weight and bias slices starting at 1. -/
theorem layer2 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (h1 : IsNode x0 x1 x2 1 (ReadP.val_main_v8 (F := Ideal) x0 x1 x2)) :
    IsNode x0 x1 x2 2 (ReadP.val_main_v19 (F := Ideal) x0 x1 x2) := by
  intro r o
  rw [node_succ, ReadP.val_main_v19_apply, ReadP.val_main_cst_0_apply, Ideal.ofBits_def, Ideal.ofBits_zero_f32, zero_add]
  refine Finset.sum_congr rfl fun k _ => ?_
  have hk : tri 1 + k.val < 66 := by have := k.isLt; unfold tri; omega
  rw [ReadP.val_main_v18_apply, ReadP.val_main_v17_apply, ReadP.val_main_call1_v0_apply, ReadP.val_main_call1_cst_apply,
    ReadP.val_main_v14_apply, ReadP.val_main_v16_apply, ReadP.val_main_v15_apply, ReadP.val_main_v13_apply,
    Ideal.ofBits_def, Ideal.ofBits_zero_f32, Ideal.addf_def, Ideal.maximumf_def, edge_of_lt x1 x2 _ hk]
  -- the bias slice read at (k, o) is the bias of edge tri 1 + k
  have hB : ReadP.idx_main_v13 (ReadP.idx_main_v15 (ReadP.idx_main_v16 (ReadP.idx_main_v19 (ix2 r o) k))) = ix2 ⟨tri 1 + k.val, hk⟩ o :=
    funext fun a => Fin.ext (by
      match a with
      | ⟨0, _⟩ => show 1 + k.val = tri 1 + k.val; unfold tri; omega
      | ⟨1, _⟩ => rfl)
  -- the weight slice read at (k, q, o) is the weight of edge tri 1 + k
  have hW : ∀ q : Fin 128, ReadP.idx_main_v12 (ReadP.ridx_main_v14 (ReadP.idx_main_v19 (ix2 r o) k) q) = ix3 ⟨tri 1 + k.val, hk⟩ q o :=
    fun q => funext fun a => Fin.ext (by
      match a with
      | ⟨0, _⟩ => show 1 + k.val = tri 1 + k.val; unfold tri; omega
      | ⟨1, _⟩ => rfl
      | ⟨2, _⟩ => rfl)
  -- the stacked sources are read at (k, r, q)
  have hL : ∀ q : Fin 128, ReadP.lidx_main_v14 (ReadP.idx_main_v19 (ix2 r o) k) q = ix3 k r q :=
    fun q => funext fun a => Fin.ext (by
      match a with
      | ⟨0, _⟩ => rfl
      | ⟨1, _⟩ => rfl
      | ⟨2, _⟩ => rfl)
  rw [hB]
  refine congrArg (fun s => max (s + _) 0) (Finset.sum_congr rfl fun q _ => ?_)
  rw [ReadP.val_main_v12_apply, hW, hL, src2 x0 x1 x2 h1 r q k]

end Cert.RefDag

end
-- ==== Proof.RefLayer3.lean ====
import proofs.«165653_j38268158607515_1_alg».proof.Proof.RefAgree
import Idealize.ShloMosaic.Lib.Pipeline.Value
import Idealize.ShloMosaic.Lib.ValueIdx
import Idealize.ShloMosaic.PureOps.Ideal.Laws

noncomputable section

namespace Cert.RefDag

open Cert.ReferenceIdeal Cert.Dag Idealize.ShloMosaic Idealize.ShloMosaic.ValueIdx

/-- The three stacked sources of node 3, read at (k, r, q): source 0 is the input, source k ≥ 1 is node k's array. -/
theorem src3 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (h1 : IsNode x0 x1 x2 1 (ReadP.val_main_v8 (F := Ideal) x0 x1 x2))
    (h2 : IsNode x0 x1 x2 2 (ReadP.val_main_v19 (F := Ideal) x0 x1 x2)) (r : Fin 16384) (q : Fin 128) (k : Fin 3) :
    ReadP.val_main_v23 (F := Ideal) x0 x1 x2 (ix3 k r q) = node x1 x2 (fun q => x0 (ix2 r q)) k.val q := by
  unfold ReadP.val_main_v23
  match k with
  | ⟨0, _⟩ =>
    rw [concatenate_apply_piece (t := S3x16384x128) 0 _ _ (ix3 (⟨0, by decide⟩ : Fin 3) r q) 0 (by simp) S1x16384x128 (ReadP.val_main_v20 (F := Ideal) x0) rfl rfl 0 rfl
      (ix3 (0 : Fin 1) r q)
      (fun b => by
        match b with
        | ⟨0, _⟩ => exact fun hne => absurd rfl hne
        | ⟨1, _⟩ => exact fun _ => rfl
        | ⟨2, _⟩ => exact fun _ => rfl)
      rfl]
    rw [ReadP.val_main_v20_apply]
    show _ = node x1 x2 (fun q => x0 (ix2 r q)) 0 q
    rw [node_zero]
    exact congrArg x0 (funext fun a => by match a with | ⟨0, _⟩ => rfl | ⟨1, _⟩ => rfl)
  | ⟨1, _⟩ =>
    rw [concatenate_apply_piece (t := S3x16384x128) 0 _ _ (ix3 (⟨1, by decide⟩ : Fin 3) r q) 1 (by simp) S1x16384x128 (ReadP.val_main_v21 (F := Ideal) x0 x1 x2) rfl rfl 1 rfl
      (ix3 (0 : Fin 1) r q)
      (fun b => by
        match b with
        | ⟨0, _⟩ => exact fun hne => absurd rfl hne
        | ⟨1, _⟩ => exact fun _ => rfl
        | ⟨2, _⟩ => exact fun _ => rfl)
      rfl]
    rw [ReadP.val_main_v21_apply]
    exact (congrArg (ReadP.val_main_v8 (F := Ideal) x0 x1 x2)
      (funext fun a => by match a with | ⟨0, _⟩ => rfl | ⟨1, _⟩ => rfl)).trans (h1 r q)
  | ⟨2, _⟩ =>
    rw [concatenate_apply_piece (t := S3x16384x128) 0 _ _ (ix3 (⟨2, by decide⟩ : Fin 3) r q) 2 (by simp) S1x16384x128 (ReadP.val_main_v22 (F := Ideal) x0 x1 x2) rfl rfl 2 rfl
      (ix3 (0 : Fin 1) r q)
      (fun b => by
        match b with
        | ⟨0, _⟩ => exact fun hne => absurd rfl hne
        | ⟨1, _⟩ => exact fun _ => rfl
        | ⟨2, _⟩ => exact fun _ => rfl)
      rfl]
    rw [ReadP.val_main_v22_apply]
    exact (congrArg (ReadP.val_main_v19 (F := Ideal) x0 x1 x2)
      (funext fun a => by match a with | ⟨0, _⟩ => rfl | ⟨1, _⟩ => rfl)).trans (h2 r q)

/-- Node 3: the reduce over the three sources is the sum of their terms; source k's term is edge
    tri 2 + k = 3 + k applied to node k, the weight and bias slices starting at 3. -/
theorem layer3 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (h1 : IsNode x0 x1 x2 1 (ReadP.val_main_v8 (F := Ideal) x0 x1 x2))
    (h2 : IsNode x0 x1 x2 2 (ReadP.val_main_v19 (F := Ideal) x0 x1 x2)) :
    IsNode x0 x1 x2 3 (ReadP.val_main_v31 (F := Ideal) x0 x1 x2) := by
  intro r o
  rw [node_succ, ReadP.val_main_v31_apply, ReadP.val_main_cst_1_apply, Ideal.ofBits_def, Ideal.ofBits_zero_f32, zero_add]
  refine Finset.sum_congr rfl fun k _ => ?_
  have hk : tri 2 + k.val < 66 := by have := k.isLt; unfold tri; omega
  rw [ReadP.val_main_v30_apply, ReadP.val_main_v29_apply, ReadP.val_main_call2_v0_apply, ReadP.val_main_call2_cst_apply,
    ReadP.val_main_v26_apply, ReadP.val_main_v28_apply, ReadP.val_main_v27_apply, ReadP.val_main_v25_apply,
    Ideal.ofBits_def, Ideal.ofBits_zero_f32, Ideal.addf_def, Ideal.maximumf_def, edge_of_lt x1 x2 _ hk]
  -- the bias slice read at (k, o) is the bias of edge tri 2 + k
  have hB : ReadP.idx_main_v25 (ReadP.idx_main_v27 (ReadP.idx_main_v28 (ReadP.idx_main_v31 (ix2 r o) k))) = ix2 ⟨tri 2 + k.val, hk⟩ o :=
    funext fun a => Fin.ext (by
      match a with
      | ⟨0, _⟩ => show 3 + k.val = tri 2 + k.val; unfold tri; omega
      | ⟨1, _⟩ => rfl)
  -- the weight slice read at (k, q, o) is the weight of edge tri 2 + k
  have hW : ∀ q : Fin 128, ReadP.idx_main_v24 (ReadP.ridx_main_v26 (ReadP.idx_main_v31 (ix2 r o) k) q) = ix3 ⟨tri 2 + k.val, hk⟩ q o :=
    fun q => funext fun a => Fin.ext (by
      match a with
      | ⟨0, _⟩ => show 3 + k.val = tri 2 + k.val; unfold tri; omega
      | ⟨1, _⟩ => rfl
      | ⟨2, _⟩ => rfl)
  -- the stacked sources are read at (k, r, q)
  have hL : ∀ q : Fin 128, ReadP.lidx_main_v26 (ReadP.idx_main_v31 (ix2 r o) k) q = ix3 k r q :=
    fun q => funext fun a => Fin.ext (by
      match a with
      | ⟨0, _⟩ => rfl
      | ⟨1, _⟩ => rfl
      | ⟨2, _⟩ => rfl)
  rw [hB]
  refine congrArg (fun s => max (s + _) 0) (Finset.sum_congr rfl fun q _ => ?_)
  rw [ReadP.val_main_v24_apply, hW, hL, src3 x0 x1 x2 h1 h2 r q k]

end Cert.RefDag

end
-- ==== Proof.RefLayer4.lean ====
import proofs.«165653_j38268158607515_1_alg».proof.Proof.RefAgree
import Idealize.ShloMosaic.Lib.Pipeline.Value
import Idealize.ShloMosaic.Lib.ValueIdx
import Idealize.ShloMosaic.PureOps.Ideal.Laws

noncomputable section

namespace Cert.RefDag

open Cert.ReferenceIdeal Cert.Dag Idealize.ShloMosaic Idealize.ShloMosaic.ValueIdx

/-- The four stacked sources of node 4, read at (k, r, q): source 0 is the input, source k ≥ 1 is node k's array. -/
theorem src4 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (h1 : IsNode x0 x1 x2 1 (ReadP.val_main_v8 (F := Ideal) x0 x1 x2))
    (h2 : IsNode x0 x1 x2 2 (ReadP.val_main_v19 (F := Ideal) x0 x1 x2))
    (h3 : IsNode x0 x1 x2 3 (ReadP.val_main_v31 (F := Ideal) x0 x1 x2)) (r : Fin 16384) (q : Fin 128) (k : Fin 4) :
    ReadP.val_main_v36 (F := Ideal) x0 x1 x2 (ix3 k r q) = node x1 x2 (fun q => x0 (ix2 r q)) k.val q := by
  unfold ReadP.val_main_v36
  match k with
  | ⟨0, _⟩ =>
    rw [concatenate_apply_piece (t := S4x16384x128) 0 _ _ (ix3 (⟨0, by decide⟩ : Fin 4) r q) 0 (by simp) S1x16384x128 (ReadP.val_main_v32 (F := Ideal) x0) rfl rfl 0 rfl
      (ix3 (0 : Fin 1) r q)
      (fun b => by
        match b with
        | ⟨0, _⟩ => exact fun hne => absurd rfl hne
        | ⟨1, _⟩ => exact fun _ => rfl
        | ⟨2, _⟩ => exact fun _ => rfl)
      rfl]
    rw [ReadP.val_main_v32_apply]
    show _ = node x1 x2 (fun q => x0 (ix2 r q)) 0 q
    rw [node_zero]
    exact congrArg x0 (funext fun a => by match a with | ⟨0, _⟩ => rfl | ⟨1, _⟩ => rfl)
  | ⟨1, _⟩ =>
    rw [concatenate_apply_piece (t := S4x16384x128) 0 _ _ (ix3 (⟨1, by decide⟩ : Fin 4) r q) 1 (by simp) S1x16384x128 (ReadP.val_main_v33 (F := Ideal) x0 x1 x2) rfl rfl 1 rfl
      (ix3 (0 : Fin 1) r q)
      (fun b => by
        match b with
        | ⟨0, _⟩ => exact fun hne => absurd rfl hne
        | ⟨1, _⟩ => exact fun _ => rfl
        | ⟨2, _⟩ => exact fun _ => rfl)
      rfl]
    rw [ReadP.val_main_v33_apply]
    exact (congrArg (ReadP.val_main_v8 (F := Ideal) x0 x1 x2)
      (funext fun a => by match a with | ⟨0, _⟩ => rfl | ⟨1, _⟩ => rfl)).trans (h1 r q)
  | ⟨2, _⟩ =>
    rw [concatenate_apply_piece (t := S4x16384x128) 0 _ _ (ix3 (⟨2, by decide⟩ : Fin 4) r q) 2 (by simp) S1x16384x128 (ReadP.val_main_v34 (F := Ideal) x0 x1 x2) rfl rfl 2 rfl
      (ix3 (0 : Fin 1) r q)
      (fun b => by
        match b with
        | ⟨0, _⟩ => exact fun hne => absurd rfl hne
        | ⟨1, _⟩ => exact fun _ => rfl
        | ⟨2, _⟩ => exact fun _ => rfl)
      rfl]
    rw [ReadP.val_main_v34_apply]
    exact (congrArg (ReadP.val_main_v19 (F := Ideal) x0 x1 x2)
      (funext fun a => by match a with | ⟨0, _⟩ => rfl | ⟨1, _⟩ => rfl)).trans (h2 r q)
  | ⟨3, _⟩ =>
    rw [concatenate_apply_piece (t := S4x16384x128) 0 _ _ (ix3 (⟨3, by decide⟩ : Fin 4) r q) 3 (by simp) S1x16384x128 (ReadP.val_main_v35 (F := Ideal) x0 x1 x2) rfl rfl 3 rfl
      (ix3 (0 : Fin 1) r q)
      (fun b => by
        match b with
        | ⟨0, _⟩ => exact fun hne => absurd rfl hne
        | ⟨1, _⟩ => exact fun _ => rfl
        | ⟨2, _⟩ => exact fun _ => rfl)
      rfl]
    rw [ReadP.val_main_v35_apply]
    exact (congrArg (ReadP.val_main_v31 (F := Ideal) x0 x1 x2)
      (funext fun a => by match a with | ⟨0, _⟩ => rfl | ⟨1, _⟩ => rfl)).trans (h3 r q)

/-- Node 4: the reduce over the four sources is the sum of their terms; source k's term is edge
    tri 3 + k = 6 + k applied to node k, the weight and bias slices starting at 6. -/
theorem layer4 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (h1 : IsNode x0 x1 x2 1 (ReadP.val_main_v8 (F := Ideal) x0 x1 x2))
    (h2 : IsNode x0 x1 x2 2 (ReadP.val_main_v19 (F := Ideal) x0 x1 x2))
    (h3 : IsNode x0 x1 x2 3 (ReadP.val_main_v31 (F := Ideal) x0 x1 x2)) :
    IsNode x0 x1 x2 4 (ReadP.val_main_v44 (F := Ideal) x0 x1 x2) := by
  intro r o
  rw [node_succ, ReadP.val_main_v44_apply, ReadP.val_main_cst_2_apply, Ideal.ofBits_def, Ideal.ofBits_zero_f32, zero_add]
  refine Finset.sum_congr rfl fun k _ => ?_
  have hk : tri 3 + k.val < 66 := by have := k.isLt; unfold tri; omega
  rw [ReadP.val_main_v43_apply, ReadP.val_main_v42_apply, ReadP.val_main_call3_v0_apply, ReadP.val_main_call3_cst_apply,
    ReadP.val_main_v39_apply, ReadP.val_main_v41_apply, ReadP.val_main_v40_apply, ReadP.val_main_v38_apply,
    Ideal.ofBits_def, Ideal.ofBits_zero_f32, Ideal.addf_def, Ideal.maximumf_def, edge_of_lt x1 x2 _ hk]
  -- the bias slice read at (k, o) is the bias of edge tri 3 + k
  have hB : ReadP.idx_main_v38 (ReadP.idx_main_v40 (ReadP.idx_main_v41 (ReadP.idx_main_v44 (ix2 r o) k))) = ix2 ⟨tri 3 + k.val, hk⟩ o :=
    funext fun a => Fin.ext (by
      match a with
      | ⟨0, _⟩ => show 6 + k.val = tri 3 + k.val; unfold tri; omega
      | ⟨1, _⟩ => rfl)
  -- the weight slice read at (k, q, o) is the weight of edge tri 3 + k
  have hW : ∀ q : Fin 128, ReadP.idx_main_v37 (ReadP.ridx_main_v39 (ReadP.idx_main_v44 (ix2 r o) k) q) = ix3 ⟨tri 3 + k.val, hk⟩ q o :=
    fun q => funext fun a => Fin.ext (by
      match a with
      | ⟨0, _⟩ => show 6 + k.val = tri 3 + k.val; unfold tri; omega
      | ⟨1, _⟩ => rfl
      | ⟨2, _⟩ => rfl)
  -- the stacked sources are read at (k, r, q)
  have hL : ∀ q : Fin 128, ReadP.lidx_main_v39 (ReadP.idx_main_v44 (ix2 r o) k) q = ix3 k r q :=
    fun q => funext fun a => Fin.ext (by
      match a with
      | ⟨0, _⟩ => rfl
      | ⟨1, _⟩ => rfl
      | ⟨2, _⟩ => rfl)
  rw [hB]
  refine congrArg (fun s => max (s + _) 0) (Finset.sum_congr rfl fun q _ => ?_)
  rw [ReadP.val_main_v37_apply, hW, hL, src4 x0 x1 x2 h1 h2 h3 r q k]

end Cert.RefDag

end
-- ==== Proof.RefLayer5.lean ====
/-
  Layer 5 of the reference computes node 5 of the DAG.

  The layer stacks the five earlier nodes' arrays along a new leading axis, multiplies source `k` of the stack by
  the weight matrix of edge `10 + k` (the weights' rows 10 to 14), adds that edge's bias, takes the maximum with
  zero, and sums over the sources.  Read at row `r`, column `o`, that is the sum over `k` of edge `10 + k` applied to
  node `k` of row `r`, which is the definition of node 5, since `tri 4 = 10`.
-/
import proofs.«165653_j38268158607515_1_alg».proof.Proof.RefAgree
import Idealize.ShloMosaic.Lib.Pipeline.Value
import Idealize.ShloMosaic.Lib.ValueIdx
import Idealize.ShloMosaic.PureOps.Ideal.Laws

noncomputable section

namespace Cert.RefDag

open Cert.ReferenceIdeal Cert.Dag Idealize.ShloMosaic Idealize.ShloMosaic.ValueIdx

/-- The zero word is the real number zero. -/
theorem zero_word5 : (FloatOps.ofBits (F := Ideal) .f32 0x00000000#32 : EReal) = 0 := Ideal.ofBits_zero_f32

/-- The stack of the five earlier nodes, read at source `k`, row `r`, column `q`: piece `k` of the concatenation is the
    broadcast of node `k`'s array, which holds node `k` of row `r`. -/
theorem stack5 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (h1 : IsNode x0 x1 x2 1 (ReadP.val_main_v8 (F := Ideal) x0 x1 x2)) (h2 : IsNode x0 x1 x2 2 (ReadP.val_main_v19 (F := Ideal) x0 x1 x2)) (h3 : IsNode x0 x1 x2 3 (ReadP.val_main_v31 (F := Ideal) x0 x1 x2)) (h4 : IsNode x0 x1 x2 4 (ReadP.val_main_v44 (F := Ideal) x0 x1 x2))
    (k : Fin 5) (r : Fin 16384) (q : Fin 128) :
    ReadP.val_main_v50 (F := Ideal) x0 x1 x2 (ix3 k r q) = node x1 x2 (fun c => x0 (ix2 r c)) k.val q := by
  unfold ReadP.val_main_v50
  match k with
  | ⟨0, _⟩ =>
    rw [concatenate_apply_piece (0 : Fin S5x16384x128.rank) _ _ (ix3 (⟨0, by decide⟩ : Fin 5) r q) 0 (by show (0 : Nat) < 5; omega) S1x16384x128 (ReadP.val_main_v45 (F := Ideal) x0) rfl rfl 0 rfl (ix3 (0 : Fin 1) r q)
      (fun b hb => by match b with | ⟨0, _⟩ => exact absurd rfl hb | ⟨1, _⟩ => rfl | ⟨2, _⟩ => rfl) rfl]
    rw [ReadP.val_main_v45_apply, node_zero]
    exact congrArg x0 (funext fun a => Fin.ext (by match a with | ⟨0, _⟩ => rfl | ⟨1, _⟩ => rfl))
  | ⟨1, _⟩ =>
    rw [concatenate_apply_piece (0 : Fin S5x16384x128.rank) _ _ (ix3 (⟨1, by decide⟩ : Fin 5) r q) 1 (by show (1 : Nat) < 5; omega) S1x16384x128 (ReadP.val_main_v46 (F := Ideal) x0 x1 x2) rfl rfl 1 rfl (ix3 (0 : Fin 1) r q)
      (fun b hb => by match b with | ⟨0, _⟩ => exact absurd rfl hb | ⟨1, _⟩ => rfl | ⟨2, _⟩ => rfl) rfl]
    rw [ReadP.val_main_v46_apply, ← h1 r q]
    exact congrArg _ (funext fun a => Fin.ext (by match a with | ⟨0, _⟩ => rfl | ⟨1, _⟩ => rfl))
  | ⟨2, _⟩ =>
    rw [concatenate_apply_piece (0 : Fin S5x16384x128.rank) _ _ (ix3 (⟨2, by decide⟩ : Fin 5) r q) 2 (by show (2 : Nat) < 5; omega) S1x16384x128 (ReadP.val_main_v47 (F := Ideal) x0 x1 x2) rfl rfl 2 rfl (ix3 (0 : Fin 1) r q)
      (fun b hb => by match b with | ⟨0, _⟩ => exact absurd rfl hb | ⟨1, _⟩ => rfl | ⟨2, _⟩ => rfl) rfl]
    rw [ReadP.val_main_v47_apply, ← h2 r q]
    exact congrArg _ (funext fun a => Fin.ext (by match a with | ⟨0, _⟩ => rfl | ⟨1, _⟩ => rfl))
  | ⟨3, _⟩ =>
    rw [concatenate_apply_piece (0 : Fin S5x16384x128.rank) _ _ (ix3 (⟨3, by decide⟩ : Fin 5) r q) 3 (by show (3 : Nat) < 5; omega) S1x16384x128 (ReadP.val_main_v48 (F := Ideal) x0 x1 x2) rfl rfl 3 rfl (ix3 (0 : Fin 1) r q)
      (fun b hb => by match b with | ⟨0, _⟩ => exact absurd rfl hb | ⟨1, _⟩ => rfl | ⟨2, _⟩ => rfl) rfl]
    rw [ReadP.val_main_v48_apply, ← h3 r q]
    exact congrArg _ (funext fun a => Fin.ext (by match a with | ⟨0, _⟩ => rfl | ⟨1, _⟩ => rfl))
  | ⟨4, _⟩ =>
    rw [concatenate_apply_piece (0 : Fin S5x16384x128.rank) _ _ (ix3 (⟨4, by decide⟩ : Fin 5) r q) 4 (by show (4 : Nat) < 5; omega) S1x16384x128 (ReadP.val_main_v49 (F := Ideal) x0 x1 x2) rfl rfl 4 rfl (ix3 (0 : Fin 1) r q)
      (fun b hb => by match b with | ⟨0, _⟩ => exact absurd rfl hb | ⟨1, _⟩ => rfl | ⟨2, _⟩ => rfl) rfl]
    rw [ReadP.val_main_v49_apply, ← h4 r q]
    exact congrArg _ (funext fun a => Fin.ext (by match a with | ⟨0, _⟩ => rfl | ⟨1, _⟩ => rfl))

/-- Node 5 of the DAG is what the reference's fifth layer leaves in its result: the reduce over the five sources of
    `max (dot + bias) 0`, source `k` using edge `10 + k`. -/
theorem layer5 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (h1 : IsNode x0 x1 x2 1 (ReadP.val_main_v8 (F := Ideal) x0 x1 x2)) (h2 : IsNode x0 x1 x2 2 (ReadP.val_main_v19 (F := Ideal) x0 x1 x2)) (h3 : IsNode x0 x1 x2 3 (ReadP.val_main_v31 (F := Ideal) x0 x1 x2)) (h4 : IsNode x0 x1 x2 4 (ReadP.val_main_v44 (F := Ideal) x0 x1 x2)) :
    IsNode x0 x1 x2 5 (ReadP.val_main_v58 (F := Ideal) x0 x1 x2) := by
  intro r o
  rw [node_succ, ReadP.val_main_v58_apply, ReadP.val_main_cst_3_apply, zero_word5, zero_add]
  refine Finset.sum_congr rfl fun k _ => ?_
  have hk : tri 4 + k.val < 66 := by have := k.isLt; unfold tri; omega
  rw [edge_of_lt _ _ _ hk, ReadP.val_main_v57_apply, ReadP.val_main_v56_apply, ReadP.val_main_call4_v0_apply,
    ReadP.val_main_call4_cst_apply, zero_word5]
  show max (_ + _) (0 : EReal) = max (_ + _) 0
  have t4 : tri 4 = 10 := rfl
  have e : ReadP.idx_main_v58 (ix2 r o) k = ix3 k r o :=
    funext fun a => Fin.ext (by match a with | ⟨0, _⟩ => rfl | ⟨1, _⟩ => rfl | ⟨2, _⟩ => rfl)
  rw [e]
  congr 2
  · rw [ReadP.val_main_v53_apply]
    refine Finset.sum_congr rfl fun c _ => ?_
    have el : ReadP.lidx_main_v53 (ix3 k r o) c = ix3 k r c :=
      funext fun a => Fin.ext (by match a with | ⟨0, _⟩ => rfl | ⟨1, _⟩ => rfl | ⟨2, _⟩ => rfl)
    rw [el, stack5 x0 x1 x2 h1 h2 h3 h4, ReadP.val_main_v51_apply]
    refine congrArg (_ * ·) (congrArg x1 (funext fun a => Fin.ext ?_))
    match a with
    | ⟨0, _⟩ => show 10 + k.val = tri 4 + k.val; omega
    | ⟨1, _⟩ => rfl
    | ⟨2, _⟩ => rfl
  · rw [ReadP.val_main_v55_apply, ReadP.val_main_v54_apply, ReadP.val_main_v52_apply]
    refine congrArg x2 (funext fun a => Fin.ext ?_)
    match a with
    | ⟨0, _⟩ => show 10 + k.val = tri 4 + k.val; omega
    | ⟨1, _⟩ => rfl

end Cert.RefDag

end
-- ==== Proof.RefLayer6.lean ====
/-
  Layer 6 of the reference computes node 6 of the DAG.

  The layer stacks the six earlier nodes' arrays along a new leading axis, multiplies source `k` of the stack by
  the weight matrix of edge `15 + k` (the weights' rows 15 to 20), adds that edge's bias, takes the maximum with
  zero, and sums over the sources.  Read at row `r`, column `o`, that is the sum over `k` of edge `15 + k` applied to
  node `k` of row `r`, which is the definition of node 6, since `tri 5 = 15`.
-/
import proofs.«165653_j38268158607515_1_alg».proof.Proof.RefAgree
import Idealize.ShloMosaic.Lib.Pipeline.Value
import Idealize.ShloMosaic.Lib.ValueIdx
import Idealize.ShloMosaic.PureOps.Ideal.Laws

noncomputable section

namespace Cert.RefDag

open Cert.ReferenceIdeal Cert.Dag Idealize.ShloMosaic Idealize.ShloMosaic.ValueIdx

/-- The zero word is the real number zero. -/
theorem zero_word6 : (FloatOps.ofBits (F := Ideal) .f32 0x00000000#32 : EReal) = 0 := Ideal.ofBits_zero_f32

/-- The stack of the six earlier nodes, read at source `k`, row `r`, column `q`: piece `k` of the concatenation is the
    broadcast of node `k`'s array, which holds node `k` of row `r`. -/
theorem stack6 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (h1 : IsNode x0 x1 x2 1 (ReadP.val_main_v8 (F := Ideal) x0 x1 x2)) (h2 : IsNode x0 x1 x2 2 (ReadP.val_main_v19 (F := Ideal) x0 x1 x2)) (h3 : IsNode x0 x1 x2 3 (ReadP.val_main_v31 (F := Ideal) x0 x1 x2)) (h4 : IsNode x0 x1 x2 4 (ReadP.val_main_v44 (F := Ideal) x0 x1 x2)) (h5 : IsNode x0 x1 x2 5 (ReadP.val_main_v58 (F := Ideal) x0 x1 x2))
    (k : Fin 6) (r : Fin 16384) (q : Fin 128) :
    ReadP.val_main_v65 (F := Ideal) x0 x1 x2 (ix3 k r q) = node x1 x2 (fun c => x0 (ix2 r c)) k.val q := by
  unfold ReadP.val_main_v65
  match k with
  | ⟨0, _⟩ =>
    rw [concatenate_apply_piece (0 : Fin S6x16384x128.rank) _ _ (ix3 (⟨0, by decide⟩ : Fin 6) r q) 0 (by show (0 : Nat) < 6; omega) S1x16384x128 (ReadP.val_main_v59 (F := Ideal) x0) rfl rfl 0 rfl (ix3 (0 : Fin 1) r q)
      (fun b hb => by match b with | ⟨0, _⟩ => exact absurd rfl hb | ⟨1, _⟩ => rfl | ⟨2, _⟩ => rfl) rfl]
    rw [ReadP.val_main_v59_apply, node_zero]
    exact congrArg x0 (funext fun a => Fin.ext (by match a with | ⟨0, _⟩ => rfl | ⟨1, _⟩ => rfl))
  | ⟨1, _⟩ =>
    rw [concatenate_apply_piece (0 : Fin S6x16384x128.rank) _ _ (ix3 (⟨1, by decide⟩ : Fin 6) r q) 1 (by show (1 : Nat) < 6; omega) S1x16384x128 (ReadP.val_main_v60 (F := Ideal) x0 x1 x2) rfl rfl 1 rfl (ix3 (0 : Fin 1) r q)
      (fun b hb => by match b with | ⟨0, _⟩ => exact absurd rfl hb | ⟨1, _⟩ => rfl | ⟨2, _⟩ => rfl) rfl]
    rw [ReadP.val_main_v60_apply, ← h1 r q]
    exact congrArg _ (funext fun a => Fin.ext (by match a with | ⟨0, _⟩ => rfl | ⟨1, _⟩ => rfl))
  | ⟨2, _⟩ =>
    rw [concatenate_apply_piece (0 : Fin S6x16384x128.rank) _ _ (ix3 (⟨2, by decide⟩ : Fin 6) r q) 2 (by show (2 : Nat) < 6; omega) S1x16384x128 (ReadP.val_main_v61 (F := Ideal) x0 x1 x2) rfl rfl 2 rfl (ix3 (0 : Fin 1) r q)
      (fun b hb => by match b with | ⟨0, _⟩ => exact absurd rfl hb | ⟨1, _⟩ => rfl | ⟨2, _⟩ => rfl) rfl]
    rw [ReadP.val_main_v61_apply, ← h2 r q]
    exact congrArg _ (funext fun a => Fin.ext (by match a with | ⟨0, _⟩ => rfl | ⟨1, _⟩ => rfl))
  | ⟨3, _⟩ =>
    rw [concatenate_apply_piece (0 : Fin S6x16384x128.rank) _ _ (ix3 (⟨3, by decide⟩ : Fin 6) r q) 3 (by show (3 : Nat) < 6; omega) S1x16384x128 (ReadP.val_main_v62 (F := Ideal) x0 x1 x2) rfl rfl 3 rfl (ix3 (0 : Fin 1) r q)
      (fun b hb => by match b with | ⟨0, _⟩ => exact absurd rfl hb | ⟨1, _⟩ => rfl | ⟨2, _⟩ => rfl) rfl]
    rw [ReadP.val_main_v62_apply, ← h3 r q]
    exact congrArg _ (funext fun a => Fin.ext (by match a with | ⟨0, _⟩ => rfl | ⟨1, _⟩ => rfl))
  | ⟨4, _⟩ =>
    rw [concatenate_apply_piece (0 : Fin S6x16384x128.rank) _ _ (ix3 (⟨4, by decide⟩ : Fin 6) r q) 4 (by show (4 : Nat) < 6; omega) S1x16384x128 (ReadP.val_main_v63 (F := Ideal) x0 x1 x2) rfl rfl 4 rfl (ix3 (0 : Fin 1) r q)
      (fun b hb => by match b with | ⟨0, _⟩ => exact absurd rfl hb | ⟨1, _⟩ => rfl | ⟨2, _⟩ => rfl) rfl]
    rw [ReadP.val_main_v63_apply, ← h4 r q]
    exact congrArg _ (funext fun a => Fin.ext (by match a with | ⟨0, _⟩ => rfl | ⟨1, _⟩ => rfl))
  | ⟨5, _⟩ =>
    rw [concatenate_apply_piece (0 : Fin S6x16384x128.rank) _ _ (ix3 (⟨5, by decide⟩ : Fin 6) r q) 5 (by show (5 : Nat) < 6; omega) S1x16384x128 (ReadP.val_main_v64 (F := Ideal) x0 x1 x2) rfl rfl 5 rfl (ix3 (0 : Fin 1) r q)
      (fun b hb => by match b with | ⟨0, _⟩ => exact absurd rfl hb | ⟨1, _⟩ => rfl | ⟨2, _⟩ => rfl) rfl]
    rw [ReadP.val_main_v64_apply, ← h5 r q]
    exact congrArg _ (funext fun a => Fin.ext (by match a with | ⟨0, _⟩ => rfl | ⟨1, _⟩ => rfl))

/-- Node 6 of the DAG is what the reference's sixth layer leaves in its result: the reduce over the six sources of
    `max (dot + bias) 0`, source `k` using edge `15 + k`. -/
theorem layer6 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (h1 : IsNode x0 x1 x2 1 (ReadP.val_main_v8 (F := Ideal) x0 x1 x2)) (h2 : IsNode x0 x1 x2 2 (ReadP.val_main_v19 (F := Ideal) x0 x1 x2)) (h3 : IsNode x0 x1 x2 3 (ReadP.val_main_v31 (F := Ideal) x0 x1 x2)) (h4 : IsNode x0 x1 x2 4 (ReadP.val_main_v44 (F := Ideal) x0 x1 x2)) (h5 : IsNode x0 x1 x2 5 (ReadP.val_main_v58 (F := Ideal) x0 x1 x2)) :
    IsNode x0 x1 x2 6 (ReadP.val_main_v73 (F := Ideal) x0 x1 x2) := by
  intro r o
  rw [node_succ, ReadP.val_main_v73_apply, ReadP.val_main_cst_4_apply, zero_word6, zero_add]
  refine Finset.sum_congr rfl fun k _ => ?_
  have hk : tri 5 + k.val < 66 := by have := k.isLt; unfold tri; omega
  rw [edge_of_lt _ _ _ hk, ReadP.val_main_v72_apply, ReadP.val_main_v71_apply, ReadP.val_main_call5_v0_apply,
    ReadP.val_main_call5_cst_apply, zero_word6]
  show max (_ + _) (0 : EReal) = max (_ + _) 0
  have t5 : tri 5 = 15 := rfl
  have e : ReadP.idx_main_v73 (ix2 r o) k = ix3 k r o :=
    funext fun a => Fin.ext (by match a with | ⟨0, _⟩ => rfl | ⟨1, _⟩ => rfl | ⟨2, _⟩ => rfl)
  rw [e]
  congr 2
  · rw [ReadP.val_main_v68_apply]
    refine Finset.sum_congr rfl fun c _ => ?_
    have el : ReadP.lidx_main_v68 (ix3 k r o) c = ix3 k r c :=
      funext fun a => Fin.ext (by match a with | ⟨0, _⟩ => rfl | ⟨1, _⟩ => rfl | ⟨2, _⟩ => rfl)
    rw [el, stack6 x0 x1 x2 h1 h2 h3 h4 h5, ReadP.val_main_v66_apply]
    refine congrArg (_ * ·) (congrArg x1 (funext fun a => Fin.ext ?_))
    match a with
    | ⟨0, _⟩ => show 15 + k.val = tri 5 + k.val; omega
    | ⟨1, _⟩ => rfl
    | ⟨2, _⟩ => rfl
  · rw [ReadP.val_main_v70_apply, ReadP.val_main_v69_apply, ReadP.val_main_v67_apply]
    refine congrArg x2 (funext fun a => Fin.ext ?_)
    match a with
    | ⟨0, _⟩ => show 15 + k.val = tri 5 + k.val; omega
    | ⟨1, _⟩ => rfl

end Cert.RefDag

end
-- ==== Proof.RefLayer7.lean ====
/-
  Layer 7 of the reference computes node 7 of the DAG.

  The layer stacks the seven earlier nodes' arrays along a new leading axis, multiplies source `k` of the stack by
  the weight matrix of edge `21 + k` (the weights' rows 21 to 27), adds that edge's bias, takes the maximum with
  zero, and sums over the sources.  Read at row `r`, column `o`, that is the sum over `k` of edge `21 + k` applied to
  node `k` of row `r`, which is the definition of node 7, since `tri 6 = 21`.
-/
import proofs.«165653_j38268158607515_1_alg».proof.Proof.RefAgree
import Idealize.ShloMosaic.Lib.Pipeline.Value
import Idealize.ShloMosaic.Lib.ValueIdx
import Idealize.ShloMosaic.PureOps.Ideal.Laws

noncomputable section

namespace Cert.RefDag

open Cert.ReferenceIdeal Cert.Dag Idealize.ShloMosaic Idealize.ShloMosaic.ValueIdx

/-- The zero word is the real number zero. -/
theorem zero_word7 : (FloatOps.ofBits (F := Ideal) .f32 0x00000000#32 : EReal) = 0 := Ideal.ofBits_zero_f32

/-- The stack of the seven earlier nodes, read at source `k`, row `r`, column `q`: piece `k` of the concatenation is the
    broadcast of node `k`'s array, which holds node `k` of row `r`. -/
theorem stack7 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (h1 : IsNode x0 x1 x2 1 (ReadP.val_main_v8 (F := Ideal) x0 x1 x2)) (h2 : IsNode x0 x1 x2 2 (ReadP.val_main_v19 (F := Ideal) x0 x1 x2)) (h3 : IsNode x0 x1 x2 3 (ReadP.val_main_v31 (F := Ideal) x0 x1 x2)) (h4 : IsNode x0 x1 x2 4 (ReadP.val_main_v44 (F := Ideal) x0 x1 x2)) (h5 : IsNode x0 x1 x2 5 (ReadP.val_main_v58 (F := Ideal) x0 x1 x2)) (h6 : IsNode x0 x1 x2 6 (ReadP.val_main_v73 (F := Ideal) x0 x1 x2))
    (k : Fin 7) (r : Fin 16384) (q : Fin 128) :
    ReadP.val_main_v81 (F := Ideal) x0 x1 x2 (ix3 k r q) = node x1 x2 (fun c => x0 (ix2 r c)) k.val q := by
  unfold ReadP.val_main_v81
  match k with
  | ⟨0, _⟩ =>
    rw [concatenate_apply_piece (0 : Fin S7x16384x128.rank) _ _ (ix3 (⟨0, by decide⟩ : Fin 7) r q) 0 (by show (0 : Nat) < 7; omega) S1x16384x128 (ReadP.val_main_v74 (F := Ideal) x0) rfl rfl 0 rfl (ix3 (0 : Fin 1) r q)
      (fun b hb => by match b with | ⟨0, _⟩ => exact absurd rfl hb | ⟨1, _⟩ => rfl | ⟨2, _⟩ => rfl) rfl]
    rw [ReadP.val_main_v74_apply, node_zero]
    exact congrArg x0 (funext fun a => Fin.ext (by match a with | ⟨0, _⟩ => rfl | ⟨1, _⟩ => rfl))
  | ⟨1, _⟩ =>
    rw [concatenate_apply_piece (0 : Fin S7x16384x128.rank) _ _ (ix3 (⟨1, by decide⟩ : Fin 7) r q) 1 (by show (1 : Nat) < 7; omega) S1x16384x128 (ReadP.val_main_v75 (F := Ideal) x0 x1 x2) rfl rfl 1 rfl (ix3 (0 : Fin 1) r q)
      (fun b hb => by match b with | ⟨0, _⟩ => exact absurd rfl hb | ⟨1, _⟩ => rfl | ⟨2, _⟩ => rfl) rfl]
    rw [ReadP.val_main_v75_apply, ← h1 r q]
    exact congrArg _ (funext fun a => Fin.ext (by match a with | ⟨0, _⟩ => rfl | ⟨1, _⟩ => rfl))
  | ⟨2, _⟩ =>
    rw [concatenate_apply_piece (0 : Fin S7x16384x128.rank) _ _ (ix3 (⟨2, by decide⟩ : Fin 7) r q) 2 (by show (2 : Nat) < 7; omega) S1x16384x128 (ReadP.val_main_v76 (F := Ideal) x0 x1 x2) rfl rfl 2 rfl (ix3 (0 : Fin 1) r q)
      (fun b hb => by match b with | ⟨0, _⟩ => exact absurd rfl hb | ⟨1, _⟩ => rfl | ⟨2, _⟩ => rfl) rfl]
    rw [ReadP.val_main_v76_apply, ← h2 r q]
    exact congrArg _ (funext fun a => Fin.ext (by match a with | ⟨0, _⟩ => rfl | ⟨1, _⟩ => rfl))
  | ⟨3, _⟩ =>
    rw [concatenate_apply_piece (0 : Fin S7x16384x128.rank) _ _ (ix3 (⟨3, by decide⟩ : Fin 7) r q) 3 (by show (3 : Nat) < 7; omega) S1x16384x128 (ReadP.val_main_v77 (F := Ideal) x0 x1 x2) rfl rfl 3 rfl (ix3 (0 : Fin 1) r q)
      (fun b hb => by match b with | ⟨0, _⟩ => exact absurd rfl hb | ⟨1, _⟩ => rfl | ⟨2, _⟩ => rfl) rfl]
    rw [ReadP.val_main_v77_apply, ← h3 r q]
    exact congrArg _ (funext fun a => Fin.ext (by match a with | ⟨0, _⟩ => rfl | ⟨1, _⟩ => rfl))
  | ⟨4, _⟩ =>
    rw [concatenate_apply_piece (0 : Fin S7x16384x128.rank) _ _ (ix3 (⟨4, by decide⟩ : Fin 7) r q) 4 (by show (4 : Nat) < 7; omega) S1x16384x128 (ReadP.val_main_v78 (F := Ideal) x0 x1 x2) rfl rfl 4 rfl (ix3 (0 : Fin 1) r q)
      (fun b hb => by match b with | ⟨0, _⟩ => exact absurd rfl hb | ⟨1, _⟩ => rfl | ⟨2, _⟩ => rfl) rfl]
    rw [ReadP.val_main_v78_apply, ← h4 r q]
    exact congrArg _ (funext fun a => Fin.ext (by match a with | ⟨0, _⟩ => rfl | ⟨1, _⟩ => rfl))
  | ⟨5, _⟩ =>
    rw [concatenate_apply_piece (0 : Fin S7x16384x128.rank) _ _ (ix3 (⟨5, by decide⟩ : Fin 7) r q) 5 (by show (5 : Nat) < 7; omega) S1x16384x128 (ReadP.val_main_v79 (F := Ideal) x0 x1 x2) rfl rfl 5 rfl (ix3 (0 : Fin 1) r q)
      (fun b hb => by match b with | ⟨0, _⟩ => exact absurd rfl hb | ⟨1, _⟩ => rfl | ⟨2, _⟩ => rfl) rfl]
    rw [ReadP.val_main_v79_apply, ← h5 r q]
    exact congrArg _ (funext fun a => Fin.ext (by match a with | ⟨0, _⟩ => rfl | ⟨1, _⟩ => rfl))
  | ⟨6, _⟩ =>
    rw [concatenate_apply_piece (0 : Fin S7x16384x128.rank) _ _ (ix3 (⟨6, by decide⟩ : Fin 7) r q) 6 (by show (6 : Nat) < 7; omega) S1x16384x128 (ReadP.val_main_v80 (F := Ideal) x0 x1 x2) rfl rfl 6 rfl (ix3 (0 : Fin 1) r q)
      (fun b hb => by match b with | ⟨0, _⟩ => exact absurd rfl hb | ⟨1, _⟩ => rfl | ⟨2, _⟩ => rfl) rfl]
    rw [ReadP.val_main_v80_apply, ← h6 r q]
    exact congrArg _ (funext fun a => Fin.ext (by match a with | ⟨0, _⟩ => rfl | ⟨1, _⟩ => rfl))

/-- Node 7 of the DAG is what the reference's seventh layer leaves in its result: the reduce over the seven sources of
    `max (dot + bias) 0`, source `k` using edge `21 + k`. -/
theorem layer7 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (h1 : IsNode x0 x1 x2 1 (ReadP.val_main_v8 (F := Ideal) x0 x1 x2)) (h2 : IsNode x0 x1 x2 2 (ReadP.val_main_v19 (F := Ideal) x0 x1 x2)) (h3 : IsNode x0 x1 x2 3 (ReadP.val_main_v31 (F := Ideal) x0 x1 x2)) (h4 : IsNode x0 x1 x2 4 (ReadP.val_main_v44 (F := Ideal) x0 x1 x2)) (h5 : IsNode x0 x1 x2 5 (ReadP.val_main_v58 (F := Ideal) x0 x1 x2)) (h6 : IsNode x0 x1 x2 6 (ReadP.val_main_v73 (F := Ideal) x0 x1 x2)) :
    IsNode x0 x1 x2 7 (ReadP.val_main_v89 (F := Ideal) x0 x1 x2) := by
  intro r o
  rw [node_succ, ReadP.val_main_v89_apply, ReadP.val_main_cst_5_apply, zero_word7, zero_add]
  refine Finset.sum_congr rfl fun k _ => ?_
  have hk : tri 6 + k.val < 66 := by have := k.isLt; unfold tri; omega
  rw [edge_of_lt _ _ _ hk, ReadP.val_main_v88_apply, ReadP.val_main_v87_apply, ReadP.val_main_call6_v0_apply,
    ReadP.val_main_call6_cst_apply, zero_word7]
  show max (_ + _) (0 : EReal) = max (_ + _) 0
  have t6 : tri 6 = 21 := rfl
  have e : ReadP.idx_main_v89 (ix2 r o) k = ix3 k r o :=
    funext fun a => Fin.ext (by match a with | ⟨0, _⟩ => rfl | ⟨1, _⟩ => rfl | ⟨2, _⟩ => rfl)
  rw [e]
  congr 2
  · rw [ReadP.val_main_v84_apply]
    refine Finset.sum_congr rfl fun c _ => ?_
    have el : ReadP.lidx_main_v84 (ix3 k r o) c = ix3 k r c :=
      funext fun a => Fin.ext (by match a with | ⟨0, _⟩ => rfl | ⟨1, _⟩ => rfl | ⟨2, _⟩ => rfl)
    rw [el, stack7 x0 x1 x2 h1 h2 h3 h4 h5 h6, ReadP.val_main_v82_apply]
    refine congrArg (_ * ·) (congrArg x1 (funext fun a => Fin.ext ?_))
    match a with
    | ⟨0, _⟩ => show 21 + k.val = tri 6 + k.val; omega
    | ⟨1, _⟩ => rfl
    | ⟨2, _⟩ => rfl
  · rw [ReadP.val_main_v86_apply, ReadP.val_main_v85_apply, ReadP.val_main_v83_apply]
    refine congrArg x2 (funext fun a => Fin.ext ?_)
    match a with
    | ⟨0, _⟩ => show 21 + k.val = tri 6 + k.val; omega
    | ⟨1, _⟩ => rfl

end Cert.RefDag

end
-- ==== Proof.RefLayer8.lean ====
/-
  Layer 8 of the reference computes node 8 of the DAG.

  The layer stacks the eight earlier nodes' arrays along a new leading axis, multiplies source `k` of the stack by
  the weight matrix of edge `28 + k` (the weights' rows 28 to 35), adds that edge's bias, takes the maximum with
  zero, and sums over the sources.  Read at row `r`, column `o`, that is the sum over `k` of edge `28 + k` applied to
  node `k` of row `r`, which is the definition of node 8, since `tri 7 = 28`.
-/
import proofs.«165653_j38268158607515_1_alg».proof.Proof.RefAgree
import Idealize.ShloMosaic.Lib.Pipeline.Value
import Idealize.ShloMosaic.Lib.ValueIdx
import Idealize.ShloMosaic.PureOps.Ideal.Laws

noncomputable section

namespace Cert.RefDag

open Cert.ReferenceIdeal Cert.Dag Idealize.ShloMosaic Idealize.ShloMosaic.ValueIdx

/-- The zero word is the real number zero. -/
theorem zero_word8 : (FloatOps.ofBits (F := Ideal) .f32 0x00000000#32 : EReal) = 0 := Ideal.ofBits_zero_f32

/-- The stack of the eight earlier nodes, read at source `k`, row `r`, column `q`: piece `k` of the concatenation is the
    broadcast of node `k`'s array, which holds node `k` of row `r`. -/
theorem stack8 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (h1 : IsNode x0 x1 x2 1 (ReadP.val_main_v8 (F := Ideal) x0 x1 x2)) (h2 : IsNode x0 x1 x2 2 (ReadP.val_main_v19 (F := Ideal) x0 x1 x2)) (h3 : IsNode x0 x1 x2 3 (ReadP.val_main_v31 (F := Ideal) x0 x1 x2)) (h4 : IsNode x0 x1 x2 4 (ReadP.val_main_v44 (F := Ideal) x0 x1 x2)) (h5 : IsNode x0 x1 x2 5 (ReadP.val_main_v58 (F := Ideal) x0 x1 x2)) (h6 : IsNode x0 x1 x2 6 (ReadP.val_main_v73 (F := Ideal) x0 x1 x2)) (h7 : IsNode x0 x1 x2 7 (ReadP.val_main_v89 (F := Ideal) x0 x1 x2))
    (k : Fin 8) (r : Fin 16384) (q : Fin 128) :
    ReadP.val_main_v98 (F := Ideal) x0 x1 x2 (ix3 k r q) = node x1 x2 (fun c => x0 (ix2 r c)) k.val q := by
  unfold ReadP.val_main_v98
  match k with
  | ⟨0, _⟩ =>
    rw [concatenate_apply_piece (0 : Fin S8x16384x128.rank) _ _ (ix3 (⟨0, by decide⟩ : Fin 8) r q) 0 (by show (0 : Nat) < 8; omega) S1x16384x128 (ReadP.val_main_v90 (F := Ideal) x0) rfl rfl 0 rfl (ix3 (0 : Fin 1) r q)
      (fun b hb => by match b with | ⟨0, _⟩ => exact absurd rfl hb | ⟨1, _⟩ => rfl | ⟨2, _⟩ => rfl) rfl]
    rw [ReadP.val_main_v90_apply, node_zero]
    exact congrArg x0 (funext fun a => Fin.ext (by match a with | ⟨0, _⟩ => rfl | ⟨1, _⟩ => rfl))
  | ⟨1, _⟩ =>
    rw [concatenate_apply_piece (0 : Fin S8x16384x128.rank) _ _ (ix3 (⟨1, by decide⟩ : Fin 8) r q) 1 (by show (1 : Nat) < 8; omega) S1x16384x128 (ReadP.val_main_v91 (F := Ideal) x0 x1 x2) rfl rfl 1 rfl (ix3 (0 : Fin 1) r q)
      (fun b hb => by match b with | ⟨0, _⟩ => exact absurd rfl hb | ⟨1, _⟩ => rfl | ⟨2, _⟩ => rfl) rfl]
    rw [ReadP.val_main_v91_apply, ← h1 r q]
    exact congrArg _ (funext fun a => Fin.ext (by match a with | ⟨0, _⟩ => rfl | ⟨1, _⟩ => rfl))
  | ⟨2, _⟩ =>
    rw [concatenate_apply_piece (0 : Fin S8x16384x128.rank) _ _ (ix3 (⟨2, by decide⟩ : Fin 8) r q) 2 (by show (2 : Nat) < 8; omega) S1x16384x128 (ReadP.val_main_v92 (F := Ideal) x0 x1 x2) rfl rfl 2 rfl (ix3 (0 : Fin 1) r q)
      (fun b hb => by match b with | ⟨0, _⟩ => exact absurd rfl hb | ⟨1, _⟩ => rfl | ⟨2, _⟩ => rfl) rfl]
    rw [ReadP.val_main_v92_apply, ← h2 r q]
    exact congrArg _ (funext fun a => Fin.ext (by match a with | ⟨0, _⟩ => rfl | ⟨1, _⟩ => rfl))
  | ⟨3, _⟩ =>
    rw [concatenate_apply_piece (0 : Fin S8x16384x128.rank) _ _ (ix3 (⟨3, by decide⟩ : Fin 8) r q) 3 (by show (3 : Nat) < 8; omega) S1x16384x128 (ReadP.val_main_v93 (F := Ideal) x0 x1 x2) rfl rfl 3 rfl (ix3 (0 : Fin 1) r q)
      (fun b hb => by match b with | ⟨0, _⟩ => exact absurd rfl hb | ⟨1, _⟩ => rfl | ⟨2, _⟩ => rfl) rfl]
    rw [ReadP.val_main_v93_apply, ← h3 r q]
    exact congrArg _ (funext fun a => Fin.ext (by match a with | ⟨0, _⟩ => rfl | ⟨1, _⟩ => rfl))
  | ⟨4, _⟩ =>
    rw [concatenate_apply_piece (0 : Fin S8x16384x128.rank) _ _ (ix3 (⟨4, by decide⟩ : Fin 8) r q) 4 (by show (4 : Nat) < 8; omega) S1x16384x128 (ReadP.val_main_v94 (F := Ideal) x0 x1 x2) rfl rfl 4 rfl (ix3 (0 : Fin 1) r q)
      (fun b hb => by match b with | ⟨0, _⟩ => exact absurd rfl hb | ⟨1, _⟩ => rfl | ⟨2, _⟩ => rfl) rfl]
    rw [ReadP.val_main_v94_apply, ← h4 r q]
    exact congrArg _ (funext fun a => Fin.ext (by match a with | ⟨0, _⟩ => rfl | ⟨1, _⟩ => rfl))
  | ⟨5, _⟩ =>
    rw [concatenate_apply_piece (0 : Fin S8x16384x128.rank) _ _ (ix3 (⟨5, by decide⟩ : Fin 8) r q) 5 (by show (5 : Nat) < 8; omega) S1x16384x128 (ReadP.val_main_v95 (F := Ideal) x0 x1 x2) rfl rfl 5 rfl (ix3 (0 : Fin 1) r q)
      (fun b hb => by match b with | ⟨0, _⟩ => exact absurd rfl hb | ⟨1, _⟩ => rfl | ⟨2, _⟩ => rfl) rfl]
    rw [ReadP.val_main_v95_apply, ← h5 r q]
    exact congrArg _ (funext fun a => Fin.ext (by match a with | ⟨0, _⟩ => rfl | ⟨1, _⟩ => rfl))
  | ⟨6, _⟩ =>
    rw [concatenate_apply_piece (0 : Fin S8x16384x128.rank) _ _ (ix3 (⟨6, by decide⟩ : Fin 8) r q) 6 (by show (6 : Nat) < 8; omega) S1x16384x128 (ReadP.val_main_v96 (F := Ideal) x0 x1 x2) rfl rfl 6 rfl (ix3 (0 : Fin 1) r q)
      (fun b hb => by match b with | ⟨0, _⟩ => exact absurd rfl hb | ⟨1, _⟩ => rfl | ⟨2, _⟩ => rfl) rfl]
    rw [ReadP.val_main_v96_apply, ← h6 r q]
    exact congrArg _ (funext fun a => Fin.ext (by match a with | ⟨0, _⟩ => rfl | ⟨1, _⟩ => rfl))
  | ⟨7, _⟩ =>
    rw [concatenate_apply_piece (0 : Fin S8x16384x128.rank) _ _ (ix3 (⟨7, by decide⟩ : Fin 8) r q) 7 (by show (7 : Nat) < 8; omega) S1x16384x128 (ReadP.val_main_v97 (F := Ideal) x0 x1 x2) rfl rfl 7 rfl (ix3 (0 : Fin 1) r q)
      (fun b hb => by match b with | ⟨0, _⟩ => exact absurd rfl hb | ⟨1, _⟩ => rfl | ⟨2, _⟩ => rfl) rfl]
    rw [ReadP.val_main_v97_apply, ← h7 r q]
    exact congrArg _ (funext fun a => Fin.ext (by match a with | ⟨0, _⟩ => rfl | ⟨1, _⟩ => rfl))

/-- Node 8 of the DAG is what the reference's eighth layer leaves in its result: the reduce over the eight sources of
    `max (dot + bias) 0`, source `k` using edge `28 + k`. -/
theorem layer8 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (h1 : IsNode x0 x1 x2 1 (ReadP.val_main_v8 (F := Ideal) x0 x1 x2)) (h2 : IsNode x0 x1 x2 2 (ReadP.val_main_v19 (F := Ideal) x0 x1 x2)) (h3 : IsNode x0 x1 x2 3 (ReadP.val_main_v31 (F := Ideal) x0 x1 x2)) (h4 : IsNode x0 x1 x2 4 (ReadP.val_main_v44 (F := Ideal) x0 x1 x2)) (h5 : IsNode x0 x1 x2 5 (ReadP.val_main_v58 (F := Ideal) x0 x1 x2)) (h6 : IsNode x0 x1 x2 6 (ReadP.val_main_v73 (F := Ideal) x0 x1 x2)) (h7 : IsNode x0 x1 x2 7 (ReadP.val_main_v89 (F := Ideal) x0 x1 x2)) :
    IsNode x0 x1 x2 8 (ReadP.val_main_v106 (F := Ideal) x0 x1 x2) := by
  intro r o
  rw [node_succ, ReadP.val_main_v106_apply, ReadP.val_main_cst_6_apply, zero_word8, zero_add]
  refine Finset.sum_congr rfl fun k _ => ?_
  have hk : tri 7 + k.val < 66 := by have := k.isLt; unfold tri; omega
  rw [edge_of_lt _ _ _ hk, ReadP.val_main_v105_apply, ReadP.val_main_v104_apply, ReadP.val_main_call7_v0_apply,
    ReadP.val_main_call7_cst_apply, zero_word8]
  show max (_ + _) (0 : EReal) = max (_ + _) 0
  have t7 : tri 7 = 28 := rfl
  have e : ReadP.idx_main_v106 (ix2 r o) k = ix3 k r o :=
    funext fun a => Fin.ext (by match a with | ⟨0, _⟩ => rfl | ⟨1, _⟩ => rfl | ⟨2, _⟩ => rfl)
  rw [e]
  congr 2
  · rw [ReadP.val_main_v101_apply]
    refine Finset.sum_congr rfl fun c _ => ?_
    have el : ReadP.lidx_main_v101 (ix3 k r o) c = ix3 k r c :=
      funext fun a => Fin.ext (by match a with | ⟨0, _⟩ => rfl | ⟨1, _⟩ => rfl | ⟨2, _⟩ => rfl)
    rw [el, stack8 x0 x1 x2 h1 h2 h3 h4 h5 h6 h7, ReadP.val_main_v99_apply]
    refine congrArg (_ * ·) (congrArg x1 (funext fun a => Fin.ext ?_))
    match a with
    | ⟨0, _⟩ => show 28 + k.val = tri 7 + k.val; omega
    | ⟨1, _⟩ => rfl
    | ⟨2, _⟩ => rfl
  · rw [ReadP.val_main_v103_apply, ReadP.val_main_v102_apply, ReadP.val_main_v100_apply]
    refine congrArg x2 (funext fun a => Fin.ext ?_)
    match a with
    | ⟨0, _⟩ => show 28 + k.val = tri 7 + k.val; omega
    | ⟨1, _⟩ => rfl

end Cert.RefDag

end
-- ==== Proof.RefLayer9.lean ====
/-
  Node 9 of the DAG in the reference: the stage that stacks the 9 earlier nodes, applies edge 36 + k to the
  k-th of them (a product with the k-th weight matrix of the slice, plus the bias row, clamped below at 0), and sums
  the 9 results, is node 9 whenever the earlier stages are nodes 1 to 8.
-/
import proofs.«165653_j38268158607515_1_alg».proof.Proof.RefAgree
import Idealize.ShloMosaic.Lib.Pipeline.Value
import Idealize.ShloMosaic.Lib.ValueIdx
import Idealize.ShloMosaic.PureOps.Ideal.Laws

noncomputable section

namespace Cert.RefDag

open Cert.ReferenceIdeal Cert.Dag Idealize.ShloMosaic Idealize.ShloMosaic.ValueIdx

/-- Slab 0 of the stack is the input: at (0, r, q) the stack reads it at (r, q). -/
theorem src9_0 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v116 (F := Ideal) x0 x1 x2 (ix3 (⟨0, by decide⟩ : Fin 9) r q) = x0 (ix2 r q) := by
  unfold ReadP.val_main_v116
  refine Eq.trans (concatenate_apply_piece (0 : Fin S9x16384x128.rank) _ _ _ 0 (by exact (by decide : 0 < 9)) S1x16384x128
    (ReadP.val_main_v107 (F := Ideal) x0) (by rfl) (by rfl) 0 (by rfl) (ix3 (0 : Fin 1) r q)
    (fun b hb => by match b with | ⟨0, _⟩ => exact absurd rfl hb | ⟨1, _⟩ => rfl | ⟨2, _⟩ => rfl) (by rfl)) ?_
  rw [ReadP.val_main_v107_apply]
  exact congrArg _ (funext fun a => Fin.ext (by match a with | ⟨0, _⟩ => rfl | ⟨1, _⟩ => rfl))

/-- Slab 1 of the stack is the stage holding node 1: at (1, r, q) the stack reads it at (r, q). -/
theorem src9_1 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v116 (F := Ideal) x0 x1 x2 (ix3 (⟨1, by decide⟩ : Fin 9) r q) = ReadP.val_main_v8 (F := Ideal) x0 x1 x2 (ix2 r q) := by
  unfold ReadP.val_main_v116
  refine Eq.trans (concatenate_apply_piece (0 : Fin S9x16384x128.rank) _ _ _ 1 (by exact (by decide : 1 < 9)) S1x16384x128
    (ReadP.val_main_v108 (F := Ideal) x0 x1 x2) (by rfl) (by rfl) 1 (by rfl) (ix3 (0 : Fin 1) r q)
    (fun b hb => by match b with | ⟨0, _⟩ => exact absurd rfl hb | ⟨1, _⟩ => rfl | ⟨2, _⟩ => rfl) (by rfl)) ?_
  rw [ReadP.val_main_v108_apply]
  exact congrArg _ (funext fun a => Fin.ext (by match a with | ⟨0, _⟩ => rfl | ⟨1, _⟩ => rfl))

/-- Slab 2 of the stack is the stage holding node 2: at (2, r, q) the stack reads it at (r, q). -/
theorem src9_2 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v116 (F := Ideal) x0 x1 x2 (ix3 (⟨2, by decide⟩ : Fin 9) r q) = ReadP.val_main_v19 (F := Ideal) x0 x1 x2 (ix2 r q) := by
  unfold ReadP.val_main_v116
  refine Eq.trans (concatenate_apply_piece (0 : Fin S9x16384x128.rank) _ _ _ 2 (by exact (by decide : 2 < 9)) S1x16384x128
    (ReadP.val_main_v109 (F := Ideal) x0 x1 x2) (by rfl) (by rfl) 2 (by rfl) (ix3 (0 : Fin 1) r q)
    (fun b hb => by match b with | ⟨0, _⟩ => exact absurd rfl hb | ⟨1, _⟩ => rfl | ⟨2, _⟩ => rfl) (by rfl)) ?_
  rw [ReadP.val_main_v109_apply]
  exact congrArg _ (funext fun a => Fin.ext (by match a with | ⟨0, _⟩ => rfl | ⟨1, _⟩ => rfl))

/-- Slab 3 of the stack is the stage holding node 3: at (3, r, q) the stack reads it at (r, q). -/
theorem src9_3 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v116 (F := Ideal) x0 x1 x2 (ix3 (⟨3, by decide⟩ : Fin 9) r q) = ReadP.val_main_v31 (F := Ideal) x0 x1 x2 (ix2 r q) := by
  unfold ReadP.val_main_v116
  refine Eq.trans (concatenate_apply_piece (0 : Fin S9x16384x128.rank) _ _ _ 3 (by exact (by decide : 3 < 9)) S1x16384x128
    (ReadP.val_main_v110 (F := Ideal) x0 x1 x2) (by rfl) (by rfl) 3 (by rfl) (ix3 (0 : Fin 1) r q)
    (fun b hb => by match b with | ⟨0, _⟩ => exact absurd rfl hb | ⟨1, _⟩ => rfl | ⟨2, _⟩ => rfl) (by rfl)) ?_
  rw [ReadP.val_main_v110_apply]
  exact congrArg _ (funext fun a => Fin.ext (by match a with | ⟨0, _⟩ => rfl | ⟨1, _⟩ => rfl))

/-- Slab 4 of the stack is the stage holding node 4: at (4, r, q) the stack reads it at (r, q). -/
theorem src9_4 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v116 (F := Ideal) x0 x1 x2 (ix3 (⟨4, by decide⟩ : Fin 9) r q) = ReadP.val_main_v44 (F := Ideal) x0 x1 x2 (ix2 r q) := by
  unfold ReadP.val_main_v116
  refine Eq.trans (concatenate_apply_piece (0 : Fin S9x16384x128.rank) _ _ _ 4 (by exact (by decide : 4 < 9)) S1x16384x128
    (ReadP.val_main_v111 (F := Ideal) x0 x1 x2) (by rfl) (by rfl) 4 (by rfl) (ix3 (0 : Fin 1) r q)
    (fun b hb => by match b with | ⟨0, _⟩ => exact absurd rfl hb | ⟨1, _⟩ => rfl | ⟨2, _⟩ => rfl) (by rfl)) ?_
  rw [ReadP.val_main_v111_apply]
  exact congrArg _ (funext fun a => Fin.ext (by match a with | ⟨0, _⟩ => rfl | ⟨1, _⟩ => rfl))

/-- Slab 5 of the stack is the stage holding node 5: at (5, r, q) the stack reads it at (r, q). -/
theorem src9_5 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v116 (F := Ideal) x0 x1 x2 (ix3 (⟨5, by decide⟩ : Fin 9) r q) = ReadP.val_main_v58 (F := Ideal) x0 x1 x2 (ix2 r q) := by
  unfold ReadP.val_main_v116
  refine Eq.trans (concatenate_apply_piece (0 : Fin S9x16384x128.rank) _ _ _ 5 (by exact (by decide : 5 < 9)) S1x16384x128
    (ReadP.val_main_v112 (F := Ideal) x0 x1 x2) (by rfl) (by rfl) 5 (by rfl) (ix3 (0 : Fin 1) r q)
    (fun b hb => by match b with | ⟨0, _⟩ => exact absurd rfl hb | ⟨1, _⟩ => rfl | ⟨2, _⟩ => rfl) (by rfl)) ?_
  rw [ReadP.val_main_v112_apply]
  exact congrArg _ (funext fun a => Fin.ext (by match a with | ⟨0, _⟩ => rfl | ⟨1, _⟩ => rfl))

/-- Slab 6 of the stack is the stage holding node 6: at (6, r, q) the stack reads it at (r, q). -/
theorem src9_6 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v116 (F := Ideal) x0 x1 x2 (ix3 (⟨6, by decide⟩ : Fin 9) r q) = ReadP.val_main_v73 (F := Ideal) x0 x1 x2 (ix2 r q) := by
  unfold ReadP.val_main_v116
  refine Eq.trans (concatenate_apply_piece (0 : Fin S9x16384x128.rank) _ _ _ 6 (by exact (by decide : 6 < 9)) S1x16384x128
    (ReadP.val_main_v113 (F := Ideal) x0 x1 x2) (by rfl) (by rfl) 6 (by rfl) (ix3 (0 : Fin 1) r q)
    (fun b hb => by match b with | ⟨0, _⟩ => exact absurd rfl hb | ⟨1, _⟩ => rfl | ⟨2, _⟩ => rfl) (by rfl)) ?_
  rw [ReadP.val_main_v113_apply]
  exact congrArg _ (funext fun a => Fin.ext (by match a with | ⟨0, _⟩ => rfl | ⟨1, _⟩ => rfl))

/-- Slab 7 of the stack is the stage holding node 7: at (7, r, q) the stack reads it at (r, q). -/
theorem src9_7 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v116 (F := Ideal) x0 x1 x2 (ix3 (⟨7, by decide⟩ : Fin 9) r q) = ReadP.val_main_v89 (F := Ideal) x0 x1 x2 (ix2 r q) := by
  unfold ReadP.val_main_v116
  refine Eq.trans (concatenate_apply_piece (0 : Fin S9x16384x128.rank) _ _ _ 7 (by exact (by decide : 7 < 9)) S1x16384x128
    (ReadP.val_main_v114 (F := Ideal) x0 x1 x2) (by rfl) (by rfl) 7 (by rfl) (ix3 (0 : Fin 1) r q)
    (fun b hb => by match b with | ⟨0, _⟩ => exact absurd rfl hb | ⟨1, _⟩ => rfl | ⟨2, _⟩ => rfl) (by rfl)) ?_
  rw [ReadP.val_main_v114_apply]
  exact congrArg _ (funext fun a => Fin.ext (by match a with | ⟨0, _⟩ => rfl | ⟨1, _⟩ => rfl))

/-- Slab 8 of the stack is the stage holding node 8: at (8, r, q) the stack reads it at (r, q). -/
theorem src9_8 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v116 (F := Ideal) x0 x1 x2 (ix3 (⟨8, by decide⟩ : Fin 9) r q) = ReadP.val_main_v106 (F := Ideal) x0 x1 x2 (ix2 r q) := by
  unfold ReadP.val_main_v116
  refine Eq.trans (concatenate_apply_piece (0 : Fin S9x16384x128.rank) _ _ _ 8 (by exact (by decide : 8 < 9)) S1x16384x128
    (ReadP.val_main_v115 (F := Ideal) x0 x1 x2) (by rfl) (by rfl) 8 (by rfl) (ix3 (0 : Fin 1) r q)
    (fun b hb => by match b with | ⟨0, _⟩ => exact absurd rfl hb | ⟨1, _⟩ => rfl | ⟨2, _⟩ => rfl) (by rfl)) ?_
  rw [ReadP.val_main_v115_apply]
  exact congrArg _ (funext fun a => Fin.ext (by match a with | ⟨0, _⟩ => rfl | ⟨1, _⟩ => rfl))

/-- Slab k after the clamp, at (k, r, o): the row of slab k of the stack times weight matrix e = 36 + k, plus
    bias row e, clamped below at 0. -/
theorem relu9 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (k : Fin 9) (e : ℕ) (he : e < 66) (hek : e = 36 + k.val) (r : Fin 16384) (o : Fin 128) :
    ReadP.val_main_v123 (F := Ideal) x0 x1 x2 (ix3 k r o) =
      max ((∑ q : Fin 128, ReadP.val_main_v116 (F := Ideal) x0 x1 x2 (ix3 k r q) * x1 (ix3 ⟨e, he⟩ q o)) + x2 (ix2 ⟨e, he⟩ o)) 0 := by
  subst hek
  rw [ReadP.val_main_v123_apply, ReadP.val_main_v122_apply, ReadP.val_main_call8_v0_apply, ReadP.val_main_call8_cst_apply,
    ReadP.val_main_v119_apply, ReadP.val_main_v121_apply, ReadP.val_main_v120_apply, ReadP.val_main_v118_apply]
  show max ((∑ q : Fin 128, _) + _) (Ideal.ofBits .f32 0x00000000#32) = _
  rw [Ideal.ofBits_zero_f32]
  refine congrArg₂ max (congrArg₂ (· + ·) (Finset.sum_congr rfl fun q _ => ?_) ?_) rfl
  · rw [ReadP.val_main_v117_apply]
    refine congrArg₂ (· * ·) (congrArg _ (funext fun a => Fin.ext (by match a with | ⟨0, _⟩ => rfl | ⟨1, _⟩ => rfl | ⟨2, _⟩ => rfl)))
      (congrArg x1 (funext fun a => Fin.ext (by match a with | ⟨0, _⟩ => rfl | ⟨1, _⟩ => rfl | ⟨2, _⟩ => rfl)))
  · exact congrArg x2 (funext fun a => Fin.ext (by match a with | ⟨0, _⟩ => rfl | ⟨1, _⟩ => rfl))

/-- The stage that sums the 9 clamped slabs is node 9. -/
theorem layer9 (x0 : (⟨S16384x128, .f32⟩ : BufTy).Contents (Elt Ideal)) (x1 : (⟨S66x128x128, .f32⟩ : BufTy).Contents (Elt Ideal)) (x2 : (⟨S66x128, .f32⟩ : BufTy).Contents (Elt Ideal)) (h1 : IsNode x0 x1 x2 1 (ReadP.val_main_v8 (F := Ideal) x0 x1 x2)) (h2 : IsNode x0 x1 x2 2 (ReadP.val_main_v19 (F := Ideal) x0 x1 x2)) (h3 : IsNode x0 x1 x2 3 (ReadP.val_main_v31 (F := Ideal) x0 x1 x2)) (h4 : IsNode x0 x1 x2 4 (ReadP.val_main_v44 (F := Ideal) x0 x1 x2)) (h5 : IsNode x0 x1 x2 5 (ReadP.val_main_v58 (F := Ideal) x0 x1 x2)) (h6 : IsNode x0 x1 x2 6 (ReadP.val_main_v73 (F := Ideal) x0 x1 x2)) (h7 : IsNode x0 x1 x2 7 (ReadP.val_main_v89 (F := Ideal) x0 x1 x2)) (h8 : IsNode x0 x1 x2 8 (ReadP.val_main_v106 (F := Ideal) x0 x1 x2)) : IsNode x0 x1 x2 9 (ReadP.val_main_v124 (F := Ideal) x0 x1 x2) := by
  intro r o
  rw [node_succ, ReadP.val_main_v124_apply, ReadP.val_main_cst_7_apply]
  show Ideal.ofBits .f32 0x00000000#32 + _ = _
  rw [Ideal.ofBits_zero_f32, zero_add]
  refine Finset.sum_congr rfl fun k _ => ?_
  have ht : tri 8 = 36 := by decide
  have he : tri 8 + k.val < 66 := by have := k.isLt; omega
  rw [edge_of_lt _ _ _ he,
    show ReadP.idx_main_v124 (ix2 r o) k = ix3 k r o from
      funext fun a => Fin.ext (by match a with | ⟨0, _⟩ => rfl | ⟨1, _⟩ => rfl | ⟨2, _⟩ => rfl),
    relu9 x0 x1 x2 k (tri 8 + k.val) he (by rw [ht]) r o]
  refine congrArg₂ max (congrArg₂ (· + ·) (Finset.sum_congr rfl fun q _ => congrArg₂ (· * ·) ?_ rfl) rfl) rfl
  match k with
  | ⟨0, _⟩ => rw [src9_0, node_zero]
  | ⟨1, _⟩ => rw [src9_1]; exact h1 r q
  | ⟨2, _⟩ => rw [src9_2]; exact h2 r q
  | ⟨3, _⟩ => rw [src9_3]; exact h3 r q
  | ⟨4, _⟩ => rw [src9_4]; exact h4 r q
  | ⟨5, _⟩ => rw [src9_5]; exact h5 r q
  | ⟨6, _⟩ => rw [src9_6]; exact h6 r q
  | ⟨7, _⟩ => rw [src9_7]; exact h7 r q
  | ⟨8, _⟩ => rw [src9_8]; exact h8 r q

end Cert.RefDag

end
-- ==== Proof.RefLayer10.lean ====
/-
  Node 10 of the DAG in the reference: the stage that stacks the 10 earlier nodes, applies edge 45 + k to the
  k-th of them (a product with the k-th weight matrix of the slice, plus the bias row, clamped below at 0), and sums
  the 10 results, is node 10 whenever the earlier stages are nodes 1 to 9.
-/
import proofs.«165653_j38268158607515_1_alg».proof.Proof.RefAgree
import Idealize.ShloMosaic.Lib.Pipeline.Value
import Idealize.ShloMosaic.Lib.ValueIdx
import Idealize.ShloMosaic.PureOps.Ideal.Laws

noncomputable section

namespace Cert.RefDag

open Cert.ReferenceIdeal Cert.Dag Idealize.ShloMosaic Idealize.ShloMosaic.ValueIdx

/-- Slab 0 of the stack is the input: at (0, r, q) the stack reads it at (r, q). -/
theorem src10_0 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v135 (F := Ideal) x0 x1 x2 (ix3 (⟨0, by decide⟩ : Fin 10) r q) = x0 (ix2 r q) := by
  unfold ReadP.val_main_v135
  refine Eq.trans (concatenate_apply_piece (0 : Fin S10x16384x128.rank) _ _ _ 0 (by exact (by decide : 0 < 10)) S1x16384x128
    (ReadP.val_main_v125 (F := Ideal) x0) (by rfl) (by rfl) 0 (by rfl) (ix3 (0 : Fin 1) r q)
    (fun b hb => by match b with | ⟨0, _⟩ => exact absurd rfl hb | ⟨1, _⟩ => rfl | ⟨2, _⟩ => rfl) (by rfl)) ?_
  rw [ReadP.val_main_v125_apply]
  exact congrArg _ (funext fun a => Fin.ext (by match a with | ⟨0, _⟩ => rfl | ⟨1, _⟩ => rfl))

/-- Slab 1 of the stack is the stage holding node 1: at (1, r, q) the stack reads it at (r, q). -/
theorem src10_1 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v135 (F := Ideal) x0 x1 x2 (ix3 (⟨1, by decide⟩ : Fin 10) r q) = ReadP.val_main_v8 (F := Ideal) x0 x1 x2 (ix2 r q) := by
  unfold ReadP.val_main_v135
  refine Eq.trans (concatenate_apply_piece (0 : Fin S10x16384x128.rank) _ _ _ 1 (by exact (by decide : 1 < 10)) S1x16384x128
    (ReadP.val_main_v126 (F := Ideal) x0 x1 x2) (by rfl) (by rfl) 1 (by rfl) (ix3 (0 : Fin 1) r q)
    (fun b hb => by match b with | ⟨0, _⟩ => exact absurd rfl hb | ⟨1, _⟩ => rfl | ⟨2, _⟩ => rfl) (by rfl)) ?_
  rw [ReadP.val_main_v126_apply]
  exact congrArg _ (funext fun a => Fin.ext (by match a with | ⟨0, _⟩ => rfl | ⟨1, _⟩ => rfl))

/-- Slab 2 of the stack is the stage holding node 2: at (2, r, q) the stack reads it at (r, q). -/
theorem src10_2 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v135 (F := Ideal) x0 x1 x2 (ix3 (⟨2, by decide⟩ : Fin 10) r q) = ReadP.val_main_v19 (F := Ideal) x0 x1 x2 (ix2 r q) := by
  unfold ReadP.val_main_v135
  refine Eq.trans (concatenate_apply_piece (0 : Fin S10x16384x128.rank) _ _ _ 2 (by exact (by decide : 2 < 10)) S1x16384x128
    (ReadP.val_main_v127 (F := Ideal) x0 x1 x2) (by rfl) (by rfl) 2 (by rfl) (ix3 (0 : Fin 1) r q)
    (fun b hb => by match b with | ⟨0, _⟩ => exact absurd rfl hb | ⟨1, _⟩ => rfl | ⟨2, _⟩ => rfl) (by rfl)) ?_
  rw [ReadP.val_main_v127_apply]
  exact congrArg _ (funext fun a => Fin.ext (by match a with | ⟨0, _⟩ => rfl | ⟨1, _⟩ => rfl))

/-- Slab 3 of the stack is the stage holding node 3: at (3, r, q) the stack reads it at (r, q). -/
theorem src10_3 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v135 (F := Ideal) x0 x1 x2 (ix3 (⟨3, by decide⟩ : Fin 10) r q) = ReadP.val_main_v31 (F := Ideal) x0 x1 x2 (ix2 r q) := by
  unfold ReadP.val_main_v135
  refine Eq.trans (concatenate_apply_piece (0 : Fin S10x16384x128.rank) _ _ _ 3 (by exact (by decide : 3 < 10)) S1x16384x128
    (ReadP.val_main_v128 (F := Ideal) x0 x1 x2) (by rfl) (by rfl) 3 (by rfl) (ix3 (0 : Fin 1) r q)
    (fun b hb => by match b with | ⟨0, _⟩ => exact absurd rfl hb | ⟨1, _⟩ => rfl | ⟨2, _⟩ => rfl) (by rfl)) ?_
  rw [ReadP.val_main_v128_apply]
  exact congrArg _ (funext fun a => Fin.ext (by match a with | ⟨0, _⟩ => rfl | ⟨1, _⟩ => rfl))

/-- Slab 4 of the stack is the stage holding node 4: at (4, r, q) the stack reads it at (r, q). -/
theorem src10_4 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v135 (F := Ideal) x0 x1 x2 (ix3 (⟨4, by decide⟩ : Fin 10) r q) = ReadP.val_main_v44 (F := Ideal) x0 x1 x2 (ix2 r q) := by
  unfold ReadP.val_main_v135
  refine Eq.trans (concatenate_apply_piece (0 : Fin S10x16384x128.rank) _ _ _ 4 (by exact (by decide : 4 < 10)) S1x16384x128
    (ReadP.val_main_v129 (F := Ideal) x0 x1 x2) (by rfl) (by rfl) 4 (by rfl) (ix3 (0 : Fin 1) r q)
    (fun b hb => by match b with | ⟨0, _⟩ => exact absurd rfl hb | ⟨1, _⟩ => rfl | ⟨2, _⟩ => rfl) (by rfl)) ?_
  rw [ReadP.val_main_v129_apply]
  exact congrArg _ (funext fun a => Fin.ext (by match a with | ⟨0, _⟩ => rfl | ⟨1, _⟩ => rfl))

/-- Slab 5 of the stack is the stage holding node 5: at (5, r, q) the stack reads it at (r, q). -/
theorem src10_5 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v135 (F := Ideal) x0 x1 x2 (ix3 (⟨5, by decide⟩ : Fin 10) r q) = ReadP.val_main_v58 (F := Ideal) x0 x1 x2 (ix2 r q) := by
  unfold ReadP.val_main_v135
  refine Eq.trans (concatenate_apply_piece (0 : Fin S10x16384x128.rank) _ _ _ 5 (by exact (by decide : 5 < 10)) S1x16384x128
    (ReadP.val_main_v130 (F := Ideal) x0 x1 x2) (by rfl) (by rfl) 5 (by rfl) (ix3 (0 : Fin 1) r q)
    (fun b hb => by match b with | ⟨0, _⟩ => exact absurd rfl hb | ⟨1, _⟩ => rfl | ⟨2, _⟩ => rfl) (by rfl)) ?_
  rw [ReadP.val_main_v130_apply]
  exact congrArg _ (funext fun a => Fin.ext (by match a with | ⟨0, _⟩ => rfl | ⟨1, _⟩ => rfl))

/-- Slab 6 of the stack is the stage holding node 6: at (6, r, q) the stack reads it at (r, q). -/
theorem src10_6 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v135 (F := Ideal) x0 x1 x2 (ix3 (⟨6, by decide⟩ : Fin 10) r q) = ReadP.val_main_v73 (F := Ideal) x0 x1 x2 (ix2 r q) := by
  unfold ReadP.val_main_v135
  refine Eq.trans (concatenate_apply_piece (0 : Fin S10x16384x128.rank) _ _ _ 6 (by exact (by decide : 6 < 10)) S1x16384x128
    (ReadP.val_main_v131 (F := Ideal) x0 x1 x2) (by rfl) (by rfl) 6 (by rfl) (ix3 (0 : Fin 1) r q)
    (fun b hb => by match b with | ⟨0, _⟩ => exact absurd rfl hb | ⟨1, _⟩ => rfl | ⟨2, _⟩ => rfl) (by rfl)) ?_
  rw [ReadP.val_main_v131_apply]
  exact congrArg _ (funext fun a => Fin.ext (by match a with | ⟨0, _⟩ => rfl | ⟨1, _⟩ => rfl))

/-- Slab 7 of the stack is the stage holding node 7: at (7, r, q) the stack reads it at (r, q). -/
theorem src10_7 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v135 (F := Ideal) x0 x1 x2 (ix3 (⟨7, by decide⟩ : Fin 10) r q) = ReadP.val_main_v89 (F := Ideal) x0 x1 x2 (ix2 r q) := by
  unfold ReadP.val_main_v135
  refine Eq.trans (concatenate_apply_piece (0 : Fin S10x16384x128.rank) _ _ _ 7 (by exact (by decide : 7 < 10)) S1x16384x128
    (ReadP.val_main_v132 (F := Ideal) x0 x1 x2) (by rfl) (by rfl) 7 (by rfl) (ix3 (0 : Fin 1) r q)
    (fun b hb => by match b with | ⟨0, _⟩ => exact absurd rfl hb | ⟨1, _⟩ => rfl | ⟨2, _⟩ => rfl) (by rfl)) ?_
  rw [ReadP.val_main_v132_apply]
  exact congrArg _ (funext fun a => Fin.ext (by match a with | ⟨0, _⟩ => rfl | ⟨1, _⟩ => rfl))

/-- Slab 8 of the stack is the stage holding node 8: at (8, r, q) the stack reads it at (r, q). -/
theorem src10_8 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v135 (F := Ideal) x0 x1 x2 (ix3 (⟨8, by decide⟩ : Fin 10) r q) = ReadP.val_main_v106 (F := Ideal) x0 x1 x2 (ix2 r q) := by
  unfold ReadP.val_main_v135
  refine Eq.trans (concatenate_apply_piece (0 : Fin S10x16384x128.rank) _ _ _ 8 (by exact (by decide : 8 < 10)) S1x16384x128
    (ReadP.val_main_v133 (F := Ideal) x0 x1 x2) (by rfl) (by rfl) 8 (by rfl) (ix3 (0 : Fin 1) r q)
    (fun b hb => by match b with | ⟨0, _⟩ => exact absurd rfl hb | ⟨1, _⟩ => rfl | ⟨2, _⟩ => rfl) (by rfl)) ?_
  rw [ReadP.val_main_v133_apply]
  exact congrArg _ (funext fun a => Fin.ext (by match a with | ⟨0, _⟩ => rfl | ⟨1, _⟩ => rfl))

/-- Slab 9 of the stack is the stage holding node 9: at (9, r, q) the stack reads it at (r, q). -/
theorem src10_9 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v135 (F := Ideal) x0 x1 x2 (ix3 (⟨9, by decide⟩ : Fin 10) r q) = ReadP.val_main_v124 (F := Ideal) x0 x1 x2 (ix2 r q) := by
  unfold ReadP.val_main_v135
  refine Eq.trans (concatenate_apply_piece (0 : Fin S10x16384x128.rank) _ _ _ 9 (by exact (by decide : 9 < 10)) S1x16384x128
    (ReadP.val_main_v134 (F := Ideal) x0 x1 x2) (by rfl) (by rfl) 9 (by rfl) (ix3 (0 : Fin 1) r q)
    (fun b hb => by match b with | ⟨0, _⟩ => exact absurd rfl hb | ⟨1, _⟩ => rfl | ⟨2, _⟩ => rfl) (by rfl)) ?_
  rw [ReadP.val_main_v134_apply]
  exact congrArg _ (funext fun a => Fin.ext (by match a with | ⟨0, _⟩ => rfl | ⟨1, _⟩ => rfl))

/-- Slab k after the clamp, at (k, r, o): the row of slab k of the stack times weight matrix e = 45 + k, plus
    bias row e, clamped below at 0. -/
theorem relu10 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (k : Fin 10) (e : ℕ) (he : e < 66) (hek : e = 45 + k.val) (r : Fin 16384) (o : Fin 128) :
    ReadP.val_main_v142 (F := Ideal) x0 x1 x2 (ix3 k r o) =
      max ((∑ q : Fin 128, ReadP.val_main_v135 (F := Ideal) x0 x1 x2 (ix3 k r q) * x1 (ix3 ⟨e, he⟩ q o)) + x2 (ix2 ⟨e, he⟩ o)) 0 := by
  subst hek
  rw [ReadP.val_main_v142_apply, ReadP.val_main_v141_apply, ReadP.val_main_call9_v0_apply, ReadP.val_main_call9_cst_apply,
    ReadP.val_main_v138_apply, ReadP.val_main_v140_apply, ReadP.val_main_v139_apply, ReadP.val_main_v137_apply]
  show max ((∑ q : Fin 128, _) + _) (Ideal.ofBits .f32 0x00000000#32) = _
  rw [Ideal.ofBits_zero_f32]
  refine congrArg₂ max (congrArg₂ (· + ·) (Finset.sum_congr rfl fun q _ => ?_) ?_) rfl
  · rw [ReadP.val_main_v136_apply]
    refine congrArg₂ (· * ·) (congrArg _ (funext fun a => Fin.ext (by match a with | ⟨0, _⟩ => rfl | ⟨1, _⟩ => rfl | ⟨2, _⟩ => rfl)))
      (congrArg x1 (funext fun a => Fin.ext (by match a with | ⟨0, _⟩ => rfl | ⟨1, _⟩ => rfl | ⟨2, _⟩ => rfl)))
  · exact congrArg x2 (funext fun a => Fin.ext (by match a with | ⟨0, _⟩ => rfl | ⟨1, _⟩ => rfl))

/-- The stage that sums the 10 clamped slabs is node 10. -/
theorem layer10 (x0 : (⟨S16384x128, .f32⟩ : BufTy).Contents (Elt Ideal)) (x1 : (⟨S66x128x128, .f32⟩ : BufTy).Contents (Elt Ideal)) (x2 : (⟨S66x128, .f32⟩ : BufTy).Contents (Elt Ideal)) (h1 : IsNode x0 x1 x2 1 (ReadP.val_main_v8 (F := Ideal) x0 x1 x2)) (h2 : IsNode x0 x1 x2 2 (ReadP.val_main_v19 (F := Ideal) x0 x1 x2)) (h3 : IsNode x0 x1 x2 3 (ReadP.val_main_v31 (F := Ideal) x0 x1 x2)) (h4 : IsNode x0 x1 x2 4 (ReadP.val_main_v44 (F := Ideal) x0 x1 x2)) (h5 : IsNode x0 x1 x2 5 (ReadP.val_main_v58 (F := Ideal) x0 x1 x2)) (h6 : IsNode x0 x1 x2 6 (ReadP.val_main_v73 (F := Ideal) x0 x1 x2)) (h7 : IsNode x0 x1 x2 7 (ReadP.val_main_v89 (F := Ideal) x0 x1 x2)) (h8 : IsNode x0 x1 x2 8 (ReadP.val_main_v106 (F := Ideal) x0 x1 x2)) (h9 : IsNode x0 x1 x2 9 (ReadP.val_main_v124 (F := Ideal) x0 x1 x2)) : IsNode x0 x1 x2 10 (ReadP.val_main_v143 (F := Ideal) x0 x1 x2) := by
  intro r o
  rw [node_succ, ReadP.val_main_v143_apply, ReadP.val_main_cst_8_apply]
  show Ideal.ofBits .f32 0x00000000#32 + _ = _
  rw [Ideal.ofBits_zero_f32, zero_add]
  refine Finset.sum_congr rfl fun k _ => ?_
  have ht : tri 9 = 45 := by decide
  have he : tri 9 + k.val < 66 := by have := k.isLt; omega
  rw [edge_of_lt _ _ _ he,
    show ReadP.idx_main_v143 (ix2 r o) k = ix3 k r o from
      funext fun a => Fin.ext (by match a with | ⟨0, _⟩ => rfl | ⟨1, _⟩ => rfl | ⟨2, _⟩ => rfl),
    relu10 x0 x1 x2 k (tri 9 + k.val) he (by rw [ht]) r o]
  refine congrArg₂ max (congrArg₂ (· + ·) (Finset.sum_congr rfl fun q _ => congrArg₂ (· * ·) ?_ rfl) rfl) rfl
  match k with
  | ⟨0, _⟩ => rw [src10_0, node_zero]
  | ⟨1, _⟩ => rw [src10_1]; exact h1 r q
  | ⟨2, _⟩ => rw [src10_2]; exact h2 r q
  | ⟨3, _⟩ => rw [src10_3]; exact h3 r q
  | ⟨4, _⟩ => rw [src10_4]; exact h4 r q
  | ⟨5, _⟩ => rw [src10_5]; exact h5 r q
  | ⟨6, _⟩ => rw [src10_6]; exact h6 r q
  | ⟨7, _⟩ => rw [src10_7]; exact h7 r q
  | ⟨8, _⟩ => rw [src10_8]; exact h8 r q
  | ⟨9, _⟩ => rw [src10_9]; exact h9 r q

end Cert.RefDag

end
-- ==== Proof.RefLayer11.lean ====
/-
  Node 11 of the DAG in the reference: the stage that stacks the 11 earlier nodes, applies edge 55 + k to the
  k-th of them (a product with the k-th weight matrix of the slice, plus the bias row, clamped below at 0), and sums
  the 11 results, is node 11 whenever the earlier stages are nodes 1 to 10.
-/
import proofs.«165653_j38268158607515_1_alg».proof.Proof.RefAgree
import Idealize.ShloMosaic.Lib.Pipeline.Value
import Idealize.ShloMosaic.Lib.ValueIdx
import Idealize.ShloMosaic.PureOps.Ideal.Laws

noncomputable section

namespace Cert.RefDag

open Cert.ReferenceIdeal Cert.Dag Idealize.ShloMosaic Idealize.ShloMosaic.ValueIdx

/-- Slab 0 of the stack is the input: at (0, r, q) the stack reads it at (r, q). -/
theorem src11_0 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v155 (F := Ideal) x0 x1 x2 (ix3 (⟨0, by decide⟩ : Fin 11) r q) = x0 (ix2 r q) := by
  unfold ReadP.val_main_v155
  refine Eq.trans (concatenate_apply_piece (0 : Fin S11x16384x128.rank) _ _ _ 0 (by exact (by decide : 0 < 11)) S1x16384x128
    (ReadP.val_main_v144 (F := Ideal) x0) (by rfl) (by rfl) 0 (by rfl) (ix3 (0 : Fin 1) r q)
    (fun b hb => by match b with | ⟨0, _⟩ => exact absurd rfl hb | ⟨1, _⟩ => rfl | ⟨2, _⟩ => rfl) (by rfl)) ?_
  rw [ReadP.val_main_v144_apply]
  exact congrArg _ (funext fun a => Fin.ext (by match a with | ⟨0, _⟩ => rfl | ⟨1, _⟩ => rfl))

/-- Slab 1 of the stack is the stage holding node 1: at (1, r, q) the stack reads it at (r, q). -/
theorem src11_1 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v155 (F := Ideal) x0 x1 x2 (ix3 (⟨1, by decide⟩ : Fin 11) r q) = ReadP.val_main_v8 (F := Ideal) x0 x1 x2 (ix2 r q) := by
  unfold ReadP.val_main_v155
  refine Eq.trans (concatenate_apply_piece (0 : Fin S11x16384x128.rank) _ _ _ 1 (by exact (by decide : 1 < 11)) S1x16384x128
    (ReadP.val_main_v145 (F := Ideal) x0 x1 x2) (by rfl) (by rfl) 1 (by rfl) (ix3 (0 : Fin 1) r q)
    (fun b hb => by match b with | ⟨0, _⟩ => exact absurd rfl hb | ⟨1, _⟩ => rfl | ⟨2, _⟩ => rfl) (by rfl)) ?_
  rw [ReadP.val_main_v145_apply]
  exact congrArg _ (funext fun a => Fin.ext (by match a with | ⟨0, _⟩ => rfl | ⟨1, _⟩ => rfl))

/-- Slab 2 of the stack is the stage holding node 2: at (2, r, q) the stack reads it at (r, q). -/
theorem src11_2 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v155 (F := Ideal) x0 x1 x2 (ix3 (⟨2, by decide⟩ : Fin 11) r q) = ReadP.val_main_v19 (F := Ideal) x0 x1 x2 (ix2 r q) := by
  unfold ReadP.val_main_v155
  refine Eq.trans (concatenate_apply_piece (0 : Fin S11x16384x128.rank) _ _ _ 2 (by exact (by decide : 2 < 11)) S1x16384x128
    (ReadP.val_main_v146 (F := Ideal) x0 x1 x2) (by rfl) (by rfl) 2 (by rfl) (ix3 (0 : Fin 1) r q)
    (fun b hb => by match b with | ⟨0, _⟩ => exact absurd rfl hb | ⟨1, _⟩ => rfl | ⟨2, _⟩ => rfl) (by rfl)) ?_
  rw [ReadP.val_main_v146_apply]
  exact congrArg _ (funext fun a => Fin.ext (by match a with | ⟨0, _⟩ => rfl | ⟨1, _⟩ => rfl))

/-- Slab 3 of the stack is the stage holding node 3: at (3, r, q) the stack reads it at (r, q). -/
theorem src11_3 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v155 (F := Ideal) x0 x1 x2 (ix3 (⟨3, by decide⟩ : Fin 11) r q) = ReadP.val_main_v31 (F := Ideal) x0 x1 x2 (ix2 r q) := by
  unfold ReadP.val_main_v155
  refine Eq.trans (concatenate_apply_piece (0 : Fin S11x16384x128.rank) _ _ _ 3 (by exact (by decide : 3 < 11)) S1x16384x128
    (ReadP.val_main_v147 (F := Ideal) x0 x1 x2) (by rfl) (by rfl) 3 (by rfl) (ix3 (0 : Fin 1) r q)
    (fun b hb => by match b with | ⟨0, _⟩ => exact absurd rfl hb | ⟨1, _⟩ => rfl | ⟨2, _⟩ => rfl) (by rfl)) ?_
  rw [ReadP.val_main_v147_apply]
  exact congrArg _ (funext fun a => Fin.ext (by match a with | ⟨0, _⟩ => rfl | ⟨1, _⟩ => rfl))

/-- Slab 4 of the stack is the stage holding node 4: at (4, r, q) the stack reads it at (r, q). -/
theorem src11_4 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v155 (F := Ideal) x0 x1 x2 (ix3 (⟨4, by decide⟩ : Fin 11) r q) = ReadP.val_main_v44 (F := Ideal) x0 x1 x2 (ix2 r q) := by
  unfold ReadP.val_main_v155
  refine Eq.trans (concatenate_apply_piece (0 : Fin S11x16384x128.rank) _ _ _ 4 (by exact (by decide : 4 < 11)) S1x16384x128
    (ReadP.val_main_v148 (F := Ideal) x0 x1 x2) (by rfl) (by rfl) 4 (by rfl) (ix3 (0 : Fin 1) r q)
    (fun b hb => by match b with | ⟨0, _⟩ => exact absurd rfl hb | ⟨1, _⟩ => rfl | ⟨2, _⟩ => rfl) (by rfl)) ?_
  rw [ReadP.val_main_v148_apply]
  exact congrArg _ (funext fun a => Fin.ext (by match a with | ⟨0, _⟩ => rfl | ⟨1, _⟩ => rfl))

/-- Slab 5 of the stack is the stage holding node 5: at (5, r, q) the stack reads it at (r, q). -/
theorem src11_5 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v155 (F := Ideal) x0 x1 x2 (ix3 (⟨5, by decide⟩ : Fin 11) r q) = ReadP.val_main_v58 (F := Ideal) x0 x1 x2 (ix2 r q) := by
  unfold ReadP.val_main_v155
  refine Eq.trans (concatenate_apply_piece (0 : Fin S11x16384x128.rank) _ _ _ 5 (by exact (by decide : 5 < 11)) S1x16384x128
    (ReadP.val_main_v149 (F := Ideal) x0 x1 x2) (by rfl) (by rfl) 5 (by rfl) (ix3 (0 : Fin 1) r q)
    (fun b hb => by match b with | ⟨0, _⟩ => exact absurd rfl hb | ⟨1, _⟩ => rfl | ⟨2, _⟩ => rfl) (by rfl)) ?_
  rw [ReadP.val_main_v149_apply]
  exact congrArg _ (funext fun a => Fin.ext (by match a with | ⟨0, _⟩ => rfl | ⟨1, _⟩ => rfl))

/-- Slab 6 of the stack is the stage holding node 6: at (6, r, q) the stack reads it at (r, q). -/
theorem src11_6 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v155 (F := Ideal) x0 x1 x2 (ix3 (⟨6, by decide⟩ : Fin 11) r q) = ReadP.val_main_v73 (F := Ideal) x0 x1 x2 (ix2 r q) := by
  unfold ReadP.val_main_v155
  refine Eq.trans (concatenate_apply_piece (0 : Fin S11x16384x128.rank) _ _ _ 6 (by exact (by decide : 6 < 11)) S1x16384x128
    (ReadP.val_main_v150 (F := Ideal) x0 x1 x2) (by rfl) (by rfl) 6 (by rfl) (ix3 (0 : Fin 1) r q)
    (fun b hb => by match b with | ⟨0, _⟩ => exact absurd rfl hb | ⟨1, _⟩ => rfl | ⟨2, _⟩ => rfl) (by rfl)) ?_
  rw [ReadP.val_main_v150_apply]
  exact congrArg _ (funext fun a => Fin.ext (by match a with | ⟨0, _⟩ => rfl | ⟨1, _⟩ => rfl))

/-- Slab 7 of the stack is the stage holding node 7: at (7, r, q) the stack reads it at (r, q). -/
theorem src11_7 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v155 (F := Ideal) x0 x1 x2 (ix3 (⟨7, by decide⟩ : Fin 11) r q) = ReadP.val_main_v89 (F := Ideal) x0 x1 x2 (ix2 r q) := by
  unfold ReadP.val_main_v155
  refine Eq.trans (concatenate_apply_piece (0 : Fin S11x16384x128.rank) _ _ _ 7 (by exact (by decide : 7 < 11)) S1x16384x128
    (ReadP.val_main_v151 (F := Ideal) x0 x1 x2) (by rfl) (by rfl) 7 (by rfl) (ix3 (0 : Fin 1) r q)
    (fun b hb => by match b with | ⟨0, _⟩ => exact absurd rfl hb | ⟨1, _⟩ => rfl | ⟨2, _⟩ => rfl) (by rfl)) ?_
  rw [ReadP.val_main_v151_apply]
  exact congrArg _ (funext fun a => Fin.ext (by match a with | ⟨0, _⟩ => rfl | ⟨1, _⟩ => rfl))

/-- Slab 8 of the stack is the stage holding node 8: at (8, r, q) the stack reads it at (r, q). -/
theorem src11_8 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v155 (F := Ideal) x0 x1 x2 (ix3 (⟨8, by decide⟩ : Fin 11) r q) = ReadP.val_main_v106 (F := Ideal) x0 x1 x2 (ix2 r q) := by
  unfold ReadP.val_main_v155
  refine Eq.trans (concatenate_apply_piece (0 : Fin S11x16384x128.rank) _ _ _ 8 (by exact (by decide : 8 < 11)) S1x16384x128
    (ReadP.val_main_v152 (F := Ideal) x0 x1 x2) (by rfl) (by rfl) 8 (by rfl) (ix3 (0 : Fin 1) r q)
    (fun b hb => by match b with | ⟨0, _⟩ => exact absurd rfl hb | ⟨1, _⟩ => rfl | ⟨2, _⟩ => rfl) (by rfl)) ?_
  rw [ReadP.val_main_v152_apply]
  exact congrArg _ (funext fun a => Fin.ext (by match a with | ⟨0, _⟩ => rfl | ⟨1, _⟩ => rfl))

/-- Slab 9 of the stack is the stage holding node 9: at (9, r, q) the stack reads it at (r, q). -/
theorem src11_9 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v155 (F := Ideal) x0 x1 x2 (ix3 (⟨9, by decide⟩ : Fin 11) r q) = ReadP.val_main_v124 (F := Ideal) x0 x1 x2 (ix2 r q) := by
  unfold ReadP.val_main_v155
  refine Eq.trans (concatenate_apply_piece (0 : Fin S11x16384x128.rank) _ _ _ 9 (by exact (by decide : 9 < 11)) S1x16384x128
    (ReadP.val_main_v153 (F := Ideal) x0 x1 x2) (by rfl) (by rfl) 9 (by rfl) (ix3 (0 : Fin 1) r q)
    (fun b hb => by match b with | ⟨0, _⟩ => exact absurd rfl hb | ⟨1, _⟩ => rfl | ⟨2, _⟩ => rfl) (by rfl)) ?_
  rw [ReadP.val_main_v153_apply]
  exact congrArg _ (funext fun a => Fin.ext (by match a with | ⟨0, _⟩ => rfl | ⟨1, _⟩ => rfl))

/-- Slab 10 of the stack is the stage holding node 10: at (10, r, q) the stack reads it at (r, q). -/
theorem src11_10 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (r : Fin 16384) (q : Fin 128) :
    ReadP.val_main_v155 (F := Ideal) x0 x1 x2 (ix3 (⟨10, by decide⟩ : Fin 11) r q) = ReadP.val_main_v143 (F := Ideal) x0 x1 x2 (ix2 r q) := by
  unfold ReadP.val_main_v155
  refine Eq.trans (concatenate_apply_piece (0 : Fin S11x16384x128.rank) _ _ _ 10 (by exact (by decide : 10 < 11)) S1x16384x128
    (ReadP.val_main_v154 (F := Ideal) x0 x1 x2) (by rfl) (by rfl) 10 (by rfl) (ix3 (0 : Fin 1) r q)
    (fun b hb => by match b with | ⟨0, _⟩ => exact absurd rfl hb | ⟨1, _⟩ => rfl | ⟨2, _⟩ => rfl) (by rfl)) ?_
  rw [ReadP.val_main_v154_apply]
  exact congrArg _ (funext fun a => Fin.ext (by match a with | ⟨0, _⟩ => rfl | ⟨1, _⟩ => rfl))

/-- Slab k after the clamp, at (k, r, o): the row of slab k of the stack times weight matrix e = 55 + k, plus
    bias row e, clamped below at 0. -/
theorem relu11 (x0 : (⟨S16384x128, .f32⟩ : BufTy).Contents (Elt Ideal)) (x1 : (⟨S66x128x128, .f32⟩ : BufTy).Contents (Elt Ideal)) (x2 : (⟨S66x128, .f32⟩ : BufTy).Contents (Elt Ideal))
    (k : Fin 11) (e : ℕ) (he : e < 66) (hek : e = 55 + k.val) (r : Fin 16384) (o : Fin 128) :
    ReadP.val_main_v162 (F := Ideal) x0 x1 x2 (ix3 k r o) =
      max ((∑ q : Fin 128, ReadP.val_main_v155 (F := Ideal) x0 x1 x2 (ix3 k r q) * x1 (ix3 ⟨e, he⟩ q o)) + x2 (ix2 ⟨e, he⟩ o)) 0 := by
  subst hek
  rw [ReadP.val_main_v162_apply, ReadP.val_main_v161_apply, ReadP.val_main_call10_v0_apply, ReadP.val_main_call10_cst_apply,
    ReadP.val_main_v158_apply, ReadP.val_main_v160_apply, ReadP.val_main_v159_apply, ReadP.val_main_v157_apply]
  show max ((∑ q : Fin 128, _) + _) (Ideal.ofBits .f32 0x00000000#32) = _
  rw [Ideal.ofBits_zero_f32]
  refine congrArg₂ max (congrArg₂ (· + ·) (Finset.sum_congr rfl fun q _ => ?_) ?_) rfl
  · rw [ReadP.val_main_v156_apply]
    refine congrArg₂ (· * ·) (congrArg _ (funext fun a => Fin.ext (by match a with | ⟨0, _⟩ => rfl | ⟨1, _⟩ => rfl | ⟨2, _⟩ => rfl)))
      (congrArg x1 (funext fun a => Fin.ext (by match a with | ⟨0, _⟩ => rfl | ⟨1, _⟩ => rfl | ⟨2, _⟩ => rfl)))
  · exact congrArg x2 (funext fun a => Fin.ext (by match a with | ⟨0, _⟩ => rfl | ⟨1, _⟩ => rfl))

/-- The stage that sums the 11 clamped slabs is node 11. -/
theorem layer11 (x0 : (⟨S16384x128, .f32⟩ : BufTy).Contents (Elt Ideal)) (x1 : (⟨S66x128x128, .f32⟩ : BufTy).Contents (Elt Ideal)) (x2 : (⟨S66x128, .f32⟩ : BufTy).Contents (Elt Ideal)) (h1 : IsNode x0 x1 x2 1 (ReadP.val_main_v8 (F := Ideal) x0 x1 x2)) (h2 : IsNode x0 x1 x2 2 (ReadP.val_main_v19 (F := Ideal) x0 x1 x2)) (h3 : IsNode x0 x1 x2 3 (ReadP.val_main_v31 (F := Ideal) x0 x1 x2)) (h4 : IsNode x0 x1 x2 4 (ReadP.val_main_v44 (F := Ideal) x0 x1 x2)) (h5 : IsNode x0 x1 x2 5 (ReadP.val_main_v58 (F := Ideal) x0 x1 x2)) (h6 : IsNode x0 x1 x2 6 (ReadP.val_main_v73 (F := Ideal) x0 x1 x2)) (h7 : IsNode x0 x1 x2 7 (ReadP.val_main_v89 (F := Ideal) x0 x1 x2)) (h8 : IsNode x0 x1 x2 8 (ReadP.val_main_v106 (F := Ideal) x0 x1 x2)) (h9 : IsNode x0 x1 x2 9 (ReadP.val_main_v124 (F := Ideal) x0 x1 x2)) (h10 : IsNode x0 x1 x2 10 (ReadP.val_main_v143 (F := Ideal) x0 x1 x2)) : IsNode x0 x1 x2 11 (ReadP.val_main_v163 (F := Ideal) x0 x1 x2) := by
  intro r o
  rw [node_succ, ReadP.val_main_v163_apply, ReadP.val_main_cst_9_apply]
  show Ideal.ofBits .f32 0x00000000#32 + _ = _
  rw [Ideal.ofBits_zero_f32, zero_add]
  refine Finset.sum_congr rfl fun k _ => ?_
  have ht : tri 10 = 55 := by decide
  have he : tri 10 + k.val < 66 := by have := k.isLt; omega
  rw [edge_of_lt _ _ _ he,
    show ReadP.idx_main_v163 (ix2 r o) k = ix3 k r o from
      funext fun a => Fin.ext (by match a with | ⟨0, _⟩ => rfl | ⟨1, _⟩ => rfl | ⟨2, _⟩ => rfl),
    relu11 x0 x1 x2 k (tri 10 + k.val) he (by rw [ht]) r o]
  refine congrArg₂ max (congrArg₂ (· + ·) (Finset.sum_congr rfl fun q _ => congrArg₂ (· * ·) ?_ rfl) rfl) rfl
  match k with
  | ⟨0, _⟩ => rw [src11_0, node_zero]
  | ⟨1, _⟩ => rw [src11_1]; exact h1 r q
  | ⟨2, _⟩ => rw [src11_2]; exact h2 r q
  | ⟨3, _⟩ => rw [src11_3]; exact h3 r q
  | ⟨4, _⟩ => rw [src11_4]; exact h4 r q
  | ⟨5, _⟩ => rw [src11_5]; exact h5 r q
  | ⟨6, _⟩ => rw [src11_6]; exact h6 r q
  | ⟨7, _⟩ => rw [src11_7]; exact h7 r q
  | ⟨8, _⟩ => rw [src11_8]; exact h8 r q
  | ⟨9, _⟩ => rw [src11_9]; exact h9 r q
  | ⟨10, _⟩ => rw [src11_10]; exact h10 r q

end Cert.RefDag

end
-- ==== Proof.RefValue.lean ====
/-
  The reference's result is node 11 of the DAG: each stage that closes a layer is the next node given the earlier
  ones, so the eleven layers chain from the input (node 0) to the last stage.
-/
import proofs.«165653_j38268158607515_1_alg».proof.Proof.RefLayer1
import proofs.«165653_j38268158607515_1_alg».proof.Proof.RefLayer2
import proofs.«165653_j38268158607515_1_alg».proof.Proof.RefLayer3
import proofs.«165653_j38268158607515_1_alg».proof.Proof.RefLayer4
import proofs.«165653_j38268158607515_1_alg».proof.Proof.RefLayer5
import proofs.«165653_j38268158607515_1_alg».proof.Proof.RefLayer6
import proofs.«165653_j38268158607515_1_alg».proof.Proof.RefLayer7
import proofs.«165653_j38268158607515_1_alg».proof.Proof.RefLayer8
import proofs.«165653_j38268158607515_1_alg».proof.Proof.RefLayer9
import proofs.«165653_j38268158607515_1_alg».proof.Proof.RefLayer10
import proofs.«165653_j38268158607515_1_alg».proof.Proof.RefLayer11

noncomputable section

namespace Cert.RefDag

open Cert.ReferenceIdeal Cert.Dag Idealize.ShloMosaic Idealize.ShloMosaic.ValueIdx

/-- Row r of the reference's last stage is node 11 on row r of the input. -/
theorem ref_value (x0 : (⟨S16384x128, .f32⟩ : BufTy).Contents (Elt Ideal)) (x1 : (⟨S66x128x128, .f32⟩ : BufTy).Contents (Elt Ideal)) (x2 : (⟨S66x128, .f32⟩ : BufTy).Contents (Elt Ideal)) :
    IsNode x0 x1 x2 11 (ReadP.val_main_v163 (F := Ideal) x0 x1 x2) := by
  have h1 : IsNode x0 x1 x2 1 (ReadP.val_main_v8 (F := Ideal) x0 x1 x2) := layer1 x0 x1 x2
  have h2 : IsNode x0 x1 x2 2 (ReadP.val_main_v19 (F := Ideal) x0 x1 x2) := layer2 x0 x1 x2 h1
  have h3 : IsNode x0 x1 x2 3 (ReadP.val_main_v31 (F := Ideal) x0 x1 x2) := layer3 x0 x1 x2 h1 h2
  have h4 : IsNode x0 x1 x2 4 (ReadP.val_main_v44 (F := Ideal) x0 x1 x2) := layer4 x0 x1 x2 h1 h2 h3
  have h5 : IsNode x0 x1 x2 5 (ReadP.val_main_v58 (F := Ideal) x0 x1 x2) := layer5 x0 x1 x2 h1 h2 h3 h4
  have h6 : IsNode x0 x1 x2 6 (ReadP.val_main_v73 (F := Ideal) x0 x1 x2) := layer6 x0 x1 x2 h1 h2 h3 h4 h5
  have h7 : IsNode x0 x1 x2 7 (ReadP.val_main_v89 (F := Ideal) x0 x1 x2) := layer7 x0 x1 x2 h1 h2 h3 h4 h5 h6
  have h8 : IsNode x0 x1 x2 8 (ReadP.val_main_v106 (F := Ideal) x0 x1 x2) := layer8 x0 x1 x2 h1 h2 h3 h4 h5 h6 h7
  have h9 : IsNode x0 x1 x2 9 (ReadP.val_main_v124 (F := Ideal) x0 x1 x2) := layer9 x0 x1 x2 h1 h2 h3 h4 h5 h6 h7 h8
  have h10 : IsNode x0 x1 x2 10 (ReadP.val_main_v143 (F := Ideal) x0 x1 x2) := layer10 x0 x1 x2 h1 h2 h3 h4 h5 h6 h7 h8 h9
  exact layer11 x0 x1 x2 h1 h2 h3 h4 h5 h6 h7 h8 h9 h10

end Cert.RefDag

end
-- ==== Proof.RefRunLayer1.lean ====
import proofs.«165653_j38268158607515_1_alg».proof.Proof.ReadP
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- The first layer of @main: the operations up to the sum that writes `main_v8`. -/
abbrev L1 : List (HloOp τ sig (Elt F)) :=
  [ unary main_arg0 main_v0 (broadcastInDim S1x16384x128 ![1, 2] bcast_S16384x128_S1x16384x128_1_2 : (⟨S16384x128, .f32⟩ : BufTy).Contents (Elt F) → (⟨S1x16384x128, .f32⟩ : BufTy).Contents (Elt F)),
    unary main_arg1 main_v1 ((extractStridedSlice S1x128x128 ![0, 0, 0] · slices_S66x128x128_S1x128x128_0_0_0) : (⟨S66x128x128, .f32⟩ : BufTy).Contents (Elt F) → (⟨S1x128x128, .f32⟩ : BufTy).Contents (Elt F)),
    unary main_arg2 main_v2 ((extractStridedSlice S1x128 ![0, 0] · slices_S66x128_S1x128_0_0) : (⟨S66x128, .f32⟩ : BufTy).Contents (Elt F) → (⟨S1x128, .f32⟩ : BufTy).Contents (Elt F)),
    binary main_v0 main_v1 main_v3 ((fun l r => Host.dotGeneral dot_S1x16384x128_S1x128x128_S1x16384x128_2_1_1_2_0_0 none l r) : (⟨S1x16384x128, .f32⟩ : BufTy).Contents (Elt F) → (⟨S1x128x128, .f32⟩ : BufTy).Contents (Elt F) → (⟨S1x16384x128, .f32⟩ : BufTy).Contents (Elt F)),
    unary main_v2 main_v4 (broadcastInDim S1x1x128 ![0, 2] bcast_S1x128_S1x1x128_0_2 : (⟨S1x128, .f32⟩ : BufTy).Contents (Elt F) → (⟨S1x1x128, .f32⟩ : BufTy).Contents (Elt F)),
    unary main_v4 main_v5 (broadcastInDim S1x16384x128 ![0, 1, 2] bcast_S1x1x128_S1x16384x128_0_1_2 : (⟨S1x1x128, .f32⟩ : BufTy).Contents (Elt F) → (⟨S1x16384x128, .f32⟩ : BufTy).Contents (Elt F)),
    binary main_v3 main_v5 main_v6 (addf : (⟨S1x16384x128, .f32⟩ : BufTy).Contents (Elt F) → (⟨S1x16384x128, .f32⟩ : BufTy).Contents (Elt F) → (⟨S1x16384x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x16384x128, .f32⟩) main_call0_v0) (broadcastInDim S1x16384x128 ![] bcast_S_S1x16384x128),
    TRef.binary (TRef.of (T := ⟨S1x16384x128, .f32⟩) main_v6) (TRef.of (T := ⟨S1x16384x128, .f32⟩) main_call0_v0) (TRef.of (T := ⟨S1x16384x128, .f32⟩) main_v7) maximumf,
    nullary main_cst (constant S_ .f32 0x00000000#32),
    binary main_v7 main_cst main_v8 ((fun x v => Host.reduceAdd x v reducesTo_S1x16384x128_S16384x128_d0 h_S_) : (⟨S1x16384x128, .f32⟩ : BufTy).Contents (Elt F) → (⟨S_, .f32⟩ : BufTy).Contents (Elt F) → (⟨S16384x128, .f32⟩ : BufTy).Contents (Elt F)) ]

theorem L1_sub : (L1 : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub ..⟩

theorem L1_fresh : ∀ op ∈ (L1 : List (HloOp τ sig (Elt F))), op.fresh = ∅ := by
  intro _ h; (repeat (cases h with | head => rfl | tail _ h => ?_)); exact nomatch h

/-- The references the first layer writes. -/
abbrev W1 : List (Ref sig .tc) := [main_v0, main_v1, main_v2, main_v3, main_v4, main_v5, main_v6, main_call0_cst, main_call0_v0, main_v7, main_cst, main_v8]

theorem L1_writes : (L1 : List (HloOp τ sig (Elt F))).Forall fun op => op.writes ⊆ (W1.map (Proc.devRef (τ := τ) .tc)).toFinset := by
  simp only [List.Forall]
  repeat' apply And.intro
  all_goals (simp only [nullary_writes, unary_writes, binary_writes, nary_writes, Finset.singleton_subset_iff, List.mem_toFinset]; exact List.mem_map_of_mem (by decide))

/-- A buffer the first layer does not write keeps its contents through it. -/
theorem keep1 (V : Valuation τ sig (Elt F)) {r : Ref sig .tc} (h : r ∉ W1) :
    after L1 V (Proc.devRef .tc r) = V (Proc.devRef .tc r) :=
  after_of_writes_sub L1 V L1_writes h

/-- From the arguments, the first layer leaves `main_v8` at its staged value. -/
theorem sum1 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (h0 : V (Proc.devRef .tc main_arg0) = x0) (h1 : V (Proc.devRef .tc main_arg1) = x1) (h2 : V (Proc.devRef .tc main_arg2) = x2) :
    after L1 V (Proc.devRef .tc main_v8) = ReadP.val_main_v8 (F := F) x0 x1 x2 := by
  after_results
  rw [h0, h1, h2]
  unfold ReadP.val_main_v8 ReadP.val_main_v7 ReadP.val_main_v6 ReadP.val_main_v5 ReadP.val_main_v4 ReadP.val_main_v3 ReadP.val_main_v2 ReadP.val_main_v1 ReadP.val_main_v0 ReadP.val_main_call0_v0 ReadP.val_main_call0_cst ReadP.val_main_cst
  rfl

end Cert.ReferenceIdeal.RunP

end
-- ==== Proof.RefRunLayer2.lean ====
import proofs.«165653_j38268158607515_1_alg».proof.Proof.ReadP
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- Each operation's result at its own buffer is its function's value, at another buffer what was there: by rewriting, so that it
    reaches the operands of a concatenate (whose proof of fit depends on the operand list). -/
local macro "results_rw" : tactic =>
  `(tactic| repeat (first
      | rw [nullary_result] | rw [unary_result] | rw [binary_result] | rw [nary_result]
      | (rw [nullary_result_ne]; rotate_left; decide)
      | (rw [unary_result_ne]; rotate_left; decide)
      | (rw [binary_result_ne]; rotate_left; decide)
      | (rw [nary_result_ne]; rotate_left; decide)))

/-- The second layer of @main: from the broadcasts that feed its concatenate to the sum that writes `main_v19`. -/
abbrev L2 : List (HloOp τ sig (Elt F)) :=
  [ unary main_arg0 main_v9 (broadcastInDim S1x16384x128 ![1, 2] bcast_S16384x128_S1x16384x128_1_2 : (⟨S16384x128, .f32⟩ : BufTy).Contents (Elt F) → (⟨S1x16384x128, .f32⟩ : BufTy).Contents (Elt F)),
    unary main_v8 main_v10 (broadcastInDim S1x16384x128 ![1, 2] bcast_S16384x128_S1x16384x128_1_2 : (⟨S16384x128, .f32⟩ : BufTy).Contents (Elt F) → (⟨S1x16384x128, .f32⟩ : BufTy).Contents (Elt F)),
    binary main_v9 main_v10 main_v11 ((fun a b => concatenate S2x16384x128 0 [⟨S1x16384x128, a⟩, ⟨S1x16384x128, b⟩] concatenates_S1x16384x128_S1x16384x128_S2x16384x128_d0) : (⟨S1x16384x128, .f32⟩ : BufTy).Contents (Elt F) → (⟨S1x16384x128, .f32⟩ : BufTy).Contents (Elt F) → (⟨S2x16384x128, .f32⟩ : BufTy).Contents (Elt F)),
    unary main_arg1 main_v12 ((extractStridedSlice S2x128x128 ![1, 0, 0] · slices_S66x128x128_S2x128x128_1_0_0) : (⟨S66x128x128, .f32⟩ : BufTy).Contents (Elt F) → (⟨S2x128x128, .f32⟩ : BufTy).Contents (Elt F)),
    unary main_arg2 main_v13 ((extractStridedSlice S2x128 ![1, 0] · slices_S66x128_S2x128_1_0) : (⟨S66x128, .f32⟩ : BufTy).Contents (Elt F) → (⟨S2x128, .f32⟩ : BufTy).Contents (Elt F)),
    binary main_v11 main_v12 main_v14 ((fun l r => Host.dotGeneral dot_S2x16384x128_S2x128x128_S2x16384x128_2_1_1_2_0_0 none l r) : (⟨S2x16384x128, .f32⟩ : BufTy).Contents (Elt F) → (⟨S2x128x128, .f32⟩ : BufTy).Contents (Elt F) → (⟨S2x16384x128, .f32⟩ : BufTy).Contents (Elt F)),
    unary main_v13 main_v15 (broadcastInDim S2x1x128 ![0, 2] bcast_S2x128_S2x1x128_0_2 : (⟨S2x128, .f32⟩ : BufTy).Contents (Elt F) → (⟨S2x1x128, .f32⟩ : BufTy).Contents (Elt F)),
    unary main_v15 main_v16 (broadcastInDim S2x16384x128 ![0, 1, 2] bcast_S2x1x128_S2x16384x128_0_1_2 : (⟨S2x1x128, .f32⟩ : BufTy).Contents (Elt F) → (⟨S2x16384x128, .f32⟩ : BufTy).Contents (Elt F)),
    binary main_v14 main_v16 main_v17 (addf : (⟨S2x16384x128, .f32⟩ : BufTy).Contents (Elt F) → (⟨S2x16384x128, .f32⟩ : BufTy).Contents (Elt F) → (⟨S2x16384x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S2x16384x128, .f32⟩) main_call1_v0) (broadcastInDim S2x16384x128 ![] bcast_S_S2x16384x128),
    TRef.binary (TRef.of (T := ⟨S2x16384x128, .f32⟩) main_v17) (TRef.of (T := ⟨S2x16384x128, .f32⟩) main_call1_v0) (TRef.of (T := ⟨S2x16384x128, .f32⟩) main_v18) maximumf,
    nullary main_cst_0 (constant S_ .f32 0x00000000#32),
    binary main_v18 main_cst_0 main_v19 ((fun x v => Host.reduceAdd x v reducesTo_S2x16384x128_S16384x128_d0 h_S_) : (⟨S2x16384x128, .f32⟩ : BufTy).Contents (Elt F) → (⟨S_, .f32⟩ : BufTy).Contents (Elt F) → (⟨S16384x128, .f32⟩ : BufTy).Contents (Elt F)) ]

theorem L2_sub : (L2 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub ..⟩

theorem L2_fresh : ∀ op ∈ (L2 : List (HloOp τ sig (Elt F))), op.fresh = ∅ := by
  intro _ h; (repeat (cases h with | head => rfl | tail _ h => ?_)); exact nomatch h

/-- The references the second layer writes. -/
abbrev W2 : List (Ref sig .tc) := [main_v9, main_v10, main_v11, main_v12, main_v13, main_v14, main_v15, main_v16, main_v17, main_call1_cst, main_call1_v0, main_v18, main_cst_0, main_v19]

theorem L2_writes : (L2 : List (HloOp τ sig (Elt F))).Forall fun op => op.writes ⊆ (W2.map (Proc.devRef (τ := τ) .tc)).toFinset := by
  simp only [List.Forall]
  repeat' apply And.intro
  all_goals (simp only [nullary_writes, unary_writes, binary_writes, nary_writes, Finset.singleton_subset_iff, List.mem_toFinset]; exact List.mem_map_of_mem (by decide))

/-- A buffer the second layer does not write keeps its contents through it. -/
theorem keep2 (V : Valuation τ sig (Elt F)) {r : Ref sig .tc} (h : r ∉ W2) :
    after L2 V (Proc.devRef .tc r) = V (Proc.devRef .tc r) :=
  after_of_writes_sub L2 V L2_writes h

/-- From the arguments and the first layer's sum, the second layer leaves `main_v19` at its staged value. -/
theorem sum2 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (h0 : V (Proc.devRef .tc main_arg0) = x0) (h1 : V (Proc.devRef .tc main_arg1) = x1) (h2 : V (Proc.devRef .tc main_arg2) = x2)
    (g1 : V (Proc.devRef .tc main_v8) = ReadP.val_main_v8 (F := F) x0 x1 x2) :
    after L2 V (Proc.devRef .tc main_v19) = ReadP.val_main_v19 (F := F) x0 x1 x2 := by
  after_results_simp
  results_rw
  rw [h0, h1, h2, g1]
  unfold ReadP.val_main_v19 ReadP.val_main_v18 ReadP.val_main_v17 ReadP.val_main_v16 ReadP.val_main_v15 ReadP.val_main_v14 ReadP.val_main_v13 ReadP.val_main_v12 ReadP.val_main_v11 ReadP.val_main_v10 ReadP.val_main_v9 ReadP.val_main_call1_v0 ReadP.val_main_call1_cst ReadP.val_main_cst_0
  rfl

end Cert.ReferenceIdeal.RunP

end
-- ==== Proof.RefRunLayer3.lean ====
import proofs.«165653_j38268158607515_1_alg».proof.Proof.ReadP
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- Each operation's result at its own buffer is its function's value, at another buffer what was there: by rewriting, so that it
    reaches the operands of a concatenate (whose proof of fit depends on the operand list). -/
local macro "results_rw" : tactic =>
  `(tactic| repeat (first
      | rw [nullary_result] | rw [unary_result] | rw [binary_result] | rw [nary_result]
      | (rw [nullary_result_ne]; rotate_left; decide)
      | (rw [unary_result_ne]; rotate_left; decide)
      | (rw [binary_result_ne]; rotate_left; decide)
      | (rw [nary_result_ne]; rotate_left; decide)))

/-- The third layer of @main: from the broadcasts that feed its concatenate to the sum that writes `main_v31`. -/
abbrev L3 : List (HloOp τ sig (Elt F)) :=
  [ unary main_arg0 main_v20 (broadcastInDim S1x16384x128 ![1, 2] bcast_S16384x128_S1x16384x128_1_2 : (⟨S16384x128, .f32⟩ : BufTy).Contents (Elt F) → (⟨S1x16384x128, .f32⟩ : BufTy).Contents (Elt F)),
    unary main_v8 main_v21 (broadcastInDim S1x16384x128 ![1, 2] bcast_S16384x128_S1x16384x128_1_2 : (⟨S16384x128, .f32⟩ : BufTy).Contents (Elt F) → (⟨S1x16384x128, .f32⟩ : BufTy).Contents (Elt F)),
    unary main_v19 main_v22 (broadcastInDim S1x16384x128 ![1, 2] bcast_S16384x128_S1x16384x128_1_2 : (⟨S16384x128, .f32⟩ : BufTy).Contents (Elt F) → (⟨S1x16384x128, .f32⟩ : BufTy).Contents (Elt F)),
    nary ![main_v20, main_v21, main_v22] main_v23 (fun u => concatenate S3x16384x128 0 [⟨S1x16384x128, u 0⟩, ⟨S1x16384x128, u 1⟩, ⟨S1x16384x128, u 2⟩] concatenates_S1x16384x128_S1x16384x128_S1x16384x128_S3x16384x128_d0),
    unary main_arg1 main_v24 ((extractStridedSlice S3x128x128 ![3, 0, 0] · slices_S66x128x128_S3x128x128_3_0_0) : (⟨S66x128x128, .f32⟩ : BufTy).Contents (Elt F) → (⟨S3x128x128, .f32⟩ : BufTy).Contents (Elt F)),
    unary main_arg2 main_v25 ((extractStridedSlice S3x128 ![3, 0] · slices_S66x128_S3x128_3_0) : (⟨S66x128, .f32⟩ : BufTy).Contents (Elt F) → (⟨S3x128, .f32⟩ : BufTy).Contents (Elt F)),
    binary main_v23 main_v24 main_v26 ((fun l r => Host.dotGeneral dot_S3x16384x128_S3x128x128_S3x16384x128_2_1_1_2_0_0 none l r) : (⟨S3x16384x128, .f32⟩ : BufTy).Contents (Elt F) → (⟨S3x128x128, .f32⟩ : BufTy).Contents (Elt F) → (⟨S3x16384x128, .f32⟩ : BufTy).Contents (Elt F)),
    unary main_v25 main_v27 (broadcastInDim S3x1x128 ![0, 2] bcast_S3x128_S3x1x128_0_2 : (⟨S3x128, .f32⟩ : BufTy).Contents (Elt F) → (⟨S3x1x128, .f32⟩ : BufTy).Contents (Elt F)),
    unary main_v27 main_v28 (broadcastInDim S3x16384x128 ![0, 1, 2] bcast_S3x1x128_S3x16384x128_0_1_2 : (⟨S3x1x128, .f32⟩ : BufTy).Contents (Elt F) → (⟨S3x16384x128, .f32⟩ : BufTy).Contents (Elt F)),
    binary main_v26 main_v28 main_v29 (addf : (⟨S3x16384x128, .f32⟩ : BufTy).Contents (Elt F) → (⟨S3x16384x128, .f32⟩ : BufTy).Contents (Elt F) → (⟨S3x16384x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S3x16384x128, .f32⟩) main_call2_v0) (broadcastInDim S3x16384x128 ![] bcast_S_S3x16384x128),
    TRef.binary (TRef.of (T := ⟨S3x16384x128, .f32⟩) main_v29) (TRef.of (T := ⟨S3x16384x128, .f32⟩) main_call2_v0) (TRef.of (T := ⟨S3x16384x128, .f32⟩) main_v30) maximumf,
    nullary main_cst_1 (constant S_ .f32 0x00000000#32),
    binary main_v30 main_cst_1 main_v31 ((fun x v => Host.reduceAdd x v reducesTo_S3x16384x128_S16384x128_d0 h_S_) : (⟨S3x16384x128, .f32⟩ : BufTy).Contents (Elt F) → (⟨S_, .f32⟩ : BufTy).Contents (Elt F) → (⟨S16384x128, .f32⟩ : BufTy).Contents (Elt F)) ]

theorem L3_sub : (L3 : List (HloOp τ sig (Elt F))).Forall fun op => op.bufs ⊆ tcRefs τ sig :=
  ⟨unary_bufs_sub .., unary_bufs_sub .., unary_bufs_sub .., nary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub ..⟩

theorem L3_fresh : ∀ op ∈ (L3 : List (HloOp τ sig (Elt F))), op.fresh = ∅ := by
  intro _ h; (repeat (cases h with | head => rfl | tail _ h => ?_)); exact nomatch h

/-- The references the third layer writes. -/
abbrev W3 : List (Ref sig .tc) := [main_v20, main_v21, main_v22, main_v23, main_v24, main_v25, main_v26, main_v27, main_v28, main_v29, main_call2_cst, main_call2_v0, main_v30, main_cst_1, main_v31]

theorem L3_writes : (L3 : List (HloOp τ sig (Elt F))).Forall fun op => op.writes ⊆ (W3.map (Proc.devRef (τ := τ) .tc)).toFinset := by
  simp only [List.Forall]
  repeat' apply And.intro
  all_goals (simp only [nullary_writes, unary_writes, binary_writes, nary_writes, Finset.singleton_subset_iff, List.mem_toFinset]; exact List.mem_map_of_mem (by decide))

/-- A buffer the third layer does not write keeps its contents through it. -/
theorem keep3 (V : Valuation τ sig (Elt F)) {r : Ref sig .tc} (h : r ∉ W3) :
    after L3 V (Proc.devRef .tc r) = V (Proc.devRef .tc r) :=
  after_of_writes_sub L3 V L3_writes h

/-- From the arguments and the first two layers' sums, the third layer leaves `main_v31` at its staged value. -/
theorem sum3 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (h0 : V (Proc.devRef .tc main_arg0) = x0) (h1 : V (Proc.devRef .tc main_arg1) = x1) (h2 : V (Proc.devRef .tc main_arg2) = x2)
    (g1 : V (Proc.devRef .tc main_v8) = ReadP.val_main_v8 (F := F) x0 x1 x2)
    (g2 : V (Proc.devRef .tc main_v19) = ReadP.val_main_v19 (F := F) x0 x1 x2) :
    after L3 V (Proc.devRef .tc main_v31) = ReadP.val_main_v31 (F := F) x0 x1 x2 := by
  after_results_simp
  dsimp only [Matrix.cons_val]
  results_rw
  rw [h0, h1, h2, g1, g2]
  unfold ReadP.val_main_v31 ReadP.val_main_v30 ReadP.val_main_v29 ReadP.val_main_v28 ReadP.val_main_v27 ReadP.val_main_v26 ReadP.val_main_v25 ReadP.val_main_v24 ReadP.val_main_v23 ReadP.val_main_v22 ReadP.val_main_v21 ReadP.val_main_v20 ReadP.val_main_call2_v0 ReadP.val_main_call2_cst ReadP.val_main_cst_1
  rfl

end Cert.ReferenceIdeal.RunP

end
-- ==== Proof.RefRunLayer4.lean ====
import proofs.«165653_j38268158607515_1_alg».proof.Proof.ReadP
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- Each operation's result at its own buffer is its function's value, at another buffer what was there: by rewriting, so that it
    reaches the operands of a concatenate (whose proof of fit depends on the operand list). -/
local macro "results_rw" : tactic =>
  `(tactic| repeat (first
      | rw [nullary_result] | rw [unary_result] | rw [binary_result] | rw [nary_result]
      | (rw [nullary_result_ne]; rotate_left; decide)
      | (rw [unary_result_ne]; rotate_left; decide)
      | (rw [binary_result_ne]; rotate_left; decide)
      | (rw [nary_result_ne]; rotate_left; decide)))

/-- The fourth layer of @main: from the broadcasts that feed its concatenate to the sum that writes `main_v44`. -/
abbrev L4 : List (HloOp τ sig (Elt F)) :=
  [ unary main_arg0 main_v32 (broadcastInDim S1x16384x128 ![1, 2] bcast_S16384x128_S1x16384x128_1_2 : (⟨S16384x128, .f32⟩ : BufTy).Contents (Elt F) → (⟨S1x16384x128, .f32⟩ : BufTy).Contents (Elt F)),
    unary main_v8 main_v33 (broadcastInDim S1x16384x128 ![1, 2] bcast_S16384x128_S1x16384x128_1_2 : (⟨S16384x128, .f32⟩ : BufTy).Contents (Elt F) → (⟨S1x16384x128, .f32⟩ : BufTy).Contents (Elt F)),
    unary main_v19 main_v34 (broadcastInDim S1x16384x128 ![1, 2] bcast_S16384x128_S1x16384x128_1_2 : (⟨S16384x128, .f32⟩ : BufTy).Contents (Elt F) → (⟨S1x16384x128, .f32⟩ : BufTy).Contents (Elt F)),
    unary main_v31 main_v35 (broadcastInDim S1x16384x128 ![1, 2] bcast_S16384x128_S1x16384x128_1_2 : (⟨S16384x128, .f32⟩ : BufTy).Contents (Elt F) → (⟨S1x16384x128, .f32⟩ : BufTy).Contents (Elt F)),
    nary ![main_v32, main_v33, main_v34, main_v35] main_v36 (fun u => concatenate S4x16384x128 0 [⟨S1x16384x128, u 0⟩, ⟨S1x16384x128, u 1⟩, ⟨S1x16384x128, u 2⟩, ⟨S1x16384x128, u 3⟩] concatenates_S1x16384x128_S1x16384x128_S1x16384x128_S1x16384x128_S4x16384x128_d0),
    unary main_arg1 main_v37 ((extractStridedSlice S4x128x128 ![6, 0, 0] · slices_S66x128x128_S4x128x128_6_0_0) : (⟨S66x128x128, .f32⟩ : BufTy).Contents (Elt F) → (⟨S4x128x128, .f32⟩ : BufTy).Contents (Elt F)),
    unary main_arg2 main_v38 ((extractStridedSlice S4x128 ![6, 0] · slices_S66x128_S4x128_6_0) : (⟨S66x128, .f32⟩ : BufTy).Contents (Elt F) → (⟨S4x128, .f32⟩ : BufTy).Contents (Elt F)),
    binary main_v36 main_v37 main_v39 ((fun l r => Host.dotGeneral dot_S4x16384x128_S4x128x128_S4x16384x128_2_1_1_2_0_0 none l r) : (⟨S4x16384x128, .f32⟩ : BufTy).Contents (Elt F) → (⟨S4x128x128, .f32⟩ : BufTy).Contents (Elt F) → (⟨S4x16384x128, .f32⟩ : BufTy).Contents (Elt F)),
    unary main_v38 main_v40 (broadcastInDim S4x1x128 ![0, 2] bcast_S4x128_S4x1x128_0_2 : (⟨S4x128, .f32⟩ : BufTy).Contents (Elt F) → (⟨S4x1x128, .f32⟩ : BufTy).Contents (Elt F)),
    unary main_v40 main_v41 (broadcastInDim S4x16384x128 ![0, 1, 2] bcast_S4x1x128_S4x16384x128_0_1_2 : (⟨S4x1x128, .f32⟩ : BufTy).Contents (Elt F) → (⟨S4x16384x128, .f32⟩ : BufTy).Contents (Elt F)),
    binary main_v39 main_v41 main_v42 (addf : (⟨S4x16384x128, .f32⟩ : BufTy).Contents (Elt F) → (⟨S4x16384x128, .f32⟩ : BufTy).Contents (Elt F) → (⟨S4x16384x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S4x16384x128, .f32⟩) main_call3_v0) (broadcastInDim S4x16384x128 ![] bcast_S_S4x16384x128),
    TRef.binary (TRef.of (T := ⟨S4x16384x128, .f32⟩) main_v42) (TRef.of (T := ⟨S4x16384x128, .f32⟩) main_call3_v0) (TRef.of (T := ⟨S4x16384x128, .f32⟩) main_v43) maximumf,
    nullary main_cst_2 (constant S_ .f32 0x00000000#32),
    binary main_v43 main_cst_2 main_v44 ((fun x v => Host.reduceAdd x v reducesTo_S4x16384x128_S16384x128_d0 h_S_) : (⟨S4x16384x128, .f32⟩ : BufTy).Contents (Elt F) → (⟨S_, .f32⟩ : BufTy).Contents (Elt F) → (⟨S16384x128, .f32⟩ : BufTy).Contents (Elt F)) ]

theorem L4_sub : (L4 : List (HloOp τ sig (Elt F))).Forall fun op => op.bufs ⊆ tcRefs τ sig :=
  ⟨unary_bufs_sub .., unary_bufs_sub .., unary_bufs_sub .., unary_bufs_sub .., nary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub ..⟩

theorem L4_fresh : ∀ op ∈ (L4 : List (HloOp τ sig (Elt F))), op.fresh = ∅ := by
  intro _ h; (repeat (cases h with | head => rfl | tail _ h => ?_)); exact nomatch h

/-- The references the fourth layer writes. -/
abbrev W4 : List (Ref sig .tc) := [main_v32, main_v33, main_v34, main_v35, main_v36, main_v37, main_v38, main_v39, main_v40, main_v41, main_v42, main_call3_cst, main_call3_v0, main_v43, main_cst_2, main_v44]

theorem L4_writes : (L4 : List (HloOp τ sig (Elt F))).Forall fun op => op.writes ⊆ (W4.map (Proc.devRef (τ := τ) .tc)).toFinset := by
  simp only [List.Forall]
  repeat' apply And.intro
  all_goals (simp only [nullary_writes, unary_writes, binary_writes, nary_writes, Finset.singleton_subset_iff, List.mem_toFinset]; exact List.mem_map_of_mem (by decide))

/-- A buffer the fourth layer does not write keeps its contents through it. -/
theorem keep4 (V : Valuation τ sig (Elt F)) {r : Ref sig .tc} (h : r ∉ W4) :
    after L4 V (Proc.devRef .tc r) = V (Proc.devRef .tc r) :=
  after_of_writes_sub L4 V L4_writes h

/-- From the arguments and the first three layers' sums, the fourth layer leaves `main_v44` at its staged value. -/
theorem sum4 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (h0 : V (Proc.devRef .tc main_arg0) = x0) (h1 : V (Proc.devRef .tc main_arg1) = x1) (h2 : V (Proc.devRef .tc main_arg2) = x2)
    (g1 : V (Proc.devRef .tc main_v8) = ReadP.val_main_v8 (F := F) x0 x1 x2)
    (g2 : V (Proc.devRef .tc main_v19) = ReadP.val_main_v19 (F := F) x0 x1 x2)
    (g3 : V (Proc.devRef .tc main_v31) = ReadP.val_main_v31 (F := F) x0 x1 x2) :
    after L4 V (Proc.devRef .tc main_v44) = ReadP.val_main_v44 (F := F) x0 x1 x2 := by
  after_results_simp
  dsimp only [Matrix.cons_val]
  results_rw
  rw [h0, h1, h2, g1, g2, g3]
  unfold ReadP.val_main_v44 ReadP.val_main_v43 ReadP.val_main_v42 ReadP.val_main_v41 ReadP.val_main_v40 ReadP.val_main_v39 ReadP.val_main_v38 ReadP.val_main_v37 ReadP.val_main_v36 ReadP.val_main_v35 ReadP.val_main_v34 ReadP.val_main_v33 ReadP.val_main_v32 ReadP.val_main_call3_v0 ReadP.val_main_call3_cst ReadP.val_main_cst_2
  rfl

end Cert.ReferenceIdeal.RunP

end
-- ==== Proof.RefRunLayer5.lean ====
import proofs.«165653_j38268158607515_1_alg».proof.Proof.ReadP
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- Each operation's result at its own buffer is its function's value, at another buffer what was there: by rewriting, so that it
    reaches the operands of a concatenate (whose proof of fit depends on the operand list). -/
local macro "results_rw" : tactic =>
  `(tactic| repeat (first
      | rw [nullary_result] | rw [unary_result] | rw [binary_result] | rw [nary_result]
      | (rw [nullary_result_ne]; rotate_left; decide)
      | (rw [unary_result_ne]; rotate_left; decide)
      | (rw [binary_result_ne]; rotate_left; decide)
      | (rw [nary_result_ne]; rotate_left; decide)))

/-- The fifth layer of @main: from the broadcasts that feed its concatenate to the sum that writes `main_v58`. -/
abbrev L5 : List (HloOp τ sig (Elt F)) :=
  [ unary main_arg0 main_v45 (broadcastInDim S1x16384x128 ![1, 2] bcast_S16384x128_S1x16384x128_1_2 : (⟨S16384x128, .f32⟩ : BufTy).Contents (Elt F) → (⟨S1x16384x128, .f32⟩ : BufTy).Contents (Elt F)),
    unary main_v8 main_v46 (broadcastInDim S1x16384x128 ![1, 2] bcast_S16384x128_S1x16384x128_1_2 : (⟨S16384x128, .f32⟩ : BufTy).Contents (Elt F) → (⟨S1x16384x128, .f32⟩ : BufTy).Contents (Elt F)),
    unary main_v19 main_v47 (broadcastInDim S1x16384x128 ![1, 2] bcast_S16384x128_S1x16384x128_1_2 : (⟨S16384x128, .f32⟩ : BufTy).Contents (Elt F) → (⟨S1x16384x128, .f32⟩ : BufTy).Contents (Elt F)),
    unary main_v31 main_v48 (broadcastInDim S1x16384x128 ![1, 2] bcast_S16384x128_S1x16384x128_1_2 : (⟨S16384x128, .f32⟩ : BufTy).Contents (Elt F) → (⟨S1x16384x128, .f32⟩ : BufTy).Contents (Elt F)),
    unary main_v44 main_v49 (broadcastInDim S1x16384x128 ![1, 2] bcast_S16384x128_S1x16384x128_1_2 : (⟨S16384x128, .f32⟩ : BufTy).Contents (Elt F) → (⟨S1x16384x128, .f32⟩ : BufTy).Contents (Elt F)),
    nary ![main_v45, main_v46, main_v47, main_v48, main_v49] main_v50 (fun u => concatenate S5x16384x128 0 [⟨S1x16384x128, u 0⟩, ⟨S1x16384x128, u 1⟩, ⟨S1x16384x128, u 2⟩, ⟨S1x16384x128, u 3⟩, ⟨S1x16384x128, u 4⟩] concatenates_S1x16384x128_S1x16384x128_S1x16384x128_S1x16384x128_S1x16384x128_S5x16384x128_d0),
    unary main_arg1 main_v51 ((extractStridedSlice S5x128x128 ![10, 0, 0] · slices_S66x128x128_S5x128x128_10_0_0) : (⟨S66x128x128, .f32⟩ : BufTy).Contents (Elt F) → (⟨S5x128x128, .f32⟩ : BufTy).Contents (Elt F)),
    unary main_arg2 main_v52 ((extractStridedSlice S5x128 ![10, 0] · slices_S66x128_S5x128_10_0) : (⟨S66x128, .f32⟩ : BufTy).Contents (Elt F) → (⟨S5x128, .f32⟩ : BufTy).Contents (Elt F)),
    binary main_v50 main_v51 main_v53 ((fun l r => Host.dotGeneral dot_S5x16384x128_S5x128x128_S5x16384x128_2_1_1_2_0_0 none l r) : (⟨S5x16384x128, .f32⟩ : BufTy).Contents (Elt F) → (⟨S5x128x128, .f32⟩ : BufTy).Contents (Elt F) → (⟨S5x16384x128, .f32⟩ : BufTy).Contents (Elt F)),
    unary main_v52 main_v54 (broadcastInDim S5x1x128 ![0, 2] bcast_S5x128_S5x1x128_0_2 : (⟨S5x128, .f32⟩ : BufTy).Contents (Elt F) → (⟨S5x1x128, .f32⟩ : BufTy).Contents (Elt F)),
    unary main_v54 main_v55 (broadcastInDim S5x16384x128 ![0, 1, 2] bcast_S5x1x128_S5x16384x128_0_1_2 : (⟨S5x1x128, .f32⟩ : BufTy).Contents (Elt F) → (⟨S5x16384x128, .f32⟩ : BufTy).Contents (Elt F)),
    binary main_v53 main_v55 main_v56 (addf : (⟨S5x16384x128, .f32⟩ : BufTy).Contents (Elt F) → (⟨S5x16384x128, .f32⟩ : BufTy).Contents (Elt F) → (⟨S5x16384x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S5x16384x128, .f32⟩) main_call4_v0) (broadcastInDim S5x16384x128 ![] bcast_S_S5x16384x128),
    TRef.binary (TRef.of (T := ⟨S5x16384x128, .f32⟩) main_v56) (TRef.of (T := ⟨S5x16384x128, .f32⟩) main_call4_v0) (TRef.of (T := ⟨S5x16384x128, .f32⟩) main_v57) maximumf,
    nullary main_cst_3 (constant S_ .f32 0x00000000#32),
    binary main_v57 main_cst_3 main_v58 ((fun x v => Host.reduceAdd x v reducesTo_S5x16384x128_S16384x128_d0 h_S_) : (⟨S5x16384x128, .f32⟩ : BufTy).Contents (Elt F) → (⟨S_, .f32⟩ : BufTy).Contents (Elt F) → (⟨S16384x128, .f32⟩ : BufTy).Contents (Elt F)) ]

theorem L5_sub : (L5 : List (HloOp τ sig (Elt F))).Forall fun op => op.bufs ⊆ tcRefs τ sig :=
  ⟨unary_bufs_sub .., unary_bufs_sub .., unary_bufs_sub .., unary_bufs_sub .., unary_bufs_sub .., nary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub ..⟩

theorem L5_fresh : ∀ op ∈ (L5 : List (HloOp τ sig (Elt F))), op.fresh = ∅ := by
  intro _ h; (repeat (cases h with | head => rfl | tail _ h => ?_)); exact nomatch h

/-- The references the fifth layer writes. -/
abbrev W5 : List (Ref sig .tc) := [main_v45, main_v46, main_v47, main_v48, main_v49, main_v50, main_v51, main_v52, main_v53, main_v54, main_v55, main_v56, main_call4_cst, main_call4_v0, main_v57, main_cst_3, main_v58]

theorem L5_writes : (L5 : List (HloOp τ sig (Elt F))).Forall fun op => op.writes ⊆ (W5.map (Proc.devRef (τ := τ) .tc)).toFinset := by
  simp only [List.Forall]
  repeat' apply And.intro
  all_goals (simp only [nullary_writes, unary_writes, binary_writes, nary_writes, Finset.singleton_subset_iff, List.mem_toFinset]; exact List.mem_map_of_mem (by decide))

/-- A buffer the fifth layer does not write keeps its contents through it. -/
theorem keep5 (V : Valuation τ sig (Elt F)) {r : Ref sig .tc} (h : r ∉ W5) :
    after L5 V (Proc.devRef .tc r) = V (Proc.devRef .tc r) :=
  after_of_writes_sub L5 V L5_writes h

/-- From the arguments and the first four layers' sums, the fifth layer leaves `main_v58` at its staged value. -/
theorem sum5 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (h0 : V (Proc.devRef .tc main_arg0) = x0) (h1 : V (Proc.devRef .tc main_arg1) = x1) (h2 : V (Proc.devRef .tc main_arg2) = x2)
    (g1 : V (Proc.devRef .tc main_v8) = ReadP.val_main_v8 (F := F) x0 x1 x2)
    (g2 : V (Proc.devRef .tc main_v19) = ReadP.val_main_v19 (F := F) x0 x1 x2)
    (g3 : V (Proc.devRef .tc main_v31) = ReadP.val_main_v31 (F := F) x0 x1 x2)
    (g4 : V (Proc.devRef .tc main_v44) = ReadP.val_main_v44 (F := F) x0 x1 x2) :
    after L5 V (Proc.devRef .tc main_v58) = ReadP.val_main_v58 (F := F) x0 x1 x2 := by
  after_results_simp
  dsimp only [Matrix.cons_val]
  results_rw
  rw [h0, h1, h2, g1, g2, g3, g4]
  unfold ReadP.val_main_v58 ReadP.val_main_v57 ReadP.val_main_v56 ReadP.val_main_v55 ReadP.val_main_v54 ReadP.val_main_v53 ReadP.val_main_v52 ReadP.val_main_v51 ReadP.val_main_v50 ReadP.val_main_v49 ReadP.val_main_v48 ReadP.val_main_v47 ReadP.val_main_v46 ReadP.val_main_v45 ReadP.val_main_call4_v0 ReadP.val_main_call4_cst ReadP.val_main_cst_3
  rfl

end Cert.ReferenceIdeal.RunP

end
-- ==== Proof.RefRunLayer6.lean ====
import proofs.«165653_j38268158607515_1_alg».proof.Proof.ReadP
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- Each operation's result at its own buffer is its function's value, at another buffer what was there: by rewriting, so that it
    reaches the operands of a concatenate (whose proof of fit depends on the operand list). -/
local macro "results_rw" : tactic =>
  `(tactic| repeat (first
      | rw [nullary_result] | rw [unary_result] | rw [binary_result] | rw [nary_result]
      | (rw [nullary_result_ne]; rotate_left; decide)
      | (rw [unary_result_ne]; rotate_left; decide)
      | (rw [binary_result_ne]; rotate_left; decide)
      | (rw [nary_result_ne]; rotate_left; decide)))

/-- The sixth layer of @main: from the broadcasts that feed its concatenate to the sum that writes `main_v73`. -/
abbrev L6 : List (HloOp τ sig (Elt F)) :=
  [ unary main_arg0 main_v59 (broadcastInDim S1x16384x128 ![1, 2] bcast_S16384x128_S1x16384x128_1_2 : (⟨S16384x128, .f32⟩ : BufTy).Contents (Elt F) → (⟨S1x16384x128, .f32⟩ : BufTy).Contents (Elt F)),
    unary main_v8 main_v60 (broadcastInDim S1x16384x128 ![1, 2] bcast_S16384x128_S1x16384x128_1_2 : (⟨S16384x128, .f32⟩ : BufTy).Contents (Elt F) → (⟨S1x16384x128, .f32⟩ : BufTy).Contents (Elt F)),
    unary main_v19 main_v61 (broadcastInDim S1x16384x128 ![1, 2] bcast_S16384x128_S1x16384x128_1_2 : (⟨S16384x128, .f32⟩ : BufTy).Contents (Elt F) → (⟨S1x16384x128, .f32⟩ : BufTy).Contents (Elt F)),
    unary main_v31 main_v62 (broadcastInDim S1x16384x128 ![1, 2] bcast_S16384x128_S1x16384x128_1_2 : (⟨S16384x128, .f32⟩ : BufTy).Contents (Elt F) → (⟨S1x16384x128, .f32⟩ : BufTy).Contents (Elt F)),
    unary main_v44 main_v63 (broadcastInDim S1x16384x128 ![1, 2] bcast_S16384x128_S1x16384x128_1_2 : (⟨S16384x128, .f32⟩ : BufTy).Contents (Elt F) → (⟨S1x16384x128, .f32⟩ : BufTy).Contents (Elt F)),
    unary main_v58 main_v64 (broadcastInDim S1x16384x128 ![1, 2] bcast_S16384x128_S1x16384x128_1_2 : (⟨S16384x128, .f32⟩ : BufTy).Contents (Elt F) → (⟨S1x16384x128, .f32⟩ : BufTy).Contents (Elt F)),
    nary ![main_v59, main_v60, main_v61, main_v62, main_v63, main_v64] main_v65 (fun u => concatenate S6x16384x128 0 [⟨S1x16384x128, u 0⟩, ⟨S1x16384x128, u 1⟩, ⟨S1x16384x128, u 2⟩, ⟨S1x16384x128, u 3⟩, ⟨S1x16384x128, u 4⟩, ⟨S1x16384x128, u 5⟩] concatenates_S1x16384x128_S1x16384x128_S1x16384x128_S1x16384x128_S1x16384x128_S1x16384x128_S6x16384x128_d0),
    unary main_arg1 main_v66 ((extractStridedSlice S6x128x128 ![15, 0, 0] · slices_S66x128x128_S6x128x128_15_0_0) : (⟨S66x128x128, .f32⟩ : BufTy).Contents (Elt F) → (⟨S6x128x128, .f32⟩ : BufTy).Contents (Elt F)),
    unary main_arg2 main_v67 ((extractStridedSlice S6x128 ![15, 0] · slices_S66x128_S6x128_15_0) : (⟨S66x128, .f32⟩ : BufTy).Contents (Elt F) → (⟨S6x128, .f32⟩ : BufTy).Contents (Elt F)),
    binary main_v65 main_v66 main_v68 ((fun l r => Host.dotGeneral dot_S6x16384x128_S6x128x128_S6x16384x128_2_1_1_2_0_0 none l r) : (⟨S6x16384x128, .f32⟩ : BufTy).Contents (Elt F) → (⟨S6x128x128, .f32⟩ : BufTy).Contents (Elt F) → (⟨S6x16384x128, .f32⟩ : BufTy).Contents (Elt F)),
    unary main_v67 main_v69 (broadcastInDim S6x1x128 ![0, 2] bcast_S6x128_S6x1x128_0_2 : (⟨S6x128, .f32⟩ : BufTy).Contents (Elt F) → (⟨S6x1x128, .f32⟩ : BufTy).Contents (Elt F)),
    unary main_v69 main_v70 (broadcastInDim S6x16384x128 ![0, 1, 2] bcast_S6x1x128_S6x16384x128_0_1_2 : (⟨S6x1x128, .f32⟩ : BufTy).Contents (Elt F) → (⟨S6x16384x128, .f32⟩ : BufTy).Contents (Elt F)),
    binary main_v68 main_v70 main_v71 (addf : (⟨S6x16384x128, .f32⟩ : BufTy).Contents (Elt F) → (⟨S6x16384x128, .f32⟩ : BufTy).Contents (Elt F) → (⟨S6x16384x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S6x16384x128, .f32⟩) main_call5_v0) (broadcastInDim S6x16384x128 ![] bcast_S_S6x16384x128),
    TRef.binary (TRef.of (T := ⟨S6x16384x128, .f32⟩) main_v71) (TRef.of (T := ⟨S6x16384x128, .f32⟩) main_call5_v0) (TRef.of (T := ⟨S6x16384x128, .f32⟩) main_v72) maximumf,
    nullary main_cst_4 (constant S_ .f32 0x00000000#32),
    binary main_v72 main_cst_4 main_v73 ((fun x v => Host.reduceAdd x v reducesTo_S6x16384x128_S16384x128_d0 h_S_) : (⟨S6x16384x128, .f32⟩ : BufTy).Contents (Elt F) → (⟨S_, .f32⟩ : BufTy).Contents (Elt F) → (⟨S16384x128, .f32⟩ : BufTy).Contents (Elt F)) ]

theorem L6_sub : (L6 : List (HloOp τ sig (Elt F))).Forall fun op => op.bufs ⊆ tcRefs τ sig :=
  ⟨unary_bufs_sub .., unary_bufs_sub .., unary_bufs_sub .., unary_bufs_sub .., unary_bufs_sub .., unary_bufs_sub .., nary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub ..⟩

theorem L6_fresh : ∀ op ∈ (L6 : List (HloOp τ sig (Elt F))), op.fresh = ∅ := by
  intro _ h; (repeat (cases h with | head => rfl | tail _ h => ?_)); exact nomatch h

/-- The references the sixth layer writes. -/
abbrev W6 : List (Ref sig .tc) := [main_v59, main_v60, main_v61, main_v62, main_v63, main_v64, main_v65, main_v66, main_v67, main_v68, main_v69, main_v70, main_v71, main_call5_cst, main_call5_v0, main_v72, main_cst_4, main_v73]

theorem L6_writes : (L6 : List (HloOp τ sig (Elt F))).Forall fun op => op.writes ⊆ (W6.map (Proc.devRef (τ := τ) .tc)).toFinset := by
  simp only [List.Forall]
  repeat' apply And.intro
  all_goals (simp only [nullary_writes, unary_writes, binary_writes, nary_writes, Finset.singleton_subset_iff, List.mem_toFinset]; exact List.mem_map_of_mem (by decide))

/-- A buffer the sixth layer does not write keeps its contents through it. -/
theorem keep6 (V : Valuation τ sig (Elt F)) {r : Ref sig .tc} (h : r ∉ W6) :
    after L6 V (Proc.devRef .tc r) = V (Proc.devRef .tc r) :=
  after_of_writes_sub L6 V L6_writes h

/-- From the arguments and the first five layers' sums, the sixth layer leaves `main_v73` at its staged value. -/
theorem sum6 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (h0 : V (Proc.devRef .tc main_arg0) = x0) (h1 : V (Proc.devRef .tc main_arg1) = x1) (h2 : V (Proc.devRef .tc main_arg2) = x2)
    (g1 : V (Proc.devRef .tc main_v8) = ReadP.val_main_v8 (F := F) x0 x1 x2)
    (g2 : V (Proc.devRef .tc main_v19) = ReadP.val_main_v19 (F := F) x0 x1 x2)
    (g3 : V (Proc.devRef .tc main_v31) = ReadP.val_main_v31 (F := F) x0 x1 x2)
    (g4 : V (Proc.devRef .tc main_v44) = ReadP.val_main_v44 (F := F) x0 x1 x2)
    (g5 : V (Proc.devRef .tc main_v58) = ReadP.val_main_v58 (F := F) x0 x1 x2) :
    after L6 V (Proc.devRef .tc main_v73) = ReadP.val_main_v73 (F := F) x0 x1 x2 := by
  after_results_simp
  dsimp only [Matrix.cons_val]
  results_rw
  rw [h0, h1, h2, g1, g2, g3, g4, g5]
  unfold ReadP.val_main_v73 ReadP.val_main_v72 ReadP.val_main_v71 ReadP.val_main_v70 ReadP.val_main_v69 ReadP.val_main_v68 ReadP.val_main_v67 ReadP.val_main_v66 ReadP.val_main_v65 ReadP.val_main_v64 ReadP.val_main_v63 ReadP.val_main_v62 ReadP.val_main_v61 ReadP.val_main_v60 ReadP.val_main_v59 ReadP.val_main_call5_v0 ReadP.val_main_call5_cst ReadP.val_main_cst_4
  rfl

end Cert.ReferenceIdeal.RunP

end
-- ==== Proof.RefRunLayer7.lean ====
import proofs.«165653_j38268158607515_1_alg».proof.Proof.ReadP
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- Each operation's result at its own buffer is its function's value, at another buffer what was there: by rewriting, so that it
    reaches the operands of a concatenate (whose proof of fit depends on the operand list). -/
local macro "results_rw" : tactic =>
  `(tactic| repeat (first
      | rw [nullary_result] | rw [unary_result] | rw [binary_result] | rw [nary_result]
      | (rw [nullary_result_ne]; rotate_left; decide)
      | (rw [unary_result_ne]; rotate_left; decide)
      | (rw [binary_result_ne]; rotate_left; decide)
      | (rw [nary_result_ne]; rotate_left; decide)))

/-- The seventh layer of @main: from the broadcasts that feed its concatenate to the sum that writes `main_v89`. -/
abbrev L7 : List (HloOp τ sig (Elt F)) :=
  [ unary main_arg0 main_v74 (broadcastInDim S1x16384x128 ![1, 2] bcast_S16384x128_S1x16384x128_1_2 : (⟨S16384x128, .f32⟩ : BufTy).Contents (Elt F) → (⟨S1x16384x128, .f32⟩ : BufTy).Contents (Elt F)),
    unary main_v8 main_v75 (broadcastInDim S1x16384x128 ![1, 2] bcast_S16384x128_S1x16384x128_1_2 : (⟨S16384x128, .f32⟩ : BufTy).Contents (Elt F) → (⟨S1x16384x128, .f32⟩ : BufTy).Contents (Elt F)),
    unary main_v19 main_v76 (broadcastInDim S1x16384x128 ![1, 2] bcast_S16384x128_S1x16384x128_1_2 : (⟨S16384x128, .f32⟩ : BufTy).Contents (Elt F) → (⟨S1x16384x128, .f32⟩ : BufTy).Contents (Elt F)),
    unary main_v31 main_v77 (broadcastInDim S1x16384x128 ![1, 2] bcast_S16384x128_S1x16384x128_1_2 : (⟨S16384x128, .f32⟩ : BufTy).Contents (Elt F) → (⟨S1x16384x128, .f32⟩ : BufTy).Contents (Elt F)),
    unary main_v44 main_v78 (broadcastInDim S1x16384x128 ![1, 2] bcast_S16384x128_S1x16384x128_1_2 : (⟨S16384x128, .f32⟩ : BufTy).Contents (Elt F) → (⟨S1x16384x128, .f32⟩ : BufTy).Contents (Elt F)),
    unary main_v58 main_v79 (broadcastInDim S1x16384x128 ![1, 2] bcast_S16384x128_S1x16384x128_1_2 : (⟨S16384x128, .f32⟩ : BufTy).Contents (Elt F) → (⟨S1x16384x128, .f32⟩ : BufTy).Contents (Elt F)),
    unary main_v73 main_v80 (broadcastInDim S1x16384x128 ![1, 2] bcast_S16384x128_S1x16384x128_1_2 : (⟨S16384x128, .f32⟩ : BufTy).Contents (Elt F) → (⟨S1x16384x128, .f32⟩ : BufTy).Contents (Elt F)),
    nary ![main_v74, main_v75, main_v76, main_v77, main_v78, main_v79, main_v80] main_v81 (fun u => concatenate S7x16384x128 0 [⟨S1x16384x128, u 0⟩, ⟨S1x16384x128, u 1⟩, ⟨S1x16384x128, u 2⟩, ⟨S1x16384x128, u 3⟩, ⟨S1x16384x128, u 4⟩, ⟨S1x16384x128, u 5⟩, ⟨S1x16384x128, u 6⟩] concatenates_S1x16384x128_S1x16384x128_S1x16384x128_S1x16384x128_S1x16384x128_S1x16384x128_S1x16384x128_S7x16384x128_d0),
    unary main_arg1 main_v82 ((extractStridedSlice S7x128x128 ![21, 0, 0] · slices_S66x128x128_S7x128x128_21_0_0) : (⟨S66x128x128, .f32⟩ : BufTy).Contents (Elt F) → (⟨S7x128x128, .f32⟩ : BufTy).Contents (Elt F)),
    unary main_arg2 main_v83 ((extractStridedSlice S7x128 ![21, 0] · slices_S66x128_S7x128_21_0) : (⟨S66x128, .f32⟩ : BufTy).Contents (Elt F) → (⟨S7x128, .f32⟩ : BufTy).Contents (Elt F)),
    binary main_v81 main_v82 main_v84 ((fun l r => Host.dotGeneral dot_S7x16384x128_S7x128x128_S7x16384x128_2_1_1_2_0_0 none l r) : (⟨S7x16384x128, .f32⟩ : BufTy).Contents (Elt F) → (⟨S7x128x128, .f32⟩ : BufTy).Contents (Elt F) → (⟨S7x16384x128, .f32⟩ : BufTy).Contents (Elt F)),
    unary main_v83 main_v85 (broadcastInDim S7x1x128 ![0, 2] bcast_S7x128_S7x1x128_0_2 : (⟨S7x128, .f32⟩ : BufTy).Contents (Elt F) → (⟨S7x1x128, .f32⟩ : BufTy).Contents (Elt F)),
    unary main_v85 main_v86 (broadcastInDim S7x16384x128 ![0, 1, 2] bcast_S7x1x128_S7x16384x128_0_1_2 : (⟨S7x1x128, .f32⟩ : BufTy).Contents (Elt F) → (⟨S7x16384x128, .f32⟩ : BufTy).Contents (Elt F)),
    binary main_v84 main_v86 main_v87 (addf : (⟨S7x16384x128, .f32⟩ : BufTy).Contents (Elt F) → (⟨S7x16384x128, .f32⟩ : BufTy).Contents (Elt F) → (⟨S7x16384x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S7x16384x128, .f32⟩) main_call6_v0) (broadcastInDim S7x16384x128 ![] bcast_S_S7x16384x128),
    TRef.binary (TRef.of (T := ⟨S7x16384x128, .f32⟩) main_v87) (TRef.of (T := ⟨S7x16384x128, .f32⟩) main_call6_v0) (TRef.of (T := ⟨S7x16384x128, .f32⟩) main_v88) maximumf,
    nullary main_cst_5 (constant S_ .f32 0x00000000#32),
    binary main_v88 main_cst_5 main_v89 ((fun x v => Host.reduceAdd x v reducesTo_S7x16384x128_S16384x128_d0 h_S_) : (⟨S7x16384x128, .f32⟩ : BufTy).Contents (Elt F) → (⟨S_, .f32⟩ : BufTy).Contents (Elt F) → (⟨S16384x128, .f32⟩ : BufTy).Contents (Elt F)) ]

theorem L7_sub : (L7 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., nary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub ..⟩

theorem L7_fresh : ∀ op ∈ (L7 : List (HloOp τ sig (Elt F))), op.fresh = ∅ := by
  intro _ h; (repeat (cases h with | head => rfl | tail _ h => ?_)); exact nomatch h

/-- The references the seventh layer writes. -/
abbrev W7 : List (Ref sig .tc) := [main_v74, main_v75, main_v76, main_v77, main_v78, main_v79, main_v80, main_v81, main_v82, main_v83, main_v84, main_v85, main_v86, main_v87, main_call6_cst, main_call6_v0, main_v88, main_cst_5, main_v89]

theorem L7_writes : (L7 : List (HloOp τ sig (Elt F))).Forall fun op => op.writes ⊆ (W7.map (Proc.devRef (τ := τ) .tc)).toFinset := by
  simp only [List.Forall]
  repeat' apply And.intro
  all_goals (simp only [nullary_writes, unary_writes, binary_writes, nary_writes, Finset.singleton_subset_iff, List.mem_toFinset]; exact List.mem_map_of_mem (by decide))

/-- A buffer the seventh layer does not write keeps its contents through it. -/
theorem keep7 (V : Valuation τ sig (Elt F)) {r : Ref sig .tc} (h : r ∉ W7) :
    after L7 V (Proc.devRef .tc r) = V (Proc.devRef .tc r) :=
  after_of_writes_sub L7 V L7_writes h

/-- From the arguments and the first six layers' sums, the seventh layer leaves `main_v89` at its staged value. -/
theorem sum7 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (h0 : V (Proc.devRef .tc main_arg0) = x0) (h1 : V (Proc.devRef .tc main_arg1) = x1) (h2 : V (Proc.devRef .tc main_arg2) = x2)
    (g1 : V (Proc.devRef .tc main_v8) = ReadP.val_main_v8 (F := F) x0 x1 x2)
    (g2 : V (Proc.devRef .tc main_v19) = ReadP.val_main_v19 (F := F) x0 x1 x2)
    (g3 : V (Proc.devRef .tc main_v31) = ReadP.val_main_v31 (F := F) x0 x1 x2)
    (g4 : V (Proc.devRef .tc main_v44) = ReadP.val_main_v44 (F := F) x0 x1 x2)
    (g5 : V (Proc.devRef .tc main_v58) = ReadP.val_main_v58 (F := F) x0 x1 x2)
    (g6 : V (Proc.devRef .tc main_v73) = ReadP.val_main_v73 (F := F) x0 x1 x2) :
    after L7 V (Proc.devRef .tc main_v89) = ReadP.val_main_v89 (F := F) x0 x1 x2 := by
  after_results_simp
  dsimp only [Matrix.cons_val]
  results_rw
  rw [h0, h1, h2, g1, g2, g3, g4, g5, g6]
  unfold ReadP.val_main_v89 ReadP.val_main_v88 ReadP.val_main_v87 ReadP.val_main_v86 ReadP.val_main_v85 ReadP.val_main_v84 ReadP.val_main_v83 ReadP.val_main_v82 ReadP.val_main_v81 ReadP.val_main_v80 ReadP.val_main_v79 ReadP.val_main_v78 ReadP.val_main_v77 ReadP.val_main_v76 ReadP.val_main_v75 ReadP.val_main_v74 ReadP.val_main_call6_v0 ReadP.val_main_call6_cst ReadP.val_main_cst_5
  rfl

end Cert.ReferenceIdeal.RunP

end
-- ==== Proof.RefRunLayer8.lean ====
import proofs.«165653_j38268158607515_1_alg».proof.Proof.ReadP
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- Each operation's result at its own buffer is its function's value, at another buffer what was there: by rewriting, so that it
    reaches the operands of a concatenate (whose proof of fit depends on the operand list). -/
local macro "results_rw" : tactic =>
  `(tactic| repeat (first
      | rw [nullary_result] | rw [unary_result] | rw [binary_result] | rw [nary_result]
      | (rw [nullary_result_ne]; rotate_left; decide)
      | (rw [unary_result_ne]; rotate_left; decide)
      | (rw [binary_result_ne]; rotate_left; decide)
      | (rw [nary_result_ne]; rotate_left; decide)))

/-- The eighth layer of @main: from the broadcasts that feed its concatenate to the sum that writes `main_v106`. -/
abbrev L8 : List (HloOp τ sig (Elt F)) :=
  [ unary main_arg0 main_v90 (broadcastInDim S1x16384x128 ![1, 2] bcast_S16384x128_S1x16384x128_1_2 : (⟨S16384x128, .f32⟩ : BufTy).Contents (Elt F) → (⟨S1x16384x128, .f32⟩ : BufTy).Contents (Elt F)),
    unary main_v8 main_v91 (broadcastInDim S1x16384x128 ![1, 2] bcast_S16384x128_S1x16384x128_1_2 : (⟨S16384x128, .f32⟩ : BufTy).Contents (Elt F) → (⟨S1x16384x128, .f32⟩ : BufTy).Contents (Elt F)),
    unary main_v19 main_v92 (broadcastInDim S1x16384x128 ![1, 2] bcast_S16384x128_S1x16384x128_1_2 : (⟨S16384x128, .f32⟩ : BufTy).Contents (Elt F) → (⟨S1x16384x128, .f32⟩ : BufTy).Contents (Elt F)),
    unary main_v31 main_v93 (broadcastInDim S1x16384x128 ![1, 2] bcast_S16384x128_S1x16384x128_1_2 : (⟨S16384x128, .f32⟩ : BufTy).Contents (Elt F) → (⟨S1x16384x128, .f32⟩ : BufTy).Contents (Elt F)),
    unary main_v44 main_v94 (broadcastInDim S1x16384x128 ![1, 2] bcast_S16384x128_S1x16384x128_1_2 : (⟨S16384x128, .f32⟩ : BufTy).Contents (Elt F) → (⟨S1x16384x128, .f32⟩ : BufTy).Contents (Elt F)),
    unary main_v58 main_v95 (broadcastInDim S1x16384x128 ![1, 2] bcast_S16384x128_S1x16384x128_1_2 : (⟨S16384x128, .f32⟩ : BufTy).Contents (Elt F) → (⟨S1x16384x128, .f32⟩ : BufTy).Contents (Elt F)),
    unary main_v73 main_v96 (broadcastInDim S1x16384x128 ![1, 2] bcast_S16384x128_S1x16384x128_1_2 : (⟨S16384x128, .f32⟩ : BufTy).Contents (Elt F) → (⟨S1x16384x128, .f32⟩ : BufTy).Contents (Elt F)),
    unary main_v89 main_v97 (broadcastInDim S1x16384x128 ![1, 2] bcast_S16384x128_S1x16384x128_1_2 : (⟨S16384x128, .f32⟩ : BufTy).Contents (Elt F) → (⟨S1x16384x128, .f32⟩ : BufTy).Contents (Elt F)),
    nary ![main_v90, main_v91, main_v92, main_v93, main_v94, main_v95, main_v96, main_v97] main_v98 (fun u => concatenate S8x16384x128 0 [⟨S1x16384x128, u 0⟩, ⟨S1x16384x128, u 1⟩, ⟨S1x16384x128, u 2⟩, ⟨S1x16384x128, u 3⟩, ⟨S1x16384x128, u 4⟩, ⟨S1x16384x128, u 5⟩, ⟨S1x16384x128, u 6⟩, ⟨S1x16384x128, u 7⟩] concatenates_S1x16384x128_S1x16384x128_S1x16384x128_S1x16384x128_S1x16384x128_S1x16384x128_S1x16384x128_S1x16384x128_S8x16384x128_d0),
    unary main_arg1 main_v99 ((extractStridedSlice S8x128x128 ![28, 0, 0] · slices_S66x128x128_S8x128x128_28_0_0) : (⟨S66x128x128, .f32⟩ : BufTy).Contents (Elt F) → (⟨S8x128x128, .f32⟩ : BufTy).Contents (Elt F)),
    unary main_arg2 main_v100 ((extractStridedSlice S8x128 ![28, 0] · slices_S66x128_S8x128_28_0) : (⟨S66x128, .f32⟩ : BufTy).Contents (Elt F) → (⟨S8x128, .f32⟩ : BufTy).Contents (Elt F)),
    binary main_v98 main_v99 main_v101 ((fun l r => Host.dotGeneral dot_S8x16384x128_S8x128x128_S8x16384x128_2_1_1_2_0_0 none l r) : (⟨S8x16384x128, .f32⟩ : BufTy).Contents (Elt F) → (⟨S8x128x128, .f32⟩ : BufTy).Contents (Elt F) → (⟨S8x16384x128, .f32⟩ : BufTy).Contents (Elt F)),
    unary main_v100 main_v102 (broadcastInDim S8x1x128 ![0, 2] bcast_S8x128_S8x1x128_0_2 : (⟨S8x128, .f32⟩ : BufTy).Contents (Elt F) → (⟨S8x1x128, .f32⟩ : BufTy).Contents (Elt F)),
    unary main_v102 main_v103 (broadcastInDim S8x16384x128 ![0, 1, 2] bcast_S8x1x128_S8x16384x128_0_1_2 : (⟨S8x1x128, .f32⟩ : BufTy).Contents (Elt F) → (⟨S8x16384x128, .f32⟩ : BufTy).Contents (Elt F)),
    binary main_v101 main_v103 main_v104 (addf : (⟨S8x16384x128, .f32⟩ : BufTy).Contents (Elt F) → (⟨S8x16384x128, .f32⟩ : BufTy).Contents (Elt F) → (⟨S8x16384x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8x16384x128, .f32⟩) main_call7_v0) (broadcastInDim S8x16384x128 ![] bcast_S_S8x16384x128),
    TRef.binary (TRef.of (T := ⟨S8x16384x128, .f32⟩) main_v104) (TRef.of (T := ⟨S8x16384x128, .f32⟩) main_call7_v0) (TRef.of (T := ⟨S8x16384x128, .f32⟩) main_v105) maximumf,
    nullary main_cst_6 (constant S_ .f32 0x00000000#32),
    binary main_v105 main_cst_6 main_v106 ((fun x v => Host.reduceAdd x v reducesTo_S8x16384x128_S16384x128_d0 h_S_) : (⟨S8x16384x128, .f32⟩ : BufTy).Contents (Elt F) → (⟨S_, .f32⟩ : BufTy).Contents (Elt F) → (⟨S16384x128, .f32⟩ : BufTy).Contents (Elt F)) ]

theorem L8_sub : (L8 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., nary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub ..⟩

theorem L8_fresh : ∀ op ∈ (L8 : List (HloOp τ sig (Elt F))), op.fresh = ∅ := by
  intro _ h; (repeat (cases h with | head => rfl | tail _ h => ?_)); exact nomatch h

/-- The references the eighth layer writes. -/
abbrev W8 : List (Ref sig .tc) := [main_v90, main_v91, main_v92, main_v93, main_v94, main_v95, main_v96, main_v97, main_v98, main_v99, main_v100, main_v101, main_v102, main_v103, main_v104, main_call7_cst, main_call7_v0, main_v105, main_cst_6, main_v106]

theorem L8_writes : (L8 : List (HloOp τ sig (Elt F))).Forall fun op => op.writes ⊆ (W8.map (Proc.devRef (τ := τ) .tc)).toFinset := by
  simp only [List.Forall]
  repeat' apply And.intro
  all_goals (simp only [nullary_writes, unary_writes, binary_writes, nary_writes, Finset.singleton_subset_iff, List.mem_toFinset]; exact List.mem_map_of_mem (by decide))

/-- A buffer the eighth layer does not write keeps its contents through it. -/
theorem keep8 (V : Valuation τ sig (Elt F)) {r : Ref sig .tc} (h : r ∉ W8) :
    after L8 V (Proc.devRef .tc r) = V (Proc.devRef .tc r) :=
  after_of_writes_sub L8 V L8_writes h

/-- From the arguments and the first seven layers' sums, the eighth layer leaves `main_v106` at its staged value. -/
theorem sum8 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (h0 : V (Proc.devRef .tc main_arg0) = x0) (h1 : V (Proc.devRef .tc main_arg1) = x1) (h2 : V (Proc.devRef .tc main_arg2) = x2)
    (g1 : V (Proc.devRef .tc main_v8) = ReadP.val_main_v8 (F := F) x0 x1 x2)
    (g2 : V (Proc.devRef .tc main_v19) = ReadP.val_main_v19 (F := F) x0 x1 x2)
    (g3 : V (Proc.devRef .tc main_v31) = ReadP.val_main_v31 (F := F) x0 x1 x2)
    (g4 : V (Proc.devRef .tc main_v44) = ReadP.val_main_v44 (F := F) x0 x1 x2)
    (g5 : V (Proc.devRef .tc main_v58) = ReadP.val_main_v58 (F := F) x0 x1 x2)
    (g6 : V (Proc.devRef .tc main_v73) = ReadP.val_main_v73 (F := F) x0 x1 x2)
    (g7 : V (Proc.devRef .tc main_v89) = ReadP.val_main_v89 (F := F) x0 x1 x2) :
    after L8 V (Proc.devRef .tc main_v106) = ReadP.val_main_v106 (F := F) x0 x1 x2 := by
  after_results_simp
  dsimp only [Matrix.cons_val]
  results_rw
  rw [h0, h1, h2, g1, g2, g3, g4, g5, g6, g7]
  unfold ReadP.val_main_v106 ReadP.val_main_v105 ReadP.val_main_v104 ReadP.val_main_v103 ReadP.val_main_v102 ReadP.val_main_v101 ReadP.val_main_v100 ReadP.val_main_v99 ReadP.val_main_v98 ReadP.val_main_v97 ReadP.val_main_v96 ReadP.val_main_v95 ReadP.val_main_v94 ReadP.val_main_v93 ReadP.val_main_v92 ReadP.val_main_v91 ReadP.val_main_v90 ReadP.val_main_call7_v0 ReadP.val_main_call7_cst ReadP.val_main_cst_6
  rfl

end Cert.ReferenceIdeal.RunP

end
-- ==== Proof.RefRunLayer9.lean ====
import proofs.«165653_j38268158607515_1_alg».proof.Proof.ReadP
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- Each operation's result at its own buffer is its function's value, at another buffer what was there: by rewriting, so that it
    reaches the operands of a concatenate (whose proof of fit depends on the operand list). -/
local macro "results_rw" : tactic =>
  `(tactic| repeat (first
      | rw [nullary_result] | rw [unary_result] | rw [binary_result] | rw [nary_result]
      | (rw [nullary_result_ne]; rotate_left; decide)
      | (rw [unary_result_ne]; rotate_left; decide)
      | (rw [binary_result_ne]; rotate_left; decide)
      | (rw [nary_result_ne]; rotate_left; decide)))

/-- The ninth layer of @main: from the broadcasts that feed its concatenate to the sum that writes `main_v124`. -/
abbrev L9 : List (HloOp τ sig (Elt F)) :=
  [ unary main_arg0 main_v107 (broadcastInDim S1x16384x128 ![1, 2] bcast_S16384x128_S1x16384x128_1_2 : (⟨S16384x128, .f32⟩ : BufTy).Contents (Elt F) → (⟨S1x16384x128, .f32⟩ : BufTy).Contents (Elt F)),
    unary main_v8 main_v108 (broadcastInDim S1x16384x128 ![1, 2] bcast_S16384x128_S1x16384x128_1_2 : (⟨S16384x128, .f32⟩ : BufTy).Contents (Elt F) → (⟨S1x16384x128, .f32⟩ : BufTy).Contents (Elt F)),
    unary main_v19 main_v109 (broadcastInDim S1x16384x128 ![1, 2] bcast_S16384x128_S1x16384x128_1_2 : (⟨S16384x128, .f32⟩ : BufTy).Contents (Elt F) → (⟨S1x16384x128, .f32⟩ : BufTy).Contents (Elt F)),
    unary main_v31 main_v110 (broadcastInDim S1x16384x128 ![1, 2] bcast_S16384x128_S1x16384x128_1_2 : (⟨S16384x128, .f32⟩ : BufTy).Contents (Elt F) → (⟨S1x16384x128, .f32⟩ : BufTy).Contents (Elt F)),
    unary main_v44 main_v111 (broadcastInDim S1x16384x128 ![1, 2] bcast_S16384x128_S1x16384x128_1_2 : (⟨S16384x128, .f32⟩ : BufTy).Contents (Elt F) → (⟨S1x16384x128, .f32⟩ : BufTy).Contents (Elt F)),
    unary main_v58 main_v112 (broadcastInDim S1x16384x128 ![1, 2] bcast_S16384x128_S1x16384x128_1_2 : (⟨S16384x128, .f32⟩ : BufTy).Contents (Elt F) → (⟨S1x16384x128, .f32⟩ : BufTy).Contents (Elt F)),
    unary main_v73 main_v113 (broadcastInDim S1x16384x128 ![1, 2] bcast_S16384x128_S1x16384x128_1_2 : (⟨S16384x128, .f32⟩ : BufTy).Contents (Elt F) → (⟨S1x16384x128, .f32⟩ : BufTy).Contents (Elt F)),
    unary main_v89 main_v114 (broadcastInDim S1x16384x128 ![1, 2] bcast_S16384x128_S1x16384x128_1_2 : (⟨S16384x128, .f32⟩ : BufTy).Contents (Elt F) → (⟨S1x16384x128, .f32⟩ : BufTy).Contents (Elt F)),
    unary main_v106 main_v115 (broadcastInDim S1x16384x128 ![1, 2] bcast_S16384x128_S1x16384x128_1_2 : (⟨S16384x128, .f32⟩ : BufTy).Contents (Elt F) → (⟨S1x16384x128, .f32⟩ : BufTy).Contents (Elt F)),
    nary ![main_v107, main_v108, main_v109, main_v110, main_v111, main_v112, main_v113, main_v114, main_v115] main_v116 (fun u => concatenate S9x16384x128 0 [⟨S1x16384x128, u 0⟩, ⟨S1x16384x128, u 1⟩, ⟨S1x16384x128, u 2⟩, ⟨S1x16384x128, u 3⟩, ⟨S1x16384x128, u 4⟩, ⟨S1x16384x128, u 5⟩, ⟨S1x16384x128, u 6⟩, ⟨S1x16384x128, u 7⟩, ⟨S1x16384x128, u 8⟩] concatenates_S1x16384x128_S1x16384x128_S1x16384x128_S1x16384x128_S1x16384x128_S1x16384x128_S1x16384x128_S1x16384x128_S1x16384x128_S9x16384x128_d0),
    unary main_arg1 main_v117 ((extractStridedSlice S9x128x128 ![36, 0, 0] · slices_S66x128x128_S9x128x128_36_0_0) : (⟨S66x128x128, .f32⟩ : BufTy).Contents (Elt F) → (⟨S9x128x128, .f32⟩ : BufTy).Contents (Elt F)),
    unary main_arg2 main_v118 ((extractStridedSlice S9x128 ![36, 0] · slices_S66x128_S9x128_36_0) : (⟨S66x128, .f32⟩ : BufTy).Contents (Elt F) → (⟨S9x128, .f32⟩ : BufTy).Contents (Elt F)),
    binary main_v116 main_v117 main_v119 ((fun l r => Host.dotGeneral dot_S9x16384x128_S9x128x128_S9x16384x128_2_1_1_2_0_0 none l r) : (⟨S9x16384x128, .f32⟩ : BufTy).Contents (Elt F) → (⟨S9x128x128, .f32⟩ : BufTy).Contents (Elt F) → (⟨S9x16384x128, .f32⟩ : BufTy).Contents (Elt F)),
    unary main_v118 main_v120 (broadcastInDim S9x1x128 ![0, 2] bcast_S9x128_S9x1x128_0_2 : (⟨S9x128, .f32⟩ : BufTy).Contents (Elt F) → (⟨S9x1x128, .f32⟩ : BufTy).Contents (Elt F)),
    unary main_v120 main_v121 (broadcastInDim S9x16384x128 ![0, 1, 2] bcast_S9x1x128_S9x16384x128_0_1_2 : (⟨S9x1x128, .f32⟩ : BufTy).Contents (Elt F) → (⟨S9x16384x128, .f32⟩ : BufTy).Contents (Elt F)),
    binary main_v119 main_v121 main_v122 (addf : (⟨S9x16384x128, .f32⟩ : BufTy).Contents (Elt F) → (⟨S9x16384x128, .f32⟩ : BufTy).Contents (Elt F) → (⟨S9x16384x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S9x16384x128, .f32⟩) main_call8_v0) (broadcastInDim S9x16384x128 ![] bcast_S_S9x16384x128),
    TRef.binary (TRef.of (T := ⟨S9x16384x128, .f32⟩) main_v122) (TRef.of (T := ⟨S9x16384x128, .f32⟩) main_call8_v0) (TRef.of (T := ⟨S9x16384x128, .f32⟩) main_v123) maximumf,
    nullary main_cst_7 (constant S_ .f32 0x00000000#32),
    binary main_v123 main_cst_7 main_v124 ((fun x v => Host.reduceAdd x v reducesTo_S9x16384x128_S16384x128_d0 h_S_) : (⟨S9x16384x128, .f32⟩ : BufTy).Contents (Elt F) → (⟨S_, .f32⟩ : BufTy).Contents (Elt F) → (⟨S16384x128, .f32⟩ : BufTy).Contents (Elt F)) ]

theorem L9_sub : (L9 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub ..⟩

theorem L9_fresh : ∀ op ∈ (L9 : List (HloOp τ sig (Elt F))), op.fresh = ∅ := by
  intro _ h; (repeat (cases h with | head => rfl | tail _ h => ?_)); exact nomatch h

/-- The references the ninth layer writes. -/
abbrev W9 : List (Ref sig .tc) := [main_v107, main_v108, main_v109, main_v110, main_v111, main_v112, main_v113, main_v114, main_v115, main_v116, main_v117, main_v118, main_v119, main_v120, main_v121, main_v122, main_call8_cst, main_call8_v0, main_v123, main_cst_7, main_v124]

theorem L9_writes : (L9 : List (HloOp τ sig (Elt F))).Forall fun op => op.writes ⊆ (W9.map (Proc.devRef (τ := τ) .tc)).toFinset := by
  simp only [List.Forall]
  repeat' apply And.intro
  all_goals (simp only [nullary_writes, unary_writes, binary_writes, nary_writes, Finset.singleton_subset_iff, List.mem_toFinset]; exact List.mem_map_of_mem (by decide))

/-- A buffer the ninth layer does not write keeps its contents through it. -/
theorem keep9 (V : Valuation τ sig (Elt F)) {r : Ref sig .tc} (h : r ∉ W9) :
    after L9 V (Proc.devRef .tc r) = V (Proc.devRef .tc r) :=
  after_of_writes_sub L9 V L9_writes h

/-- From the arguments and the first eight layers' sums, the ninth layer leaves `main_v124` at its staged value. -/
theorem sum9 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (h0 : V (Proc.devRef .tc main_arg0) = x0) (h1 : V (Proc.devRef .tc main_arg1) = x1) (h2 : V (Proc.devRef .tc main_arg2) = x2)
    (g1 : V (Proc.devRef .tc main_v8) = ReadP.val_main_v8 (F := F) x0 x1 x2)
    (g2 : V (Proc.devRef .tc main_v19) = ReadP.val_main_v19 (F := F) x0 x1 x2)
    (g3 : V (Proc.devRef .tc main_v31) = ReadP.val_main_v31 (F := F) x0 x1 x2)
    (g4 : V (Proc.devRef .tc main_v44) = ReadP.val_main_v44 (F := F) x0 x1 x2)
    (g5 : V (Proc.devRef .tc main_v58) = ReadP.val_main_v58 (F := F) x0 x1 x2)
    (g6 : V (Proc.devRef .tc main_v73) = ReadP.val_main_v73 (F := F) x0 x1 x2)
    (g7 : V (Proc.devRef .tc main_v89) = ReadP.val_main_v89 (F := F) x0 x1 x2)
    (g8 : V (Proc.devRef .tc main_v106) = ReadP.val_main_v106 (F := F) x0 x1 x2) :
    after L9 V (Proc.devRef .tc main_v124) = ReadP.val_main_v124 (F := F) x0 x1 x2 := by
  after_results_simp
  dsimp only [Matrix.cons_val]
  results_rw
  rw [h0, h1, h2, g1, g2, g3, g4, g5, g6, g7, g8]
  unfold ReadP.val_main_v124 ReadP.val_main_v123 ReadP.val_main_v122 ReadP.val_main_v121 ReadP.val_main_v120 ReadP.val_main_v119 ReadP.val_main_v118 ReadP.val_main_v117 ReadP.val_main_v116 ReadP.val_main_v115 ReadP.val_main_v114 ReadP.val_main_v113 ReadP.val_main_v112 ReadP.val_main_v111 ReadP.val_main_v110 ReadP.val_main_v109 ReadP.val_main_v108 ReadP.val_main_v107 ReadP.val_main_call8_v0 ReadP.val_main_call8_cst ReadP.val_main_cst_7
  rfl

end Cert.ReferenceIdeal.RunP

end
-- ==== Proof.RefRunLayer10.lean ====
import proofs.«165653_j38268158607515_1_alg».proof.Proof.ReadP
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- Each operation's result at its own buffer is its function's value, at another buffer what was there: by rewriting, so that it
    reaches the operands of a concatenate (whose proof of fit depends on the operand list). -/
local macro "results_rw" : tactic =>
  `(tactic| repeat (first
      | rw [nullary_result] | rw [unary_result] | rw [binary_result] | rw [nary_result]
      | (rw [nullary_result_ne]; rotate_left; decide)
      | (rw [unary_result_ne]; rotate_left; decide)
      | (rw [binary_result_ne]; rotate_left; decide)
      | (rw [nary_result_ne]; rotate_left; decide)))

/-- The tenth layer of @main: from the broadcasts that feed its concatenate to the sum that writes `main_v143`. -/
abbrev L10 : List (HloOp τ sig (Elt F)) :=
  [ unary main_arg0 main_v125 (broadcastInDim S1x16384x128 ![1, 2] bcast_S16384x128_S1x16384x128_1_2 : (⟨S16384x128, .f32⟩ : BufTy).Contents (Elt F) → (⟨S1x16384x128, .f32⟩ : BufTy).Contents (Elt F)),
    unary main_v8 main_v126 (broadcastInDim S1x16384x128 ![1, 2] bcast_S16384x128_S1x16384x128_1_2 : (⟨S16384x128, .f32⟩ : BufTy).Contents (Elt F) → (⟨S1x16384x128, .f32⟩ : BufTy).Contents (Elt F)),
    unary main_v19 main_v127 (broadcastInDim S1x16384x128 ![1, 2] bcast_S16384x128_S1x16384x128_1_2 : (⟨S16384x128, .f32⟩ : BufTy).Contents (Elt F) → (⟨S1x16384x128, .f32⟩ : BufTy).Contents (Elt F)),
    unary main_v31 main_v128 (broadcastInDim S1x16384x128 ![1, 2] bcast_S16384x128_S1x16384x128_1_2 : (⟨S16384x128, .f32⟩ : BufTy).Contents (Elt F) → (⟨S1x16384x128, .f32⟩ : BufTy).Contents (Elt F)),
    unary main_v44 main_v129 (broadcastInDim S1x16384x128 ![1, 2] bcast_S16384x128_S1x16384x128_1_2 : (⟨S16384x128, .f32⟩ : BufTy).Contents (Elt F) → (⟨S1x16384x128, .f32⟩ : BufTy).Contents (Elt F)),
    unary main_v58 main_v130 (broadcastInDim S1x16384x128 ![1, 2] bcast_S16384x128_S1x16384x128_1_2 : (⟨S16384x128, .f32⟩ : BufTy).Contents (Elt F) → (⟨S1x16384x128, .f32⟩ : BufTy).Contents (Elt F)),
    unary main_v73 main_v131 (broadcastInDim S1x16384x128 ![1, 2] bcast_S16384x128_S1x16384x128_1_2 : (⟨S16384x128, .f32⟩ : BufTy).Contents (Elt F) → (⟨S1x16384x128, .f32⟩ : BufTy).Contents (Elt F)),
    unary main_v89 main_v132 (broadcastInDim S1x16384x128 ![1, 2] bcast_S16384x128_S1x16384x128_1_2 : (⟨S16384x128, .f32⟩ : BufTy).Contents (Elt F) → (⟨S1x16384x128, .f32⟩ : BufTy).Contents (Elt F)),
    unary main_v106 main_v133 (broadcastInDim S1x16384x128 ![1, 2] bcast_S16384x128_S1x16384x128_1_2 : (⟨S16384x128, .f32⟩ : BufTy).Contents (Elt F) → (⟨S1x16384x128, .f32⟩ : BufTy).Contents (Elt F)),
    unary main_v124 main_v134 (broadcastInDim S1x16384x128 ![1, 2] bcast_S16384x128_S1x16384x128_1_2 : (⟨S16384x128, .f32⟩ : BufTy).Contents (Elt F) → (⟨S1x16384x128, .f32⟩ : BufTy).Contents (Elt F)),
    nary ![main_v125, main_v126, main_v127, main_v128, main_v129, main_v130, main_v131, main_v132, main_v133, main_v134] main_v135 (fun u => concatenate S10x16384x128 0 [⟨S1x16384x128, u 0⟩, ⟨S1x16384x128, u 1⟩, ⟨S1x16384x128, u 2⟩, ⟨S1x16384x128, u 3⟩, ⟨S1x16384x128, u 4⟩, ⟨S1x16384x128, u 5⟩, ⟨S1x16384x128, u 6⟩, ⟨S1x16384x128, u 7⟩, ⟨S1x16384x128, u 8⟩, ⟨S1x16384x128, u 9⟩] concatenates_S1x16384x128_S1x16384x128_S1x16384x128_S1x16384x128_S1x16384x128_S1x16384x128_S1x16384x128_S1x16384x128_S1x16384x128_S1x16384x128_S10x16384x128_d0),
    unary main_arg1 main_v136 ((extractStridedSlice S10x128x128 ![45, 0, 0] · slices_S66x128x128_S10x128x128_45_0_0) : (⟨S66x128x128, .f32⟩ : BufTy).Contents (Elt F) → (⟨S10x128x128, .f32⟩ : BufTy).Contents (Elt F)),
    unary main_arg2 main_v137 ((extractStridedSlice S10x128 ![45, 0] · slices_S66x128_S10x128_45_0) : (⟨S66x128, .f32⟩ : BufTy).Contents (Elt F) → (⟨S10x128, .f32⟩ : BufTy).Contents (Elt F)),
    binary main_v135 main_v136 main_v138 ((fun l r => Host.dotGeneral dot_S10x16384x128_S10x128x128_S10x16384x128_2_1_1_2_0_0 none l r) : (⟨S10x16384x128, .f32⟩ : BufTy).Contents (Elt F) → (⟨S10x128x128, .f32⟩ : BufTy).Contents (Elt F) → (⟨S10x16384x128, .f32⟩ : BufTy).Contents (Elt F)),
    unary main_v137 main_v139 (broadcastInDim S10x1x128 ![0, 2] bcast_S10x128_S10x1x128_0_2 : (⟨S10x128, .f32⟩ : BufTy).Contents (Elt F) → (⟨S10x1x128, .f32⟩ : BufTy).Contents (Elt F)),
    unary main_v139 main_v140 (broadcastInDim S10x16384x128 ![0, 1, 2] bcast_S10x1x128_S10x16384x128_0_1_2 : (⟨S10x1x128, .f32⟩ : BufTy).Contents (Elt F) → (⟨S10x16384x128, .f32⟩ : BufTy).Contents (Elt F)),
    binary main_v138 main_v140 main_v141 (addf : (⟨S10x16384x128, .f32⟩ : BufTy).Contents (Elt F) → (⟨S10x16384x128, .f32⟩ : BufTy).Contents (Elt F) → (⟨S10x16384x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S10x16384x128, .f32⟩) main_call9_v0) (broadcastInDim S10x16384x128 ![] bcast_S_S10x16384x128),
    TRef.binary (TRef.of (T := ⟨S10x16384x128, .f32⟩) main_v141) (TRef.of (T := ⟨S10x16384x128, .f32⟩) main_call9_v0) (TRef.of (T := ⟨S10x16384x128, .f32⟩) main_v142) maximumf,
    nullary main_cst_8 (constant S_ .f32 0x00000000#32),
    binary main_v142 main_cst_8 main_v143 ((fun x v => Host.reduceAdd x v reducesTo_S10x16384x128_S16384x128_d0 h_S_) : (⟨S10x16384x128, .f32⟩ : BufTy).Contents (Elt F) → (⟨S_, .f32⟩ : BufTy).Contents (Elt F) → (⟨S16384x128, .f32⟩ : BufTy).Contents (Elt F)) ]

theorem L10_sub : (L10 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub ..⟩

theorem L10_fresh : ∀ op ∈ (L10 : List (HloOp τ sig (Elt F))), op.fresh = ∅ := by
  intro _ h; (repeat (cases h with | head => rfl | tail _ h => ?_)); exact nomatch h

/-- The references the tenth layer writes. -/
abbrev W10 : List (Ref sig .tc) := [main_v125, main_v126, main_v127, main_v128, main_v129, main_v130, main_v131, main_v132, main_v133, main_v134, main_v135, main_v136, main_v137, main_v138, main_v139, main_v140, main_v141, main_call9_cst, main_call9_v0, main_v142, main_cst_8, main_v143]

theorem L10_writes : (L10 : List (HloOp τ sig (Elt F))).Forall fun op => op.writes ⊆ (W10.map (Proc.devRef (τ := τ) .tc)).toFinset := by
  simp only [List.Forall]
  repeat' apply And.intro
  all_goals (simp only [nullary_writes, unary_writes, binary_writes, nary_writes, Finset.singleton_subset_iff, List.mem_toFinset]; exact List.mem_map_of_mem (by decide))

/-- A buffer the tenth layer does not write keeps its contents through it. -/
theorem keep10 (V : Valuation τ sig (Elt F)) {r : Ref sig .tc} (h : r ∉ W10) :
    after L10 V (Proc.devRef .tc r) = V (Proc.devRef .tc r) :=
  after_of_writes_sub L10 V L10_writes h

/-- From the arguments and the first nine layers' sums, the tenth layer leaves `main_v143` at its staged value. -/
theorem sum10 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (h0 : V (Proc.devRef .tc main_arg0) = x0) (h1 : V (Proc.devRef .tc main_arg1) = x1) (h2 : V (Proc.devRef .tc main_arg2) = x2)
    (g1 : V (Proc.devRef .tc main_v8) = ReadP.val_main_v8 (F := F) x0 x1 x2)
    (g2 : V (Proc.devRef .tc main_v19) = ReadP.val_main_v19 (F := F) x0 x1 x2)
    (g3 : V (Proc.devRef .tc main_v31) = ReadP.val_main_v31 (F := F) x0 x1 x2)
    (g4 : V (Proc.devRef .tc main_v44) = ReadP.val_main_v44 (F := F) x0 x1 x2)
    (g5 : V (Proc.devRef .tc main_v58) = ReadP.val_main_v58 (F := F) x0 x1 x2)
    (g6 : V (Proc.devRef .tc main_v73) = ReadP.val_main_v73 (F := F) x0 x1 x2)
    (g7 : V (Proc.devRef .tc main_v89) = ReadP.val_main_v89 (F := F) x0 x1 x2)
    (g8 : V (Proc.devRef .tc main_v106) = ReadP.val_main_v106 (F := F) x0 x1 x2)
    (g9 : V (Proc.devRef .tc main_v124) = ReadP.val_main_v124 (F := F) x0 x1 x2) :
    after L10 V (Proc.devRef .tc main_v143) = ReadP.val_main_v143 (F := F) x0 x1 x2 := by
  after_results_simp
  dsimp only [Matrix.cons_val]
  results_rw
  rw [h0, h1, h2, g1, g2, g3, g4, g5, g6, g7, g8, g9]
  unfold ReadP.val_main_v143 ReadP.val_main_v142 ReadP.val_main_v141 ReadP.val_main_v140 ReadP.val_main_v139 ReadP.val_main_v138 ReadP.val_main_v137 ReadP.val_main_v136 ReadP.val_main_v135 ReadP.val_main_v134 ReadP.val_main_v133 ReadP.val_main_v132 ReadP.val_main_v131 ReadP.val_main_v130 ReadP.val_main_v129 ReadP.val_main_v128 ReadP.val_main_v127 ReadP.val_main_v126 ReadP.val_main_v125 ReadP.val_main_call9_v0 ReadP.val_main_call9_cst ReadP.val_main_cst_8
  rfl

end Cert.ReferenceIdeal.RunP

end
-- ==== Proof.RefRunLayer11.lean ====
import proofs.«165653_j38268158607515_1_alg».proof.Proof.ReadP
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- Each operation's result at its own buffer is its function's value, at another buffer what was there: by rewriting, so that it
    reaches the operands of a concatenate (whose proof of fit depends on the operand list). -/
local macro "results_rw" : tactic =>
  `(tactic| repeat (first
      | rw [nullary_result] | rw [unary_result] | rw [binary_result] | rw [nary_result]
      | (rw [nullary_result_ne]; rotate_left; decide)
      | (rw [unary_result_ne]; rotate_left; decide)
      | (rw [binary_result_ne]; rotate_left; decide)
      | (rw [nary_result_ne]; rotate_left; decide)))

/-- The eleventh layer of @main: from the broadcasts that feed its concatenate to the sum that writes `main_v163`. -/
abbrev L11 : List (HloOp τ sig (Elt F)) :=
  [ unary main_arg0 main_v144 (broadcastInDim S1x16384x128 ![1, 2] bcast_S16384x128_S1x16384x128_1_2 : (⟨S16384x128, .f32⟩ : BufTy).Contents (Elt F) → (⟨S1x16384x128, .f32⟩ : BufTy).Contents (Elt F)),
    unary main_v8 main_v145 (broadcastInDim S1x16384x128 ![1, 2] bcast_S16384x128_S1x16384x128_1_2 : (⟨S16384x128, .f32⟩ : BufTy).Contents (Elt F) → (⟨S1x16384x128, .f32⟩ : BufTy).Contents (Elt F)),
    unary main_v19 main_v146 (broadcastInDim S1x16384x128 ![1, 2] bcast_S16384x128_S1x16384x128_1_2 : (⟨S16384x128, .f32⟩ : BufTy).Contents (Elt F) → (⟨S1x16384x128, .f32⟩ : BufTy).Contents (Elt F)),
    unary main_v31 main_v147 (broadcastInDim S1x16384x128 ![1, 2] bcast_S16384x128_S1x16384x128_1_2 : (⟨S16384x128, .f32⟩ : BufTy).Contents (Elt F) → (⟨S1x16384x128, .f32⟩ : BufTy).Contents (Elt F)),
    unary main_v44 main_v148 (broadcastInDim S1x16384x128 ![1, 2] bcast_S16384x128_S1x16384x128_1_2 : (⟨S16384x128, .f32⟩ : BufTy).Contents (Elt F) → (⟨S1x16384x128, .f32⟩ : BufTy).Contents (Elt F)),
    unary main_v58 main_v149 (broadcastInDim S1x16384x128 ![1, 2] bcast_S16384x128_S1x16384x128_1_2 : (⟨S16384x128, .f32⟩ : BufTy).Contents (Elt F) → (⟨S1x16384x128, .f32⟩ : BufTy).Contents (Elt F)),
    unary main_v73 main_v150 (broadcastInDim S1x16384x128 ![1, 2] bcast_S16384x128_S1x16384x128_1_2 : (⟨S16384x128, .f32⟩ : BufTy).Contents (Elt F) → (⟨S1x16384x128, .f32⟩ : BufTy).Contents (Elt F)),
    unary main_v89 main_v151 (broadcastInDim S1x16384x128 ![1, 2] bcast_S16384x128_S1x16384x128_1_2 : (⟨S16384x128, .f32⟩ : BufTy).Contents (Elt F) → (⟨S1x16384x128, .f32⟩ : BufTy).Contents (Elt F)),
    unary main_v106 main_v152 (broadcastInDim S1x16384x128 ![1, 2] bcast_S16384x128_S1x16384x128_1_2 : (⟨S16384x128, .f32⟩ : BufTy).Contents (Elt F) → (⟨S1x16384x128, .f32⟩ : BufTy).Contents (Elt F)),
    unary main_v124 main_v153 (broadcastInDim S1x16384x128 ![1, 2] bcast_S16384x128_S1x16384x128_1_2 : (⟨S16384x128, .f32⟩ : BufTy).Contents (Elt F) → (⟨S1x16384x128, .f32⟩ : BufTy).Contents (Elt F)),
    unary main_v143 main_v154 (broadcastInDim S1x16384x128 ![1, 2] bcast_S16384x128_S1x16384x128_1_2 : (⟨S16384x128, .f32⟩ : BufTy).Contents (Elt F) → (⟨S1x16384x128, .f32⟩ : BufTy).Contents (Elt F)),
    nary ![main_v144, main_v145, main_v146, main_v147, main_v148, main_v149, main_v150, main_v151, main_v152, main_v153, main_v154] main_v155 (fun u => concatenate S11x16384x128 0 [⟨S1x16384x128, u 0⟩, ⟨S1x16384x128, u 1⟩, ⟨S1x16384x128, u 2⟩, ⟨S1x16384x128, u 3⟩, ⟨S1x16384x128, u 4⟩, ⟨S1x16384x128, u 5⟩, ⟨S1x16384x128, u 6⟩, ⟨S1x16384x128, u 7⟩, ⟨S1x16384x128, u 8⟩, ⟨S1x16384x128, u 9⟩, ⟨S1x16384x128, u 10⟩] concatenates_S1x16384x128_S1x16384x128_S1x16384x128_S1x16384x128_S1x16384x128_S1x16384x128_S1x16384x128_S1x16384x128_S1x16384x128_S1x16384x128_S1x16384x128_S11x16384x128_d0),
    unary main_arg1 main_v156 ((extractStridedSlice S11x128x128 ![55, 0, 0] · slices_S66x128x128_S11x128x128_55_0_0) : (⟨S66x128x128, .f32⟩ : BufTy).Contents (Elt F) → (⟨S11x128x128, .f32⟩ : BufTy).Contents (Elt F)),
    unary main_arg2 main_v157 ((extractStridedSlice S11x128 ![55, 0] · slices_S66x128_S11x128_55_0) : (⟨S66x128, .f32⟩ : BufTy).Contents (Elt F) → (⟨S11x128, .f32⟩ : BufTy).Contents (Elt F)),
    binary main_v155 main_v156 main_v158 ((fun l r => Host.dotGeneral dot_S11x16384x128_S11x128x128_S11x16384x128_2_1_1_2_0_0 none l r) : (⟨S11x16384x128, .f32⟩ : BufTy).Contents (Elt F) → (⟨S11x128x128, .f32⟩ : BufTy).Contents (Elt F) → (⟨S11x16384x128, .f32⟩ : BufTy).Contents (Elt F)),
    unary main_v157 main_v159 (broadcastInDim S11x1x128 ![0, 2] bcast_S11x128_S11x1x128_0_2 : (⟨S11x128, .f32⟩ : BufTy).Contents (Elt F) → (⟨S11x1x128, .f32⟩ : BufTy).Contents (Elt F)),
    unary main_v159 main_v160 (broadcastInDim S11x16384x128 ![0, 1, 2] bcast_S11x1x128_S11x16384x128_0_1_2 : (⟨S11x1x128, .f32⟩ : BufTy).Contents (Elt F) → (⟨S11x16384x128, .f32⟩ : BufTy).Contents (Elt F)),
    binary main_v158 main_v160 main_v161 (addf : (⟨S11x16384x128, .f32⟩ : BufTy).Contents (Elt F) → (⟨S11x16384x128, .f32⟩ : BufTy).Contents (Elt F) → (⟨S11x16384x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S11x16384x128, .f32⟩) main_call10_v0) (broadcastInDim S11x16384x128 ![] bcast_S_S11x16384x128),
    TRef.binary (TRef.of (T := ⟨S11x16384x128, .f32⟩) main_v161) (TRef.of (T := ⟨S11x16384x128, .f32⟩) main_call10_v0) (TRef.of (T := ⟨S11x16384x128, .f32⟩) main_v162) maximumf,
    nullary main_cst_9 (constant S_ .f32 0x00000000#32),
    binary main_v162 main_cst_9 main_v163 ((fun x v => Host.reduceAdd x v reducesTo_S11x16384x128_S16384x128_d0 h_S_) : (⟨S11x16384x128, .f32⟩ : BufTy).Contents (Elt F) → (⟨S_, .f32⟩ : BufTy).Contents (Elt F) → (⟨S16384x128, .f32⟩ : BufTy).Contents (Elt F)) ]

theorem L11_sub : (L11 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub ..⟩

theorem L11_fresh : ∀ op ∈ (L11 : List (HloOp τ sig (Elt F))), op.fresh = ∅ := by
  intro _ h; (repeat (cases h with | head => rfl | tail _ h => ?_)); exact nomatch h

/-- The references the eleventh layer writes. -/
abbrev W11 : List (Ref sig .tc) := [main_v144, main_v145, main_v146, main_v147, main_v148, main_v149, main_v150, main_v151, main_v152, main_v153, main_v154, main_v155, main_v156, main_v157, main_v158, main_v159, main_v160, main_v161, main_call10_cst, main_call10_v0, main_v162, main_cst_9, main_v163]

theorem L11_writes : (L11 : List (HloOp τ sig (Elt F))).Forall fun op => op.writes ⊆ (W11.map (Proc.devRef (τ := τ) .tc)).toFinset := by
  simp only [List.Forall]
  repeat' apply And.intro
  all_goals (simp only [nullary_writes, unary_writes, binary_writes, nary_writes, Finset.singleton_subset_iff, List.mem_toFinset]; exact List.mem_map_of_mem (by decide))

/-- A buffer the eleventh layer does not write keeps its contents through it. -/
theorem keep11 (V : Valuation τ sig (Elt F)) {r : Ref sig .tc} (h : r ∉ W11) :
    after L11 V (Proc.devRef .tc r) = V (Proc.devRef .tc r) :=
  after_of_writes_sub L11 V L11_writes h

/-- From the arguments and the first ten layers' sums, the eleventh layer leaves `main_v163` at its staged value. -/
theorem sum11 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (h0 : V (Proc.devRef .tc main_arg0) = x0) (h1 : V (Proc.devRef .tc main_arg1) = x1) (h2 : V (Proc.devRef .tc main_arg2) = x2)
    (g1 : V (Proc.devRef .tc main_v8) = ReadP.val_main_v8 (F := F) x0 x1 x2)
    (g2 : V (Proc.devRef .tc main_v19) = ReadP.val_main_v19 (F := F) x0 x1 x2)
    (g3 : V (Proc.devRef .tc main_v31) = ReadP.val_main_v31 (F := F) x0 x1 x2)
    (g4 : V (Proc.devRef .tc main_v44) = ReadP.val_main_v44 (F := F) x0 x1 x2)
    (g5 : V (Proc.devRef .tc main_v58) = ReadP.val_main_v58 (F := F) x0 x1 x2)
    (g6 : V (Proc.devRef .tc main_v73) = ReadP.val_main_v73 (F := F) x0 x1 x2)
    (g7 : V (Proc.devRef .tc main_v89) = ReadP.val_main_v89 (F := F) x0 x1 x2)
    (g8 : V (Proc.devRef .tc main_v106) = ReadP.val_main_v106 (F := F) x0 x1 x2)
    (g9 : V (Proc.devRef .tc main_v124) = ReadP.val_main_v124 (F := F) x0 x1 x2)
    (g10 : V (Proc.devRef .tc main_v143) = ReadP.val_main_v143 (F := F) x0 x1 x2) :
    after L11 V (Proc.devRef .tc main_v163) = ReadP.val_main_v163 (F := F) x0 x1 x2 := by
  after_results_simp
  dsimp only [Matrix.cons_val]
  results_rw
  rw [h0, h1, h2, g1, g2, g3, g4, g5, g6, g7, g8, g9, g10]
  unfold ReadP.val_main_v163 ReadP.val_main_v162 ReadP.val_main_v161 ReadP.val_main_v160 ReadP.val_main_v159 ReadP.val_main_v158 ReadP.val_main_v157 ReadP.val_main_v156 ReadP.val_main_v155 ReadP.val_main_v154 ReadP.val_main_v153 ReadP.val_main_v152 ReadP.val_main_v151 ReadP.val_main_v150 ReadP.val_main_v149 ReadP.val_main_v148 ReadP.val_main_v147 ReadP.val_main_v146 ReadP.val_main_v145 ReadP.val_main_v144 ReadP.val_main_call10_v0 ReadP.val_main_call10_cst ReadP.val_main_cst_9
  rfl

end Cert.ReferenceIdeal.RunP

end
-- ==== Proof.RefRunHolds.lean ====
/-
  What the reference's buffers hold between two of its layers: the three arguments as launched, and the stage
  that closes each layer already run at its value.  Two lines of operations run one after the other leave what
  the second leaves from what the first left.
-/
import proofs.«165653_j38268158607515_1_alg».proof.Proof.ReadP
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-! ## Lines run one after the other -/

/-- Two lines run one after the other leave what the second leaves from what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## What the buffers hold between layers -/

/-- The arguments are as launched, and the stages that close the first `n` layers hold their values. -/
structure Holds (V : Valuation τ sig (Elt F)) (x0 : (⟨S16384x128, .f32⟩ : BufTy).Contents (Elt F))
    (x1 : (⟨S66x128x128, .f32⟩ : BufTy).Contents (Elt F)) (x2 : (⟨S66x128, .f32⟩ : BufTy).Contents (Elt F)) (n : ℕ) : Prop where
  a0 : V (Proc.devRef .tc main_arg0) = x0
  a1 : V (Proc.devRef .tc main_arg1) = x1
  a2 : V (Proc.devRef .tc main_arg2) = x2
  n1 : 1 ≤ n → V (Proc.devRef .tc main_v8) = ReadP.val_main_v8 (F := F) x0 x1 x2
  n2 : 2 ≤ n → V (Proc.devRef .tc main_v19) = ReadP.val_main_v19 (F := F) x0 x1 x2
  n3 : 3 ≤ n → V (Proc.devRef .tc main_v31) = ReadP.val_main_v31 (F := F) x0 x1 x2
  n4 : 4 ≤ n → V (Proc.devRef .tc main_v44) = ReadP.val_main_v44 (F := F) x0 x1 x2
  n5 : 5 ≤ n → V (Proc.devRef .tc main_v58) = ReadP.val_main_v58 (F := F) x0 x1 x2
  n6 : 6 ≤ n → V (Proc.devRef .tc main_v73) = ReadP.val_main_v73 (F := F) x0 x1 x2
  n7 : 7 ≤ n → V (Proc.devRef .tc main_v89) = ReadP.val_main_v89 (F := F) x0 x1 x2
  n8 : 8 ≤ n → V (Proc.devRef .tc main_v106) = ReadP.val_main_v106 (F := F) x0 x1 x2
  n9 : 9 ≤ n → V (Proc.devRef .tc main_v124) = ReadP.val_main_v124 (F := F) x0 x1 x2
  n10 : 10 ≤ n → V (Proc.devRef .tc main_v143) = ReadP.val_main_v143 (F := F) x0 x1 x2
  n11 : 11 ≤ n → V (Proc.devRef .tc main_v163) = ReadP.val_main_v163 (F := F) x0 x1 x2

end Cert.ReferenceIdeal.RunP

end
-- ==== Proof.RefRunSteps.lean ====
import proofs.«165653_j38268158607515_1_alg».proof.Proof.RefRunLayer1
import proofs.«165653_j38268158607515_1_alg».proof.Proof.RefRunLayer2
import proofs.«165653_j38268158607515_1_alg».proof.Proof.RefRunLayer3
import proofs.«165653_j38268158607515_1_alg».proof.Proof.RefRunLayer4
import proofs.«165653_j38268158607515_1_alg».proof.Proof.RefRunLayer5
import proofs.«165653_j38268158607515_1_alg».proof.Proof.RefRunLayer6
import proofs.«165653_j38268158607515_1_alg».proof.Proof.RefRunLayer7
import proofs.«165653_j38268158607515_1_alg».proof.Proof.RefRunLayer8
import proofs.«165653_j38268158607515_1_alg».proof.Proof.RefRunLayer9
import proofs.«165653_j38268158607515_1_alg».proof.Proof.RefRunLayer10
import proofs.«165653_j38268158607515_1_alg».proof.Proof.RefRunLayer11
import proofs.«165653_j38268158607515_1_alg».proof.Proof.RefRunHolds

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

theorem step1 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (H : Holds V x0 x1 x2 0) : Holds (after L1 V) x0 x1 x2 1 := by
  obtain ⟨h0, h1, h2, g1, g2, g3, g4, g5, g6, g7, g8, g9, g10, g11⟩ := H
  refine ⟨(keep1 V (by decide)).trans h0, (keep1 V (by decide)).trans h1, (keep1 V (by decide)).trans h2,
    ?_, ?_, ?_, ?_, ?_, ?_, ?_, ?_, ?_, ?_, ?_⟩
  all_goals intro hle
  all_goals first
    | exact absurd hle (by decide)
    | exact sum1 V x0 x1 x2 h0 h1 h2
    | exact (keep1 V (by decide)).trans (by
        first
          | exact g1 (by decide) | exact g2 (by decide) | exact g3 (by decide) | exact g4 (by decide)
          | exact g5 (by decide) | exact g6 (by decide) | exact g7 (by decide) | exact g8 (by decide)
          | exact g9 (by decide) | exact g10 (by decide) | exact g11 (by decide))

theorem step2 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (H : Holds V x0 x1 x2 1) : Holds (after L2 V) x0 x1 x2 2 := by
  obtain ⟨h0, h1, h2, g1, g2, g3, g4, g5, g6, g7, g8, g9, g10, g11⟩ := H
  refine ⟨(keep2 V (by decide)).trans h0, (keep2 V (by decide)).trans h1, (keep2 V (by decide)).trans h2,
    ?_, ?_, ?_, ?_, ?_, ?_, ?_, ?_, ?_, ?_, ?_⟩
  all_goals intro hle
  all_goals first
    | exact absurd hle (by decide)
    | exact sum2 V x0 x1 x2 h0 h1 h2 (g1 (by decide))
    | exact (keep2 V (by decide)).trans (by
        first
          | exact g1 (by decide) | exact g2 (by decide) | exact g3 (by decide) | exact g4 (by decide)
          | exact g5 (by decide) | exact g6 (by decide) | exact g7 (by decide) | exact g8 (by decide)
          | exact g9 (by decide) | exact g10 (by decide) | exact g11 (by decide))

theorem step3 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (H : Holds V x0 x1 x2 2) : Holds (after L3 V) x0 x1 x2 3 := by
  obtain ⟨h0, h1, h2, g1, g2, g3, g4, g5, g6, g7, g8, g9, g10, g11⟩ := H
  refine ⟨(keep3 V (by decide)).trans h0, (keep3 V (by decide)).trans h1, (keep3 V (by decide)).trans h2,
    ?_, ?_, ?_, ?_, ?_, ?_, ?_, ?_, ?_, ?_, ?_⟩
  all_goals intro hle
  all_goals first
    | exact absurd hle (by decide)
    | exact sum3 V x0 x1 x2 h0 h1 h2 (g1 (by decide)) (g2 (by decide))
    | exact (keep3 V (by decide)).trans (by
        first
          | exact g1 (by decide) | exact g2 (by decide) | exact g3 (by decide) | exact g4 (by decide)
          | exact g5 (by decide) | exact g6 (by decide) | exact g7 (by decide) | exact g8 (by decide)
          | exact g9 (by decide) | exact g10 (by decide) | exact g11 (by decide))

theorem step4 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (H : Holds V x0 x1 x2 3) : Holds (after L4 V) x0 x1 x2 4 := by
  obtain ⟨h0, h1, h2, g1, g2, g3, g4, g5, g6, g7, g8, g9, g10, g11⟩ := H
  refine ⟨(keep4 V (by decide)).trans h0, (keep4 V (by decide)).trans h1, (keep4 V (by decide)).trans h2,
    ?_, ?_, ?_, ?_, ?_, ?_, ?_, ?_, ?_, ?_, ?_⟩
  all_goals intro hle
  all_goals first
    | exact absurd hle (by decide)
    | exact sum4 V x0 x1 x2 h0 h1 h2 (g1 (by decide)) (g2 (by decide)) (g3 (by decide))
    | exact (keep4 V (by decide)).trans (by
        first
          | exact g1 (by decide) | exact g2 (by decide) | exact g3 (by decide) | exact g4 (by decide)
          | exact g5 (by decide) | exact g6 (by decide) | exact g7 (by decide) | exact g8 (by decide)
          | exact g9 (by decide) | exact g10 (by decide) | exact g11 (by decide))

theorem step5 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (H : Holds V x0 x1 x2 4) : Holds (after L5 V) x0 x1 x2 5 := by
  obtain ⟨h0, h1, h2, g1, g2, g3, g4, g5, g6, g7, g8, g9, g10, g11⟩ := H
  refine ⟨(keep5 V (by decide)).trans h0, (keep5 V (by decide)).trans h1, (keep5 V (by decide)).trans h2,
    ?_, ?_, ?_, ?_, ?_, ?_, ?_, ?_, ?_, ?_, ?_⟩
  all_goals intro hle
  all_goals first
    | exact absurd hle (by decide)
    | exact sum5 V x0 x1 x2 h0 h1 h2 (g1 (by decide)) (g2 (by decide)) (g3 (by decide)) (g4 (by decide))
    | exact (keep5 V (by decide)).trans (by
        first
          | exact g1 (by decide) | exact g2 (by decide) | exact g3 (by decide) | exact g4 (by decide)
          | exact g5 (by decide) | exact g6 (by decide) | exact g7 (by decide) | exact g8 (by decide)
          | exact g9 (by decide) | exact g10 (by decide) | exact g11 (by decide))

theorem step6 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (H : Holds V x0 x1 x2 5) : Holds (after L6 V) x0 x1 x2 6 := by
  obtain ⟨h0, h1, h2, g1, g2, g3, g4, g5, g6, g7, g8, g9, g10, g11⟩ := H
  refine ⟨(keep6 V (by decide)).trans h0, (keep6 V (by decide)).trans h1, (keep6 V (by decide)).trans h2,
    ?_, ?_, ?_, ?_, ?_, ?_, ?_, ?_, ?_, ?_, ?_⟩
  all_goals intro hle
  all_goals first
    | exact absurd hle (by decide)
    | exact sum6 V x0 x1 x2 h0 h1 h2 (g1 (by decide)) (g2 (by decide)) (g3 (by decide)) (g4 (by decide)) (g5 (by decide))
    | exact (keep6 V (by decide)).trans (by
        first
          | exact g1 (by decide) | exact g2 (by decide) | exact g3 (by decide) | exact g4 (by decide)
          | exact g5 (by decide) | exact g6 (by decide) | exact g7 (by decide) | exact g8 (by decide)
          | exact g9 (by decide) | exact g10 (by decide) | exact g11 (by decide))

theorem step7 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (H : Holds V x0 x1 x2 6) : Holds (after L7 V) x0 x1 x2 7 := by
  obtain ⟨h0, h1, h2, g1, g2, g3, g4, g5, g6, g7, g8, g9, g10, g11⟩ := H
  refine ⟨(keep7 V (by decide)).trans h0, (keep7 V (by decide)).trans h1, (keep7 V (by decide)).trans h2,
    ?_, ?_, ?_, ?_, ?_, ?_, ?_, ?_, ?_, ?_, ?_⟩
  all_goals intro hle
  all_goals first
    | exact absurd hle (by decide)
    | exact sum7 V x0 x1 x2 h0 h1 h2 (g1 (by decide)) (g2 (by decide)) (g3 (by decide)) (g4 (by decide)) (g5 (by decide)) (g6 (by decide))
    | exact (keep7 V (by decide)).trans (by
        first
          | exact g1 (by decide) | exact g2 (by decide) | exact g3 (by decide) | exact g4 (by decide)
          | exact g5 (by decide) | exact g6 (by decide) | exact g7 (by decide) | exact g8 (by decide)
          | exact g9 (by decide) | exact g10 (by decide) | exact g11 (by decide))

theorem step8 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (H : Holds V x0 x1 x2 7) : Holds (after L8 V) x0 x1 x2 8 := by
  obtain ⟨h0, h1, h2, g1, g2, g3, g4, g5, g6, g7, g8, g9, g10, g11⟩ := H
  refine ⟨(keep8 V (by decide)).trans h0, (keep8 V (by decide)).trans h1, (keep8 V (by decide)).trans h2,
    ?_, ?_, ?_, ?_, ?_, ?_, ?_, ?_, ?_, ?_, ?_⟩
  all_goals intro hle
  all_goals first
    | exact absurd hle (by decide)
    | exact sum8 V x0 x1 x2 h0 h1 h2 (g1 (by decide)) (g2 (by decide)) (g3 (by decide)) (g4 (by decide)) (g5 (by decide)) (g6 (by decide)) (g7 (by decide))
    | exact (keep8 V (by decide)).trans (by
        first
          | exact g1 (by decide) | exact g2 (by decide) | exact g3 (by decide) | exact g4 (by decide)
          | exact g5 (by decide) | exact g6 (by decide) | exact g7 (by decide) | exact g8 (by decide)
          | exact g9 (by decide) | exact g10 (by decide) | exact g11 (by decide))

theorem step9 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (H : Holds V x0 x1 x2 8) : Holds (after L9 V) x0 x1 x2 9 := by
  obtain ⟨h0, h1, h2, g1, g2, g3, g4, g5, g6, g7, g8, g9, g10, g11⟩ := H
  refine ⟨(keep9 V (by decide)).trans h0, (keep9 V (by decide)).trans h1, (keep9 V (by decide)).trans h2,
    ?_, ?_, ?_, ?_, ?_, ?_, ?_, ?_, ?_, ?_, ?_⟩
  all_goals intro hle
  all_goals first
    | exact absurd hle (by decide)
    | exact sum9 V x0 x1 x2 h0 h1 h2 (g1 (by decide)) (g2 (by decide)) (g3 (by decide)) (g4 (by decide)) (g5 (by decide)) (g6 (by decide)) (g7 (by decide)) (g8 (by decide))
    | exact (keep9 V (by decide)).trans (by
        first
          | exact g1 (by decide) | exact g2 (by decide) | exact g3 (by decide) | exact g4 (by decide)
          | exact g5 (by decide) | exact g6 (by decide) | exact g7 (by decide) | exact g8 (by decide)
          | exact g9 (by decide) | exact g10 (by decide) | exact g11 (by decide))

theorem step10 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (H : Holds V x0 x1 x2 9) : Holds (after L10 V) x0 x1 x2 10 := by
  obtain ⟨h0, h1, h2, g1, g2, g3, g4, g5, g6, g7, g8, g9, g10, g11⟩ := H
  refine ⟨(keep10 V (by decide)).trans h0, (keep10 V (by decide)).trans h1, (keep10 V (by decide)).trans h2,
    ?_, ?_, ?_, ?_, ?_, ?_, ?_, ?_, ?_, ?_, ?_⟩
  all_goals intro hle
  all_goals first
    | exact absurd hle (by decide)
    | exact sum10 V x0 x1 x2 h0 h1 h2 (g1 (by decide)) (g2 (by decide)) (g3 (by decide)) (g4 (by decide)) (g5 (by decide)) (g6 (by decide)) (g7 (by decide)) (g8 (by decide)) (g9 (by decide))
    | exact (keep10 V (by decide)).trans (by
        first
          | exact g1 (by decide) | exact g2 (by decide) | exact g3 (by decide) | exact g4 (by decide)
          | exact g5 (by decide) | exact g6 (by decide) | exact g7 (by decide) | exact g8 (by decide)
          | exact g9 (by decide) | exact g10 (by decide) | exact g11 (by decide))

theorem step11 (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (H : Holds V x0 x1 x2 10) : Holds (after L11 V) x0 x1 x2 11 := by
  obtain ⟨h0, h1, h2, g1, g2, g3, g4, g5, g6, g7, g8, g9, g10, g11⟩ := H
  refine ⟨(keep11 V (by decide)).trans h0, (keep11 V (by decide)).trans h1, (keep11 V (by decide)).trans h2,
    ?_, ?_, ?_, ?_, ?_, ?_, ?_, ?_, ?_, ?_, ?_⟩
  all_goals intro hle
  all_goals first
    | exact absurd hle (by decide)
    | exact sum11 V x0 x1 x2 h0 h1 h2 (g1 (by decide)) (g2 (by decide)) (g3 (by decide)) (g4 (by decide)) (g5 (by decide)) (g6 (by decide)) (g7 (by decide)) (g8 (by decide)) (g9 (by decide)) (g10 (by decide))
    | exact (keep11 V (by decide)).trans (by
        first
          | exact g1 (by decide) | exact g2 (by decide) | exact g3 (by decide) | exact g4 (by decide)
          | exact g5 (by decide) | exact g6 (by decide) | exact g7 (by decide) | exact g8 (by decide)
          | exact g9 (by decide) | exact g10 (by decide) | exact g11 (by decide))

end Cert.ReferenceIdeal.RunP

end
-- ==== Proof.RefRun.lean ====
/-
  The reference's run, layer by layer.

  The reference is a straight line of host operations in eleven layers; layer `n` reads the arguments and the
  stages that closed the earlier layers, and ends in the sum that is the stage of node `n`.  A layer writes only
  its own buffers, so what the arguments and the earlier stages hold passes through it unchanged, and its own
  stage is its operations applied to them.  Chaining the eleven layers from the launch contents gives the result
  buffer at the last stage of the argument arrays; the run of a straight line of host operations terminates
  without a fault and leaves every buffer at the fold of the operations' results.
-/
import proofs.«165653_j38268158607515_1_alg».proof.Proof.RefRunSteps
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

theorem forall_append {p : HloOp τ sig (Elt F) → Prop} {l₁ l₂ : List (HloOp τ sig (Elt F))}
    (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.1 h).elim (h₁ op) (h₂ op)

/-- @main's operations: the eleven layers in order. -/
abbrev ops : List (HloOp τ sig (Elt F)) :=
  L1 ++ (L2 ++ (L3 ++ (L4 ++ (L5 ++ (L6 ++ (L7 ++ (L8 ++ (L9 ++ (L10 ++ L11)))))))))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append L1_sub (forall_append L2_sub (forall_append L3_sub (forall_append L4_sub (forall_append L5_sub
    (forall_append L6_sub (forall_append L7_sub (forall_append L8_sub (forall_append L9_sub (forall_append L10_sub L11_sub)))))))))

theorem ops_fresh : ∀ op ∈ (ops : List (HloOp τ sig (Elt F))), op.fresh = ∅ :=
  fresh_append L1_fresh (fresh_append L2_fresh (fresh_append L3_fresh (fresh_append L4_fresh (fresh_append L5_fresh
    (fresh_append L6_fresh (fresh_append L7_fresh (fresh_append L8_fresh (fresh_append L9_fresh (fresh_append L10_fresh L11_fresh)))))))))

/-- After all eleven layers every stage holds its value and the arguments are as launched. -/
theorem holds_all (V : Valuation τ sig (Elt F)) (x0 : (⟨S16384x128, .f32⟩ : BufTy).Contents (Elt F)) (x1 : (⟨S66x128x128, .f32⟩ : BufTy).Contents (Elt F)) (x2 : (⟨S66x128, .f32⟩ : BufTy).Contents (Elt F))
    (h0 : V (Proc.devRef .tc main_arg0) = x0) (h1 : V (Proc.devRef .tc main_arg1) = x1) (h2 : V (Proc.devRef .tc main_arg2) = x2) :
    Holds (after ops V) x0 x1 x2 11 := by
  have H0 : Holds V x0 x1 x2 0 := ⟨h0, h1, h2, fun h => absurd h (by decide), fun h => absurd h (by decide), fun h => absurd h (by decide),
    fun h => absurd h (by decide), fun h => absurd h (by decide), fun h => absurd h (by decide), fun h => absurd h (by decide),
    fun h => absurd h (by decide), fun h => absurd h (by decide), fun h => absurd h (by decide), fun h => absurd h (by decide)⟩
  unfold ops
  rw [after_append, after_append, after_append, after_append, after_append, after_append, after_append, after_append,
    after_append, after_append]
  exact step11 _ x0 x1 x2 (step10 _ x0 x1 x2 (step9 _ x0 x1 x2 (step8 _ x0 x1 x2 (step7 _ x0 x1 x2 (step6 _ x0 x1 x2
    (step5 _ x0 x1 x2 (step4 _ x0 x1 x2 (step3 _ x0 x1 x2 (step2 _ x0 x1 x2 (step1 V x0 x1 x2 H0))))))))))

/-! ## The run -/

/-- Every weakly fair execution of the reference terminates with its result at the last stage of the argument
    arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v163) = ReadP.val_main_v163 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      have H := holds_all (F := F) (launchContents m c) _ _ _ rfl rfl rfl
      exact ⟨(h c main_v163).trans (H.n11 (le_refl 11)), (h c main_arg0).trans H.a0, (h c main_arg1).trans H.a1,
        (h c main_arg2).trans H.a2⟩)
    (run_seq scopedRefs_eq scopedSems_eq defs main (fun _ => ops) main_eq (fun _ => ops_sub) m ρ (fun _ => ops_fresh))

end Cert.ReferenceIdeal.RunP

end
-- ==== Proof.lean ====
/-
  Sum-aggregated message passing over the complete DAG on twelve nodes, a Pallas kernel against its jnp reference.

  Both programs compute, for every row `R` of the input `x : f32[16384, 128]`, the value of node 11 of the DAG:
  node 0 is the row; node `n + 1` is the sum over the earlier nodes `j ≤ n` of `max (node j · W_e + b_e) 0` with
  `e = n (n + 1) / 2 + j`.  The kernel walks the 66 edges in that order on blocks of 2048 rows, adding each edge
  term to a running sum that starts at zero; the reference stacks the earlier nodes, takes one batched product
  per node and sums over the stack.  Over the extended reals a change of float format is the identity, a product
  into a zero accumulator and the host's `dot_general` are the same finite sum, and the two bracketings of a
  node's sum agree because addition is associative there; no entry needs to be finite.

  The three frames: the kernel's two are its generated frame certificates; the reference's is its run with the
  result forgotten.  The ideal pass rewrote nothing, so `preserves` is `True`.  For `algebraic` both runs are
  posted at the one function `G` of the argument arrays (row `R` of `G x W b` = node 11 on row `R` of `x`).
-/
import proofs.«165653_j38268158607515_1_alg».proof.Defs
import proofs.«165653_j38268158607515_1_alg».proof.Proof.Gen.Kernel
import proofs.«165653_j38268158607515_1_alg».proof.Proof.Gen.Kernel.Frame
import proofs.«165653_j38268158607515_1_alg».proof.Proof.Gen.KernelIdeal
import proofs.«165653_j38268158607515_1_alg».proof.Proof.Gen.KernelIdeal.Frame
import proofs.«165653_j38268158607515_1_alg».proof.Proof.Gen.ReferenceIdeal
import proofs.«165653_j38268158607515_1_alg».proof.Proof.Gen.Pre_finite_inputs
import proofs.«165653_j38268158607515_1_alg».proof.Proof.KernelArray
import proofs.«165653_j38268158607515_1_alg».proof.Proof.RefValue
import proofs.«165653_j38268158607515_1_alg».proof.Proof.RefRun
import Idealize.ShloMosaic.Adequacy
import Idealize.ShloMosaic.Init

noncomputable section

namespace Cert.Proof

open Idealize.ShloMosaic Idealize.SL.Sem Idealize.ShloMosaic.ValueIdx

/-- The reference's result array is the kernel's: row `R` of either is node 11 of the DAG on row `R` of `x`. -/
theorem ref_eq_G (x0 : (⟨Cert.ReferenceIdeal.S16384x128, .f32⟩ : BufTy).Contents (Elt Ideal))
    (x1 : (⟨Cert.ReferenceIdeal.S66x128x128, .f32⟩ : BufTy).Contents (Elt Ideal))
    (x2 : (⟨Cert.ReferenceIdeal.S66x128, .f32⟩ : BufTy).Contents (Elt Ideal)) :
    Cert.ReferenceIdeal.ReadP.val_main_v163 (F := Ideal) x0 x1 x2 = Cert.KernelIdeal.Array.G x0 x1 x2 := by
  funext i
  have hi : i = ix2 (⟨(i 0).val, (i 0).isLt⟩ : Fin 16384) (⟨(i 1).val, (i 1).isLt⟩ : Fin 128) :=
    funext fun a => by match a with | ⟨0, _⟩ => rfl | ⟨1, _⟩ => rfl
  refine (congrArg (Cert.ReferenceIdeal.ReadP.val_main_v163 (F := Ideal) x0 x1 x2) hi).trans ?_
  exact Cert.RefDag.ref_value x0 x1 x2 ⟨(i 0).val, (i 0).isLt⟩ ⟨(i 1).val, (i 1).isLt⟩

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote nothing, so there is nothing to preserve. -/
theorem preserves : Cert.preserves_Kernel_KernelIdeal := trivial

/-- Both programs end with the result array at `G` of the (agreeing) argument arrays. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2.1, (hagree c).2.2]
  exact ref_eq_G _ _ _

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
